-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v295) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x10x192x320 : Shape := ⟨4, ![32, 10, 192, 320]⟩
abbrev S_ : Shape := ⟨0, ![]⟩

class Facts : Prop where
  bcast_S_S32x10x192x320 : S_.BroadcastsInDim S32x10x192x320 (![] : Fin 0 → Fin S32x10x192x320.rank)
  reducesTo_S32x10x192x320_S_d0_1_2_3 : S32x10x192x320.ReducesTo [0, 1, 2, 3] S_
  h_S_ : 0 < S_.numel

variable [Facts]

def fn {F : FTy → Type} [FloatOps F] (main_arg0 : FVec F S32x10x192x320 .f32) (main_arg1 : FVec F S32x10x192x320 .f32) : IVec S_ 1 :=
  let main_v0 : FVec F S32x10x192x320 .f32 := Host.absf main_arg0
  let main_cst : FVec F S_ .f32 := constant S_ .f32 0x7F800000#32
  let main_v1 : FVec F S32x10x192x320 .f32 := broadcastInDim S32x10x192x320 ![] bcast_S_S32x10x192x320 main_cst
  let main_v2 : IVec S32x10x192x320 1 := cmpf .olt main_v0 main_v1
  let main_c : IVec S_ 1 := constantI S_ 1 1#1
  let main_v3 : IVec S_ 1 := (fun x v => Host.reduce IntOp.andi x v reducesTo_S32x10x192x320_S_d0_1_2_3 h_S_) main_v2 main_c
  let main_v4 : FVec F S32x10x192x320 .f32 := Host.absf main_arg1
  let main_cst_0 : FVec F S_ .f32 := constant S_ .f32 0x7F800000#32
  let main_v5 : FVec F S32x10x192x320 .f32 := broadcastInDim S32x10x192x320 ![] bcast_S_S32x10x192x320 main_cst_0
  let main_v6 : IVec S32x10x192x320 1 := cmpf .olt main_v4 main_v5
  let main_c_1 : IVec S_ 1 := constantI S_ 1 1#1
  let main_v7 : IVec S_ 1 := (fun x v => Host.reduce IntOp.andi x v reducesTo_S32x10x192x320_S_d0_1_2_3 h_S_) main_v6 main_c_1
  let main_v8 : IVec S_ 1 := andi main_v3 main_v7
  main_v8
-- ==== Kernel.lean ====
abbrev S32x10x192x320 : Shape := ⟨4, ![32, 10, 192, 320]⟩
abbrev S1x128 : Shape := ⟨2, ![1, 128]⟩
abbrev S4x10x192x320 : Shape := ⟨4, ![4, 10, 192, 320]⟩
abbrev S4x1x192x320 : Shape := ⟨4, ![4, 1, 192, 320]⟩
abbrev S4x192x320 : Shape := ⟨3, ![4, 192, 320]⟩
abbrev S1x4x192x320 : Shape := ⟨4, ![1, 4, 192, 320]⟩
abbrev S1 : Shape := ⟨1, ![1]⟩
abbrev S1x1x1x1 : Shape := ⟨4, ![1, 1, 1, 1]⟩
abbrev S1x1 : Shape := ⟨2, ![1, 1]⟩
abbrev S1x14 : Shape := ⟨2, ![1, 14]⟩
abbrev S1x114 : Shape := ⟨2, ![1, 114]⟩
abbrev S128 : Shape := ⟨1, ![128]⟩
abbrev S_ : Shape := ⟨0, ![]⟩

abbrev nBuf : Space → Nat
  | .hbm => 89
  | .vmem => 5
  | .smem => 0
  | _ => 0

abbrev bufTy : (tb : Table) → Fin (tcTables nBuf tb) → BufTy
  | .hbm, ⟨0, _⟩ => ⟨S32x10x192x320, .f32⟩
  | .hbm, ⟨1, _⟩ => ⟨S32x10x192x320, .f32⟩
  | .hbm, ⟨2, _⟩ => ⟨S1x128, .f32⟩
  | .hbm, ⟨3, _⟩ => ⟨S128, .f32⟩
  | .hbm, ⟨4, _⟩ => ⟨S1, .f32⟩
  | .hbm, ⟨5, _⟩ => ⟨S_, .f32⟩
  | .hbm, ⟨6, _⟩ => ⟨S1, .f32⟩
  | .hbm, ⟨7, _⟩ => ⟨S_, .f32⟩
  | .hbm, ⟨8, _⟩ => ⟨S1, .f32⟩
  | .hbm, ⟨9, _⟩ => ⟨S_, .f32⟩
  | .hbm, ⟨10, _⟩ => ⟨S1, .f32⟩
  | .hbm, ⟨11, _⟩ => ⟨S_, .f32⟩
  | .hbm, ⟨12, _⟩ => ⟨S1, .f32⟩
  | .hbm, ⟨13, _⟩ => ⟨S_, .f32⟩
  | .hbm, ⟨14, _⟩ => ⟨S1, .f32⟩
  | .hbm, ⟨15, _⟩ => ⟨S_, .f32⟩
  | .hbm, ⟨16, _⟩ => ⟨S1, .f32⟩
  | .hbm, ⟨17, _⟩ => ⟨S_, .f32⟩
  | .hbm, ⟨18, _⟩ => ⟨S1, .f32⟩
  | .hbm, ⟨19, _⟩ => ⟨S_, .f32⟩
  | .hbm, ⟨20, _⟩ => ⟨S1, .f32⟩
  | .hbm, ⟨21, _⟩ => ⟨S_, .f32⟩
  | .hbm, ⟨22, _⟩ => ⟨S1, .f32⟩
  | .hbm, ⟨23, _⟩ => ⟨S_, .f32⟩
  | .hbm, ⟨24, _⟩ => ⟨S1, .f32⟩
  | .hbm, ⟨25, _⟩ => ⟨S_, .f32⟩
  | .hbm, ⟨26, _⟩ => ⟨S1, .f32⟩
  | .hbm, ⟨27, _⟩ => ⟨S_, .f32⟩
  | .hbm, ⟨28, _⟩ => ⟨S1, .f32⟩
  | .hbm, ⟨29, _⟩ => ⟨S_, .f32⟩
  | .hbm, ⟨30, _⟩ => ⟨S1, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .i1⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .local _ .vmem, ⟨0, _⟩ => ⟨S4x10x192x320, .f32⟩
  | .local _ .vmem, ⟨1, _⟩ => ⟨S4x10x192x320, .f32⟩
  | .local _ .vmem, ⟨2, _⟩ => ⟨S4x10x192x320, .f32⟩
  | .local _ .vmem, ⟨3, _⟩ => ⟨S4x10x192x320, .f32⟩
  | .local _ .vmem, ⟨4, _⟩ => ⟨S1x128, .f32⟩
  | _, _ => ⟨S32x10x192x320, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩
abbrev main_v29 : Ref sig .tc := ⟨.hbm, 31, rfl⟩
abbrev main_v30 : Ref sig .tc := ⟨.hbm, 32, rfl⟩
abbrev main_v31 : Ref sig .tc := ⟨.hbm, 33, rfl⟩
abbrev main_cst : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_cst_0 : Ref sig .tc := ⟨.hbm, 39, rfl⟩
abbrev main_v36 : Ref sig .tc := ⟨.hbm, 40, rfl⟩
abbrev main_cst_1 : Ref sig .tc := ⟨.hbm, 41, rfl⟩
abbrev main_v37 : Ref sig .tc := ⟨.hbm, 42, rfl⟩
abbrev main_v38 : Ref sig .tc := ⟨.hbm, 43, rfl⟩
abbrev main_cst_2 : Ref sig .tc := ⟨.hbm, 44, rfl⟩
abbrev main_v39 : Ref sig .tc := ⟨.hbm, 45, rfl⟩
abbrev main_cst_3 : Ref sig .tc := ⟨.hbm, 46, rfl⟩
abbrev main_v40 : Ref sig .tc := ⟨.hbm, 47, rfl⟩
abbrev main_v41 : Ref sig .tc := ⟨.hbm, 48, rfl⟩
abbrev main_cst_4 : Ref sig .tc := ⟨.hbm, 49, rfl⟩
abbrev main_v42 : Ref sig .tc := ⟨.hbm, 50, rfl⟩
abbrev main_cst_5 : Ref sig .tc := ⟨.hbm, 51, rfl⟩
abbrev main_v43 : Ref sig .tc := ⟨.hbm, 52, rfl⟩
abbrev main_v44 : Ref sig .tc := ⟨.hbm, 53, rfl⟩
abbrev main_cst_6 : Ref sig .tc := ⟨.hbm, 54, rfl⟩
abbrev main_v45 : Ref sig .tc := ⟨.hbm, 55, rfl⟩
abbrev main_cst_7 : Ref sig .tc := ⟨.hbm, 56, rfl⟩
abbrev main_v46 : Ref sig .tc := ⟨.hbm, 57, rfl⟩
abbrev main_v47 : Ref sig .tc := ⟨.hbm, 58, rfl⟩
abbrev main_cst_8 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_cst_9 : Ref sig .tc := ⟨.hbm, 63, rfl⟩
abbrev main_v51 : Ref sig .tc := ⟨.hbm, 64, rfl⟩
abbrev main_cst_10 : Ref sig .tc := ⟨.hbm, 65, rfl⟩
abbrev main_v52 : Ref sig .tc := ⟨.hbm, 66, rfl⟩
abbrev main_v53 : Ref sig .tc := ⟨.hbm, 67, rfl⟩
abbrev main_cst_11 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_cst_12 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_cst_13 : Ref sig .tc := ⟨.hbm, 77, rfl⟩
abbrev main_v61 : Ref sig .tc := ⟨.hbm, 78, rfl⟩
abbrev main_v62 : Ref sig .tc := ⟨.hbm, 79, rfl⟩
abbrev main_cst_14 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x10x192x320 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x10x192x320 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  inb_S1x128_S1x128_0_0 : ∀ a, (![0, 0] : Fin 2 → Nat) a + S1x128.size a ≤ S1x128.size a
  h_S1x128 : 0 < S1x128.numel
  inb_S4x10x192x320_S4x10x192x320_0_0_0_0 : ∀ a, (![0, 0, 0, 0] : Fin 4 → Nat) a + S4x10x192x320.size a ≤ S4x10x192x320.size a
  h_S4x10x192x320 : 0 < S4x10x192x320.numel
  slices_S4x10x192x320_o0_0_0_0_S4x1x192x320 : S4x10x192x320.Slices ![0, 0, 0, 0] S4x1x192x320
  shapeCasts_S4x1x192x320_S4x192x320 : S4x1x192x320.ShapeCasts S4x192x320
  natLt_1_32 : 1 < 32
  shapeCasts_S4x192x320_S1x4x192x320 : S4x192x320.ShapeCasts S1x4x192x320
  reduces_S1x4x192x320_S1 : S1x4x192x320.Reduces [1, 2, 3] S1
  shapeCasts_S1_S1x1x1x1 : S1.ShapeCasts S1x1x1x1
  inpos_S1x1x1x1_p0_0_0_0 : ∀ a, (![0, 0, 0, 0] : Fin 4 → Nat) a < S1x1x1x1.size a
  slices_S4x10x192x320_o0_1_0_0_S4x1x192x320 : S4x10x192x320.Slices ![0, 1, 0, 0] S4x1x192x320
  slices_S4x10x192x320_o0_2_0_0_S4x1x192x320 : S4x10x192x320.Slices ![0, 2, 0, 0] S4x1x192x320
  slices_S4x10x192x320_o0_3_0_0_S4x1x192x320 : S4x10x192x320.Slices ![0, 3, 0, 0] S4x1x192x320
  slices_S4x10x192x320_o0_6_0_0_S4x1x192x320 : S4x10x192x320.Slices ![0, 6, 0, 0] S4x1x192x320
  slices_S4x10x192x320_o0_4_0_0_S4x1x192x320 : S4x10x192x320.Slices ![0, 4, 0, 0] S4x1x192x320
  slices_S4x10x192x320_o0_7_0_0_S4x1x192x320 : S4x10x192x320.Slices ![0, 7, 0, 0] S4x1x192x320
  slices_S4x10x192x320_o0_5_0_0_S4x1x192x320 : S4x10x192x320.Slices ![0, 5, 0, 0] S4x1x192x320
  slices_S4x10x192x320_o0_8_0_0_S4x1x192x320 : S4x10x192x320.Slices ![0, 8, 0, 0] S4x1x192x320
  slices_S4x10x192x320_o0_9_0_0_S4x1x192x320 : S4x10x192x320.Slices ![0, 9, 0, 0] S4x1x192x320
  concatenates_S1x1_S1x1_S1x1_S1x1_S1x1_S1x1_S1x1_S1x1_S1x1_S1x1_S1x1_S1x1_S1x1_S1x1_S1x14_d1 : Shape.Concatenates [S1x1, S1x1, S1x1, S1x1, S1x1, S1x1, S1x1, S1x1, S1x1, S1x1, S1x1, S1x1, S1x1, S1x1] S1x14 1
  concatenates_S1x14_S1x114_S1x128_d1 : Shape.Concatenates [S1x14, S1x114] S1x128 1
  shapeCasts_S1x128_S1x128 : S1x128.ShapeCasts S1x128
  shapeCasts_S1x128_S128 : S1x128.ShapeCasts S128
  slices_S128_S1_0 : S128.Slices ![0] S1
  shapeCasts_S1_S_ : S1.ShapeCasts S_
  slices_S128_S1_1 : S128.Slices ![1] S1
  slices_S128_S1_2 : S128.Slices ![2] S1
  slices_S128_S1_3 : S128.Slices ![3] S1
  slices_S128_S1_4 : S128.Slices ![4] S1
  slices_S128_S1_5 : S128.Slices ![5] S1
  slices_S128_S1_6 : S128.Slices ![6] S1
  slices_S128_S1_7 : S128.Slices ![7] S1
  slices_S128_S1_8 : S128.Slices ![8] S1
  slices_S128_S1_9 : S128.Slices ![9] S1
  slices_S128_S1_10 : S128.Slices ![10] S1
  slices_S128_S1_11 : S128.Slices ![11] S1
  slices_S128_S1_12 : S128.Slices ![12] S1
  slices_S128_S1_13 : S128.Slices ![13] S1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x10x192x320.size a ≤ S32x10x192x320.size a
  hwx0_0 : ∀ i : grid0.Coords, EltTy.bits .f32 = 32 ∨ (Rect.block (s := S32x10x192x320) S4x10x192x320.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x10x192x320.size a ≤ S32x10x192x320.size a
  hwx0_1 : ∀ i : grid0.Coords, EltTy.bits .f32 = 32 ∨ (Rect.block (s := S32x10x192x320) S4x10x192x320.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)

variable [Facts₀]

abbrev win0_0 : Pipeline.Window sig grid0 :=
  Pipeline.Window.ofSpec (Memref.whole main_arg0) S4x10x192x320.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4x10x192x320.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x10x192x320 : Shape := ⟨4, ![32, 10, 192, 320]⟩
abbrev S32x1x192x320 : Shape := ⟨4, ![32, 1, 192, 320]⟩
abbrev S32x192x320 : Shape := ⟨3, ![32, 192, 320]⟩
abbrev S_ : Shape := ⟨0, ![]⟩

abbrev nBuf : Space → Nat
  | .hbm => 379
  | .vmem => 0
  | .smem => 0
  | _ => 0

abbrev hbmTy0_0 (i : Nat) : BufTy := match i % 128 with
  | 0 => ⟨S32x10x192x320, .f32⟩
  | 1 => ⟨S32x10x192x320, .f32⟩
  | 2 => ⟨S32x1x192x320, .f32⟩
  | 3 => ⟨S32x192x320, .f32⟩
  | 4 => ⟨S32x1x192x320, .f32⟩
  | 5 => ⟨S32x192x320, .f32⟩
  | 6 => ⟨S_, .f32⟩
  | 7 => ⟨S32x192x320, .f32⟩
  | 8 => ⟨S32x192x320, .i1⟩
  | 9 => ⟨S_, .f32⟩
  | 10 => ⟨S32x192x320, .f32⟩
  | 11 => ⟨S32x192x320, .i1⟩
  | 12 => ⟨S32x192x320, .f32⟩
  | 13 => ⟨S32x192x320, .f32⟩
  | 14 => ⟨S_, .f32⟩
  | 15 => ⟨S_, .f32⟩
  | 16 => ⟨S_, .f32⟩
  | 17 => ⟨S32x192x320, .f32⟩
  | 18 => ⟨S32x192x320, .i1⟩
  | 19 => ⟨S32x192x320, .f32⟩
  | 20 => ⟨S32x192x320, .f32⟩
  | 21 => ⟨S_, .f32⟩
  | 22 => ⟨S32x192x320, .f32⟩
  | 23 => ⟨S32x192x320, .i1⟩
  | 24 => ⟨S32x192x320, .f32⟩
  | 25 => ⟨S32x192x320, .f32⟩
  | 26 => ⟨S_, .f32⟩
  | 27 => ⟨S_, .f32⟩
  | 28 => ⟨S_, .f32⟩
  | 29 => ⟨S_, .f32⟩
  | 30 => ⟨S_, .f32⟩
  | 31 => ⟨S32x192x320, .f32⟩
  | 32 => ⟨S32x192x320, .f32⟩
  | 33 => ⟨S_, .f32⟩
  | 34 => ⟨S32x192x320, .f32⟩
  | 35 => ⟨S32x192x320, .f32⟩
  | 36 => ⟨S32x192x320, .f32⟩
  | 37 => ⟨S32x192x320, .f32⟩
  | 38 => ⟨S32x192x320, .f32⟩
  | 39 => ⟨S_, .f32⟩
  | 40 => ⟨S32x192x320, .f32⟩
  | 41 => ⟨S32x192x320, .f32⟩
  | 42 => ⟨S32x192x320, .f32⟩
  | 43 => ⟨S32x192x320, .f32⟩
  | 44 => ⟨S_, .f32⟩
  | 45 => ⟨S_, .f32⟩
  | 46 => ⟨S_, .f32⟩
  | 47 => ⟨S32x192x320, .f32⟩
  | 48 => ⟨S32x192x320, .f32⟩
  | 49 => ⟨S_, .f32⟩
  | 50 => ⟨S32x192x320, .f32⟩
  | 51 => ⟨S32x192x320, .f32⟩
  | 52 => ⟨S32x192x320, .f32⟩
  | 53 => ⟨S32x192x320, .f32⟩
  | 54 => ⟨S_, .f32⟩
  | 55 => ⟨S32x192x320, .f32⟩
  | 56 => ⟨S32x192x320, .f32⟩
  | 57 => ⟨S32x192x320, .f32⟩
  | 58 => ⟨S32x192x320, .f32⟩
  | 59 => ⟨S32x192x320, .f32⟩
  | 60 => ⟨S_, .f32⟩
  | 61 => ⟨S_, .f32⟩
  | 62 => ⟨S_, .f32⟩
  | 63 => ⟨S_, .f32⟩
  | 64 => ⟨S_, .i1⟩
  | 65 => ⟨S_, .f32⟩
  | 66 => ⟨S_, .f32⟩
  | 67 => ⟨S_, .f32⟩
  | 68 => ⟨S_, .f32⟩
  | 69 => ⟨S_, .f32⟩
  | 70 => ⟨S32x1x192x320, .f32⟩
  | 71 => ⟨S32x192x320, .f32⟩
  | 72 => ⟨S32x1x192x320, .f32⟩
  | 73 => ⟨S32x192x320, .f32⟩
  | 74 => ⟨S32x192x320, .f32⟩
  | 75 => ⟨S32x192x320, .f32⟩
  | 76 => ⟨S_, .f32⟩
  | 77 => ⟨S32x192x320, .f32⟩
  | 78 => ⟨S32x192x320, .i1⟩
  | 79 => ⟨S_, .f32⟩
  | 80 => ⟨S32x192x320, .f32⟩
  | 81 => ⟨S32x192x320, .f32⟩
  | 82 => ⟨S32x192x320, .f32⟩
  | 83 => ⟨S_, .f32⟩
  | 84 => ⟨S32x192x320, .f32⟩
  | 85 => ⟨S32x192x320, .f32⟩
  | 86 => ⟨S32x192x320, .f32⟩
  | 87 => ⟨S32x192x320, .f32⟩
  | 88 => ⟨S_, .f32⟩
  | 89 => ⟨S_, .f32⟩
  | 90 => ⟨S_, .f32⟩
  | 91 => ⟨S_, .f32⟩
  | 92 => ⟨S32x1x192x320, .f32⟩
  | 93 => ⟨S32x192x320, .f32⟩
  | 94 => ⟨S32x1x192x320, .f32⟩
  | 95 => ⟨S32x192x320, .f32⟩
  | 96 => ⟨S32x192x320, .f32⟩
  | 97 => ⟨S32x192x320, .f32⟩
  | 98 => ⟨S_, .f32⟩
  | 99 => ⟨S32x192x320, .f32⟩
  | 100 => ⟨S32x192x320, .i1⟩
  | 101 => ⟨S_, .f32⟩
  | 102 => ⟨S32x192x320, .f32⟩
  | 103 => ⟨S32x192x320, .f32⟩
  | 104 => ⟨S32x192x320, .f32⟩
  | 105 => ⟨S_, .f32⟩
  | 106 => ⟨S32x192x320, .f32⟩
  | 107 => ⟨S32x192x320, .f32⟩
  | 108 => ⟨S32x192x320, .f32⟩
  | 109 => ⟨S32x192x320, .f32⟩
  | 110 => ⟨S_, .f32⟩
  | 111 => ⟨S_, .f32⟩
  | 112 => ⟨S_, .f32⟩
  | 113 => ⟨S_, .f32⟩
  | 114 => ⟨S_, .f32⟩
  | 115 => ⟨S_, .f32⟩
  | 116 => ⟨S_, .f32⟩
  | 117 => ⟨S_, .f32⟩
  | 118 => ⟨S32x1x192x320, .f32⟩
  | 119 => ⟨S32x192x320, .f32⟩
  | 120 => ⟨S32x1x192x320, .f32⟩
  | 121 => ⟨S32x192x320, .f32⟩
  | 122 => ⟨S32x192x320, .f32⟩
  | 123 => ⟨S32x192x320, .f32⟩
  | 124 => ⟨S_, .f32⟩
  | 125 => ⟨S32x192x320, .f32⟩
  | 126 => ⟨S32x192x320, .i1⟩
  | 127 => ⟨S_, .f32⟩
  | _ => ⟨S32x10x192x320, .f32⟩

abbrev hbmTy0_1 (i : Nat) : BufTy := match i % 128 with
  | 0 => ⟨S32x192x320, .f32⟩
  | 1 => ⟨S32x192x320, .f32⟩
  | 2 => ⟨S32x192x320, .f32⟩
  | 3 => ⟨S_, .f32⟩
  | 4 => ⟨S32x192x320, .f32⟩
  | 5 => ⟨S32x192x320, .f32⟩
  | 6 => ⟨S32x192x320, .f32⟩
  | 7 => ⟨S32x192x320, .f32⟩
  | 8 => ⟨S_, .f32⟩
  | 9 => ⟨S_, .f32⟩
  | 10 => ⟨S_, .f32⟩
  | 11 => ⟨S_, .f32⟩
  | 12 => ⟨S32x1x192x320, .f32⟩
  | 13 => ⟨S32x192x320, .f32⟩
  | 14 => ⟨S32x1x192x320, .f32⟩
  | 15 => ⟨S32x192x320, .f32⟩
  | 16 => ⟨S32x192x320, .f32⟩
  | 17 => ⟨S32x192x320, .f32⟩
  | 18 => ⟨S_, .f32⟩
  | 19 => ⟨S32x192x320, .f32⟩
  | 20 => ⟨S32x192x320, .i1⟩
  | 21 => ⟨S_, .f32⟩
  | 22 => ⟨S32x192x320, .f32⟩
  | 23 => ⟨S32x192x320, .f32⟩
  | 24 => ⟨S32x192x320, .f32⟩
  | 25 => ⟨S_, .f32⟩
  | 26 => ⟨S32x192x320, .f32⟩
  | 27 => ⟨S32x192x320, .f32⟩
  | 28 => ⟨S32x192x320, .f32⟩
  | 29 => ⟨S32x192x320, .f32⟩
  | 30 => ⟨S_, .f32⟩
  | 31 => ⟨S_, .f32⟩
  | 32 => ⟨S_, .f32⟩
  | 33 => ⟨S_, .f32⟩
  | 34 => ⟨S_, .f32⟩
  | 35 => ⟨S_, .f32⟩
  | 36 => ⟨S_, .f32⟩
  | 37 => ⟨S_, .f32⟩
  | 38 => ⟨S32x1x192x320, .f32⟩
  | 39 => ⟨S32x192x320, .f32⟩
  | 40 => ⟨S32x1x192x320, .f32⟩
  | 41 => ⟨S32x192x320, .f32⟩
  | 42 => ⟨S32x192x320, .f32⟩
  | 43 => ⟨S32x192x320, .f32⟩
  | 44 => ⟨S_, .f32⟩
  | 45 => ⟨S32x192x320, .f32⟩
  | 46 => ⟨S32x192x320, .i1⟩
  | 47 => ⟨S_, .f32⟩
  | 48 => ⟨S32x192x320, .f32⟩
  | 49 => ⟨S32x192x320, .f32⟩
  | 50 => ⟨S32x192x320, .f32⟩
  | 51 => ⟨S_, .f32⟩
  | 52 => ⟨S32x192x320, .f32⟩
  | 53 => ⟨S32x192x320, .f32⟩
  | 54 => ⟨S32x192x320, .f32⟩
  | 55 => ⟨S32x192x320, .f32⟩
  | 56 => ⟨S_, .f32⟩
  | 57 => ⟨S_, .f32⟩
  | 58 => ⟨S_, .f32⟩
  | 59 => ⟨S_, .f32⟩
  | 60 => ⟨S32x1x192x320, .f32⟩
  | 61 => ⟨S32x192x320, .f32⟩
  | 62 => ⟨S32x1x192x320, .f32⟩
  | 63 => ⟨S32x192x320, .f32⟩
  | 64 => ⟨S32x192x320, .f32⟩
  | 65 => ⟨S32x192x320, .f32⟩
  | 66 => ⟨S_, .f32⟩
  | 67 => ⟨S32x192x320, .f32⟩
  | 68 => ⟨S32x192x320, .i1⟩
  | 69 => ⟨S_, .f32⟩
  | 70 => ⟨S32x192x320, .f32⟩
  | 71 => ⟨S32x192x320, .f32⟩
  | 72 => ⟨S32x192x320, .f32⟩
  | 73 => ⟨S_, .f32⟩
  | 74 => ⟨S32x192x320, .f32⟩
  | 75 => ⟨S32x192x320, .f32⟩
  | 76 => ⟨S32x192x320, .f32⟩
  | 77 => ⟨S32x192x320, .f32⟩
  | 78 => ⟨S_, .f32⟩
  | 79 => ⟨S_, .f32⟩
  | 80 => ⟨S_, .f32⟩
  | 81 => ⟨S_, .f32⟩
  | 82 => ⟨S_, .f32⟩
  | 83 => ⟨S_, .f32⟩
  | 84 => ⟨S_, .f32⟩
  | 85 => ⟨S_, .f32⟩
  | 86 => ⟨S32x1x192x320, .f32⟩
  | 87 => ⟨S32x192x320, .f32⟩
  | 88 => ⟨S32x1x192x320, .f32⟩
  | 89 => ⟨S32x192x320, .f32⟩
  | 90 => ⟨S32x192x320, .f32⟩
  | 91 => ⟨S32x192x320, .f32⟩
  | 92 => ⟨S32x192x320, .f32⟩
  | 93 => ⟨S_, .f32⟩
  | 94 => ⟨S_, .f32⟩
  | 95 => ⟨S_, .f32⟩
  | 96 => ⟨S_, .f32⟩
  | 97 => ⟨S32x1x192x320, .f32⟩
  | 98 => ⟨S32x192x320, .f32⟩
  | 99 => ⟨S32x1x192x320, .f32⟩
  | 100 => ⟨S32x192x320, .f32⟩
  | 101 => ⟨S32x192x320, .f32⟩
  | 102 => ⟨S32x192x320, .f32⟩
  | 103 => ⟨S32x192x320, .f32⟩
  | 104 => ⟨S_, .f32⟩
  | 105 => ⟨S_, .f32⟩
  | 106 => ⟨S_, .f32⟩
  | 107 => ⟨S_, .f32⟩
  | 108 => ⟨S_, .f32⟩
  | 109 => ⟨S_, .f32⟩
  | 110 => ⟨S32x1x192x320, .f32⟩
  | 111 => ⟨S32x192x320, .f32⟩
  | 112 => ⟨S32x1x192x320, .f32⟩
  | 113 => ⟨S32x192x320, .f32⟩
  | 114 => ⟨S32x192x320, .f32⟩
  | 115 => ⟨S32x192x320, .f32⟩
  | 116 => ⟨S32x192x320, .f32⟩
  | 117 => ⟨S_, .f32⟩
  | 118 => ⟨S_, .f32⟩
  | 119 => ⟨S_, .f32⟩
  | 120 => ⟨S_, .f32⟩
  | 121 => ⟨S32x1x192x320, .f32⟩
  | 122 => ⟨S32x192x320, .f32⟩
  | 123 => ⟨S32x1x192x320, .f32⟩
  | 124 => ⟨S32x192x320, .f32⟩
  | 125 => ⟨S32x192x320, .f32⟩
  | 126 => ⟨S32x192x320, .f32⟩
  | 127 => ⟨S32x192x320, .f32⟩
  | _ => ⟨S32x10x192x320, .f32⟩

abbrev hbmTy0_2 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S32x1x192x320, .f32⟩
  | 10 => ⟨S32x192x320, .f32⟩
  | 11 => ⟨S32x1x192x320, .f32⟩
  | 12 => ⟨S32x192x320, .f32⟩
  | 13 => ⟨S32x192x320, .f32⟩
  | 14 => ⟨S32x192x320, .f32⟩
  | 15 => ⟨S32x192x320, .f32⟩
  | 16 => ⟨S_, .f32⟩
  | 17 => ⟨S_, .f32⟩
  | 18 => ⟨S_, .f32⟩
  | 19 => ⟨S_, .f32⟩
  | 20 => ⟨S32x1x192x320, .f32⟩
  | 21 => ⟨S32x192x320, .f32⟩
  | 22 => ⟨S32x1x192x320, .f32⟩
  | 23 => ⟨S32x192x320, .f32⟩
  | 24 => ⟨S32x192x320, .f32⟩
  | 25 => ⟨S32x192x320, .f32⟩
  | 26 => ⟨S32x192x320, .f32⟩
  | 27 => ⟨S_, .f32⟩
  | 28 => ⟨S_, .f32⟩
  | 29 => ⟨S_, .f32⟩
  | 30 => ⟨S_, .f32⟩
  | 31 => ⟨S_, .f32⟩
  | 32 => ⟨S_, .f32⟩
  | 33 => ⟨S32x1x192x320, .f32⟩
  | 34 => ⟨S32x192x320, .f32⟩
  | 35 => ⟨S32x1x192x320, .f32⟩
  | 36 => ⟨S32x192x320, .f32⟩
  | 37 => ⟨S32x192x320, .f32⟩
  | 38 => ⟨S32x192x320, .f32⟩
  | 39 => ⟨S32x192x320, .f32⟩
  | 40 => ⟨S_, .f32⟩
  | 41 => ⟨S_, .f32⟩
  | 42 => ⟨S_, .f32⟩
  | 43 => ⟨S_, .f32⟩
  | 44 => ⟨S32x1x192x320, .f32⟩
  | 45 => ⟨S32x192x320, .f32⟩
  | 46 => ⟨S32x1x192x320, .f32⟩
  | 47 => ⟨S32x192x320, .f32⟩
  | 48 => ⟨S32x192x320, .f32⟩
  | 49 => ⟨S32x192x320, .f32⟩
  | 50 => ⟨S32x192x320, .f32⟩
  | 51 => ⟨S_, .f32⟩
  | 52 => ⟨S_, .f32⟩
  | 53 => ⟨S_, .f32⟩
  | 54 => ⟨S_, .f32⟩
  | 55 => ⟨S_, .f32⟩
  | 56 => ⟨S_, .f32⟩
  | 57 => ⟨S_, .f32⟩
  | 58 => ⟨S_, .f32⟩
  | 59 => ⟨S_, .f32⟩
  | 60 => ⟨S32x1x192x320, .f32⟩
  | 61 => ⟨S32x192x320, .f32⟩
  | 62 => ⟨S32x192x320, .f32⟩
  | 63 => ⟨S_, .f32⟩
  | 64 => ⟨S32x192x320, .f32⟩
  | 65 => ⟨S32x192x320, .f32⟩
  | 66 => ⟨S32x1x192x320, .f32⟩
  | 67 => ⟨S32x192x320, .f32⟩
  | 68 => ⟨S32x192x320, .f32⟩
  | 69 => ⟨S32x192x320, .f32⟩
  | 70 => ⟨S32x192x320, .f32⟩
  | 71 => ⟨S32x192x320, .f32⟩
  | 72 => ⟨S_, .f32⟩
  | 73 => ⟨S_, .f32⟩
  | 74 => ⟨S_, .f32⟩
  | 75 => ⟨S32x1x192x320, .f32⟩
  | 76 => ⟨S32x192x320, .f32⟩
  | 77 => ⟨S32x192x320, .f32⟩
  | 78 => ⟨S_, .f32⟩
  | 79 => ⟨S32x192x320, .f32⟩
  | 80 => ⟨S32x192x320, .f32⟩
  | 81 => ⟨S32x1x192x320, .f32⟩
  | 82 => ⟨S32x192x320, .f32⟩
  | 83 => ⟨S32x192x320, .f32⟩
  | 84 => ⟨S32x192x320, .f32⟩
  | 85 => ⟨S32x192x320, .f32⟩
  | 86 => ⟨S32x192x320, .f32⟩
  | 87 => ⟨S_, .f32⟩
  | 88 => ⟨S_, .f32⟩
  | 89 => ⟨S_, .f32⟩
  | 90 => ⟨S_, .f32⟩
  | 91 => ⟨S_, .f32⟩
  | 92 => ⟨S_, .f32⟩
  | 93 => ⟨S32x1x192x320, .f32⟩
  | 94 => ⟨S32x192x320, .f32⟩
  | 95 => ⟨S32x1x192x320, .f32⟩
  | 96 => ⟨S32x192x320, .f32⟩
  | 97 => ⟨S32x192x320, .f32⟩
  | 98 => ⟨S32x192x320, .f32⟩
  | 99 => ⟨S_, .f32⟩
  | 100 => ⟨S32x192x320, .f32⟩
  | 101 => ⟨S32x192x320, .i1⟩
  | 102 => ⟨S_, .f32⟩
  | 103 => ⟨S32x192x320, .f32⟩
  | 104 => ⟨S32x192x320, .f32⟩
  | 105 => ⟨S32x192x320, .f32⟩
  | 106 => ⟨S_, .f32⟩
  | 107 => ⟨S32x192x320, .f32⟩
  | 108 => ⟨S32x192x320, .f32⟩
  | 109 => ⟨S32x192x320, .f32⟩
  | 110 => ⟨S32x192x320, .f32⟩
  | 111 => ⟨S_, .f32⟩
  | 112 => ⟨S_, .f32⟩
  | 113 => ⟨S_, .f32⟩
  | 114 => ⟨S_, .f32⟩
  | 115 => ⟨S_, .f32⟩
  | 116 => ⟨S_, .f32⟩
  | 117 => ⟨S_, .f32⟩
  | 118 => ⟨S_, .f32⟩
  | 119 => ⟨S_, .f32⟩
  | 120 => ⟨S_, .f32⟩
  | 121 => ⟨S_, .f32⟩
  | 122 => ⟨S_, .f32⟩
  | _ => ⟨S32x10x192x320, .f32⟩

abbrev hbmTy (i : Nat) : BufTy := match i / 128 with
  | 0 => hbmTy0_0 i
  | 1 => hbmTy0_1 i
  | 2 => hbmTy0_2 i
  | _ => ⟨S32x10x192x320, .f32⟩

abbrev bufTy : (tb : Table) → Fin (tcTables nBuf tb) → BufTy
  | .hbm, ⟨i, _⟩ => hbmTy i
  | _, _ => ⟨S32x10x192x320, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩
abbrev main_cst_5 : Ref sig .tc := ⟨.hbm, 28, rfl⟩
abbrev main_cst_6 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_7 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_8 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_9 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_10 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_11 : Ref sig .tc := ⟨.hbm, 60, rfl⟩
abbrev main_v41 : Ref sig .tc := ⟨.hbm, 61, rfl⟩
abbrev main_v42 : Ref sig .tc := ⟨.hbm, 62, rfl⟩
abbrev main_cst_12 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_13 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_14 : Ref sig .tc := ⟨.hbm, 76, rfl⟩
abbrev main_v54 : Ref sig .tc := ⟨.hbm, 77, rfl⟩
abbrev main_v55 : Ref sig .tc := ⟨.hbm, 78, rfl⟩
abbrev main_cst_15 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_16 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_17 : Ref sig .tc := ⟨.hbm, 88, rfl⟩
abbrev main_v63 : Ref sig .tc := ⟨.hbm, 89, rfl⟩
abbrev main_cst_18 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_cst_19 : Ref sig .tc := ⟨.hbm, 98, rfl⟩
abbrev main_v71 : Ref sig .tc := ⟨.hbm, 99, rfl⟩
abbrev main_v72 : Ref sig .tc := ⟨.hbm, 100, rfl⟩
abbrev main_cst_20 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_cst_21 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_cst_22 : Ref sig .tc := ⟨.hbm, 110, rfl⟩
abbrev main_v80 : Ref sig .tc := ⟨.hbm, 111, rfl⟩
abbrev main_v81 : Ref sig .tc := ⟨.hbm, 112, rfl⟩
abbrev main_cst_23 : Ref sig .tc := ⟨.hbm, 113, rfl⟩
abbrev main_v82 : Ref sig .tc := ⟨.hbm, 114, rfl⟩
abbrev main_v83 : Ref sig .tc := ⟨.hbm, 115, rfl⟩
abbrev main_cst_24 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_cst_25 : Ref sig .tc := ⟨.hbm, 124, rfl⟩
abbrev main_v91 : Ref sig .tc := ⟨.hbm, 125, rfl⟩
abbrev main_v92 : Ref sig .tc := ⟨.hbm, 126, rfl⟩
abbrev main_cst_26 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_cst_27 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_cst_28 : Ref sig .tc := ⟨.hbm, 136, rfl⟩
abbrev main_v100 : Ref sig .tc := ⟨.hbm, 137, rfl⟩
abbrev main_cst_29 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_cst_30 : Ref sig .tc := ⟨.hbm, 146, rfl⟩
abbrev main_v108 : Ref sig .tc := ⟨.hbm, 147, rfl⟩
abbrev main_v109 : Ref sig .tc := ⟨.hbm, 148, rfl⟩
abbrev main_cst_31 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_cst_32 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_cst_33 : Ref sig .tc := ⟨.hbm, 158, rfl⟩
abbrev main_v117 : Ref sig .tc := ⟨.hbm, 159, rfl⟩
abbrev main_v118 : Ref sig .tc := ⟨.hbm, 160, rfl⟩
abbrev main_cst_34 : Ref sig .tc := ⟨.hbm, 161, rfl⟩
abbrev main_v119 : Ref sig .tc := ⟨.hbm, 162, rfl⟩
abbrev main_v120 : Ref sig .tc := ⟨.hbm, 163, rfl⟩
abbrev main_cst_35 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_cst_36 : Ref sig .tc := ⟨.hbm, 172, rfl⟩
abbrev main_v128 : Ref sig .tc := ⟨.hbm, 173, rfl⟩
abbrev main_v129 : Ref sig .tc := ⟨.hbm, 174, rfl⟩
abbrev main_cst_37 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_cst_38 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_cst_39 : Ref sig .tc := ⟨.hbm, 184, rfl⟩
abbrev main_v137 : Ref sig .tc := ⟨.hbm, 185, rfl⟩
abbrev main_cst_40 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_v141 : Ref sig .tc := ⟨.hbm, 190, rfl⟩
abbrev main_v142 : Ref sig .tc := ⟨.hbm, 191, rfl⟩
abbrev main_v143 : Ref sig .tc := ⟨.hbm, 192, rfl⟩
abbrev main_v144 : Ref sig .tc := ⟨.hbm, 193, rfl⟩
abbrev main_cst_41 : Ref sig .tc := ⟨.hbm, 194, rfl⟩
abbrev main_v145 : Ref sig .tc := ⟨.hbm, 195, rfl⟩
abbrev main_v146 : Ref sig .tc := ⟨.hbm, 196, rfl⟩
abbrev main_cst_42 : Ref sig .tc := ⟨.hbm, 197, rfl⟩
abbrev main_v147 : Ref sig .tc := ⟨.hbm, 198, rfl⟩
abbrev main_v148 : Ref sig .tc := ⟨.hbm, 199, rfl⟩
abbrev main_v149 : Ref sig .tc := ⟨.hbm, 200, rfl⟩
abbrev main_cst_43 : Ref sig .tc := ⟨.hbm, 201, rfl⟩
abbrev main_v150 : Ref sig .tc := ⟨.hbm, 202, rfl⟩
abbrev main_v151 : Ref sig .tc := ⟨.hbm, 203, rfl⟩
abbrev main_v152 : Ref sig .tc := ⟨.hbm, 204, rfl⟩
abbrev main_v153 : Ref sig .tc := ⟨.hbm, 205, rfl⟩
abbrev main_cst_44 : Ref sig .tc := ⟨.hbm, 206, rfl⟩
abbrev main_v154 : Ref sig .tc := ⟨.hbm, 207, rfl⟩
abbrev main_v155 : Ref sig .tc := ⟨.hbm, 208, rfl⟩
abbrev main_cst_45 : Ref sig .tc := ⟨.hbm, 209, rfl⟩
abbrev main_v156 : Ref sig .tc := ⟨.hbm, 210, rfl⟩
abbrev main_v157 : Ref sig .tc := ⟨.hbm, 211, rfl⟩
abbrev main_cst_46 : Ref sig .tc := ⟨.hbm, 212, rfl⟩
abbrev main_v158 : Ref sig .tc := ⟨.hbm, 213, rfl⟩
abbrev main_v159 : Ref sig .tc := ⟨.hbm, 214, rfl⟩
abbrev main_v160 : Ref sig .tc := ⟨.hbm, 215, rfl⟩
abbrev main_v161 : Ref sig .tc := ⟨.hbm, 216, rfl⟩
abbrev main_v162 : Ref sig .tc := ⟨.hbm, 217, rfl⟩
abbrev main_v163 : Ref sig .tc := ⟨.hbm, 218, rfl⟩
abbrev main_v164 : Ref sig .tc := ⟨.hbm, 219, rfl⟩
abbrev main_v165 : Ref sig .tc := ⟨.hbm, 220, rfl⟩
abbrev main_cst_47 : Ref sig .tc := ⟨.hbm, 221, rfl⟩
abbrev main_v166 : Ref sig .tc := ⟨.hbm, 222, rfl⟩
abbrev main_cst_48 : Ref sig .tc := ⟨.hbm, 223, rfl⟩
abbrev main_v167 : Ref sig .tc := ⟨.hbm, 224, rfl⟩
abbrev main_v168 : Ref sig .tc := ⟨.hbm, 225, rfl⟩
abbrev main_v169 : Ref sig .tc := ⟨.hbm, 226, rfl⟩
abbrev main_v170 : Ref sig .tc := ⟨.hbm, 227, rfl⟩
abbrev main_v171 : Ref sig .tc := ⟨.hbm, 228, rfl⟩
abbrev main_v172 : Ref sig .tc := ⟨.hbm, 229, rfl⟩
abbrev main_v173 : Ref sig .tc := ⟨.hbm, 230, rfl⟩
abbrev main_v174 : Ref sig .tc := ⟨.hbm, 231, rfl⟩
abbrev main_cst_49 : Ref sig .tc := ⟨.hbm, 232, rfl⟩
abbrev main_v175 : Ref sig .tc := ⟨.hbm, 233, rfl⟩
abbrev main_v176 : Ref sig .tc := ⟨.hbm, 234, rfl⟩
abbrev main_cst_50 : Ref sig .tc := ⟨.hbm, 235, rfl⟩
abbrev main_v177 : Ref sig .tc := ⟨.hbm, 236, rfl⟩
abbrev main_v178 : Ref sig .tc := ⟨.hbm, 237, rfl⟩
abbrev main_v179 : Ref sig .tc := ⟨.hbm, 238, rfl⟩
abbrev main_v180 : Ref sig .tc := ⟨.hbm, 239, rfl⟩
abbrev main_v181 : Ref sig .tc := ⟨.hbm, 240, rfl⟩
abbrev main_v182 : Ref sig .tc := ⟨.hbm, 241, rfl⟩
abbrev main_v183 : Ref sig .tc := ⟨.hbm, 242, rfl⟩
abbrev main_v184 : Ref sig .tc := ⟨.hbm, 243, rfl⟩
abbrev main_v185 : Ref sig .tc := ⟨.hbm, 244, rfl⟩
abbrev main_cst_51 : Ref sig .tc := ⟨.hbm, 245, rfl⟩
abbrev main_v186 : Ref sig .tc := ⟨.hbm, 246, rfl⟩
abbrev main_cst_52 : Ref sig .tc := ⟨.hbm, 247, rfl⟩
abbrev main_v187 : Ref sig .tc := ⟨.hbm, 248, rfl⟩
abbrev main_v188 : Ref sig .tc := ⟨.hbm, 249, rfl⟩
abbrev main_v189 : Ref sig .tc := ⟨.hbm, 250, rfl⟩
abbrev main_v190 : Ref sig .tc := ⟨.hbm, 251, rfl⟩
abbrev main_v191 : Ref sig .tc := ⟨.hbm, 252, rfl⟩
abbrev main_v192 : Ref sig .tc := ⟨.hbm, 253, rfl⟩
abbrev main_v193 : Ref sig .tc := ⟨.hbm, 254, rfl⟩
abbrev main_v194 : Ref sig .tc := ⟨.hbm, 255, rfl⟩
abbrev main_cst_53 : Ref sig .tc := ⟨.hbm, 256, rfl⟩
abbrev main_v195 : Ref sig .tc := ⟨.hbm, 257, rfl⟩
abbrev main_v196 : Ref sig .tc := ⟨.hbm, 258, rfl⟩
abbrev main_cst_54 : Ref sig .tc := ⟨.hbm, 259, rfl⟩
abbrev main_v197 : Ref sig .tc := ⟨.hbm, 260, rfl⟩
abbrev main_v198 : Ref sig .tc := ⟨.hbm, 261, rfl⟩
abbrev main_v199 : Ref sig .tc := ⟨.hbm, 262, rfl⟩
abbrev main_cst_55 : Ref sig .tc := ⟨.hbm, 263, rfl⟩
abbrev main_v200 : Ref sig .tc := ⟨.hbm, 264, rfl⟩
abbrev main_v201 : Ref sig .tc := ⟨.hbm, 265, rfl⟩
abbrev main_v202 : Ref sig .tc := ⟨.hbm, 266, rfl⟩
abbrev main_v203 : Ref sig .tc := ⟨.hbm, 267, rfl⟩
abbrev main_v204 : Ref sig .tc := ⟨.hbm, 268, rfl⟩
abbrev main_v205 : Ref sig .tc := ⟨.hbm, 269, rfl⟩
abbrev main_v206 : Ref sig .tc := ⟨.hbm, 270, rfl⟩
abbrev main_v207 : Ref sig .tc := ⟨.hbm, 271, rfl⟩
abbrev main_cst_56 : Ref sig .tc := ⟨.hbm, 272, rfl⟩
abbrev main_v208 : Ref sig .tc := ⟨.hbm, 273, rfl⟩
abbrev main_cst_57 : Ref sig .tc := ⟨.hbm, 274, rfl⟩
abbrev main_v209 : Ref sig .tc := ⟨.hbm, 275, rfl⟩
abbrev main_v210 : Ref sig .tc := ⟨.hbm, 276, rfl⟩
abbrev main_v211 : Ref sig .tc := ⟨.hbm, 277, rfl⟩
abbrev main_v212 : Ref sig .tc := ⟨.hbm, 278, rfl⟩
abbrev main_v213 : Ref sig .tc := ⟨.hbm, 279, rfl⟩
abbrev main_v214 : Ref sig .tc := ⟨.hbm, 280, rfl⟩
abbrev main_v215 : Ref sig .tc := ⟨.hbm, 281, rfl⟩
abbrev main_v216 : Ref sig .tc := ⟨.hbm, 282, rfl⟩
abbrev main_cst_58 : Ref sig .tc := ⟨.hbm, 283, rfl⟩
abbrev main_v217 : Ref sig .tc := ⟨.hbm, 284, rfl⟩
abbrev main_v218 : Ref sig .tc := ⟨.hbm, 285, rfl⟩
abbrev main_cst_59 : Ref sig .tc := ⟨.hbm, 286, rfl⟩
abbrev main_v219 : Ref sig .tc := ⟨.hbm, 287, rfl⟩
abbrev main_v220 : Ref sig .tc := ⟨.hbm, 288, rfl⟩
abbrev main_v221 : Ref sig .tc := ⟨.hbm, 289, rfl⟩
abbrev main_v222 : Ref sig .tc := ⟨.hbm, 290, rfl⟩
abbrev main_v223 : Ref sig .tc := ⟨.hbm, 291, rfl⟩
abbrev main_v224 : Ref sig .tc := ⟨.hbm, 292, rfl⟩
abbrev main_v225 : Ref sig .tc := ⟨.hbm, 293, rfl⟩
abbrev main_v226 : Ref sig .tc := ⟨.hbm, 294, rfl⟩
abbrev main_v227 : Ref sig .tc := ⟨.hbm, 295, rfl⟩
abbrev main_cst_60 : Ref sig .tc := ⟨.hbm, 296, rfl⟩
abbrev main_v228 : Ref sig .tc := ⟨.hbm, 297, rfl⟩
abbrev main_cst_61 : Ref sig .tc := ⟨.hbm, 298, rfl⟩
abbrev main_v229 : Ref sig .tc := ⟨.hbm, 299, rfl⟩
abbrev main_v230 : Ref sig .tc := ⟨.hbm, 300, rfl⟩
abbrev main_v231 : Ref sig .tc := ⟨.hbm, 301, rfl⟩
abbrev main_v232 : Ref sig .tc := ⟨.hbm, 302, rfl⟩
abbrev main_v233 : Ref sig .tc := ⟨.hbm, 303, rfl⟩
abbrev main_v234 : Ref sig .tc := ⟨.hbm, 304, rfl⟩
abbrev main_v235 : Ref sig .tc := ⟨.hbm, 305, rfl⟩
abbrev main_v236 : Ref sig .tc := ⟨.hbm, 306, rfl⟩
abbrev main_cst_62 : Ref sig .tc := ⟨.hbm, 307, rfl⟩
abbrev main_v237 : Ref sig .tc := ⟨.hbm, 308, rfl⟩
abbrev main_v238 : Ref sig .tc := ⟨.hbm, 309, rfl⟩
abbrev main_cst_63 : Ref sig .tc := ⟨.hbm, 310, rfl⟩
abbrev main_v239 : Ref sig .tc := ⟨.hbm, 311, rfl⟩
abbrev main_v240 : Ref sig .tc := ⟨.hbm, 312, rfl⟩
abbrev main_v241 : Ref sig .tc := ⟨.hbm, 313, rfl⟩
abbrev main_cst_64 : Ref sig .tc := ⟨.hbm, 314, rfl⟩
abbrev main_v242 : Ref sig .tc := ⟨.hbm, 315, rfl⟩
abbrev main_v243 : Ref sig .tc := ⟨.hbm, 316, rfl⟩
abbrev main_v244 : Ref sig .tc := ⟨.hbm, 317, rfl⟩
abbrev main_v245 : Ref sig .tc := ⟨.hbm, 318, rfl⟩
abbrev main_cst_65 : Ref sig .tc := ⟨.hbm, 319, rfl⟩
abbrev main_v246 : Ref sig .tc := ⟨.hbm, 320, rfl⟩
abbrev main_v247 : Ref sig .tc := ⟨.hbm, 321, rfl⟩
abbrev main_v248 : Ref sig .tc := ⟨.hbm, 322, rfl⟩
abbrev main_v249 : Ref sig .tc := ⟨.hbm, 323, rfl⟩
abbrev main_v250 : Ref sig .tc := ⟨.hbm, 324, rfl⟩
abbrev main_v251 : Ref sig .tc := ⟨.hbm, 325, rfl⟩
abbrev main_v252 : Ref sig .tc := ⟨.hbm, 326, rfl⟩
abbrev main_v253 : Ref sig .tc := ⟨.hbm, 327, rfl⟩
abbrev main_cst_66 : Ref sig .tc := ⟨.hbm, 328, rfl⟩
abbrev main_v254 : Ref sig .tc := ⟨.hbm, 329, rfl⟩
abbrev main_v255 : Ref sig .tc := ⟨.hbm, 330, rfl⟩
abbrev main_v256 : Ref sig .tc := ⟨.hbm, 331, rfl⟩
abbrev main_v257 : Ref sig .tc := ⟨.hbm, 332, rfl⟩
abbrev main_v258 : Ref sig .tc := ⟨.hbm, 333, rfl⟩
abbrev main_cst_67 : Ref sig .tc := ⟨.hbm, 334, rfl⟩
abbrev main_v259 : Ref sig .tc := ⟨.hbm, 335, rfl⟩
abbrev main_v260 : Ref sig .tc := ⟨.hbm, 336, rfl⟩
abbrev main_v261 : Ref sig .tc := ⟨.hbm, 337, rfl⟩
abbrev main_v262 : Ref sig .tc := ⟨.hbm, 338, rfl⟩
abbrev main_v263 : Ref sig .tc := ⟨.hbm, 339, rfl⟩
abbrev main_v264 : Ref sig .tc := ⟨.hbm, 340, rfl⟩
abbrev main_v265 : Ref sig .tc := ⟨.hbm, 341, rfl⟩
abbrev main_v266 : Ref sig .tc := ⟨.hbm, 342, rfl⟩
abbrev main_cst_68 : Ref sig .tc := ⟨.hbm, 343, rfl⟩
abbrev main_v267 : Ref sig .tc := ⟨.hbm, 344, rfl⟩
abbrev main_v268 : Ref sig .tc := ⟨.hbm, 345, rfl⟩
abbrev main_v269 : Ref sig .tc := ⟨.hbm, 346, rfl⟩
abbrev main_cst_69 : Ref sig .tc := ⟨.hbm, 347, rfl⟩
abbrev main_v270 : Ref sig .tc := ⟨.hbm, 348, rfl⟩
abbrev main_v271 : Ref sig .tc := ⟨.hbm, 349, rfl⟩
abbrev main_v272 : Ref sig .tc := ⟨.hbm, 350, rfl⟩
abbrev main_v273 : Ref sig .tc := ⟨.hbm, 351, rfl⟩
abbrev main_v274 : Ref sig .tc := ⟨.hbm, 352, rfl⟩
abbrev main_v275 : Ref sig .tc := ⟨.hbm, 353, rfl⟩
abbrev main_v276 : Ref sig .tc := ⟨.hbm, 354, rfl⟩
abbrev main_cst_70 : Ref sig .tc := ⟨.hbm, 355, rfl⟩
abbrev main_v277 : Ref sig .tc := ⟨.hbm, 356, rfl⟩
abbrev main_v278 : Ref sig .tc := ⟨.hbm, 357, rfl⟩
abbrev main_cst_71 : Ref sig .tc := ⟨.hbm, 358, rfl⟩
abbrev main_v279 : Ref sig .tc := ⟨.hbm, 359, rfl⟩
abbrev main_v280 : Ref sig .tc := ⟨.hbm, 360, rfl⟩
abbrev main_v281 : Ref sig .tc := ⟨.hbm, 361, rfl⟩
abbrev main_cst_72 : Ref sig .tc := ⟨.hbm, 362, rfl⟩
abbrev main_v282 : Ref sig .tc := ⟨.hbm, 363, rfl⟩
abbrev main_v283 : Ref sig .tc := ⟨.hbm, 364, rfl⟩
abbrev main_v284 : Ref sig .tc := ⟨.hbm, 365, rfl⟩
abbrev main_v285 : Ref sig .tc := ⟨.hbm, 366, rfl⟩
abbrev main_cst_73 : Ref sig .tc := ⟨.hbm, 367, rfl⟩
abbrev main_v286 : Ref sig .tc := ⟨.hbm, 368, rfl⟩
abbrev main_cst_74 : Ref sig .tc := ⟨.hbm, 369, rfl⟩
abbrev main_v287 : Ref sig .tc := ⟨.hbm, 370, rfl⟩
abbrev main_v288 : Ref sig .tc := ⟨.hbm, 371, rfl⟩
abbrev main_v289 : Ref sig .tc := ⟨.hbm, 372, rfl⟩
abbrev main_v290 : Ref sig .tc := ⟨.hbm, 373, rfl⟩
abbrev main_v291 : Ref sig .tc := ⟨.hbm, 374, rfl⟩
abbrev main_v292 : Ref sig .tc := ⟨.hbm, 375, rfl⟩
abbrev main_v293 : Ref sig .tc := ⟨.hbm, 376, rfl⟩
abbrev main_v294 : Ref sig .tc := ⟨.hbm, 377, rfl⟩
abbrev main_v295 : Ref sig .tc := ⟨.hbm, 378, rfl⟩

abbrev nD : Nat := 1
abbrev τ : Topo := Topo.v7x

variable {F : FTy → Type} [FloatOps F]

class Facts₀ : Prop where
  slices_S32x10x192x320_S32x1x192x320_0_0_0_0 : S32x10x192x320.Slices ![0, 0, 0, 0] S32x1x192x320
  shapeCasts_S32x1x192x320_S32x192x320 : S32x1x192x320.ShapeCasts S32x192x320
  bcast_S_S32x192x320 : S_.BroadcastsInDim S32x192x320 (![] : Fin 0 → Fin S32x192x320.rank)
  reducesTo_S32x192x320_S_d0_1_2 : S32x192x320.ReducesTo [0, 1, 2] S_
  h_S_ : 0 < S_.numel
  slices_S32x10x192x320_S32x1x192x320_0_1_0_0 : S32x10x192x320.Slices ![0, 1, 0, 0] S32x1x192x320
  slices_S32x10x192x320_S32x1x192x320_0_2_0_0 : S32x10x192x320.Slices ![0, 2, 0, 0] S32x1x192x320
  slices_S32x10x192x320_S32x1x192x320_0_3_0_0 : S32x10x192x320.Slices ![0, 3, 0, 0] S32x1x192x320
  slices_S32x10x192x320_S32x1x192x320_0_6_0_0 : S32x10x192x320.Slices ![0, 6, 0, 0] S32x1x192x320
  slices_S32x10x192x320_S32x1x192x320_0_4_0_0 : S32x10x192x320.Slices ![0, 4, 0, 0] S32x1x192x320
  slices_S32x10x192x320_S32x1x192x320_0_7_0_0 : S32x10x192x320.Slices ![0, 7, 0, 0] S32x1x192x320
  slices_S32x10x192x320_S32x1x192x320_0_5_0_0 : S32x10x192x320.Slices ![0, 5, 0, 0] S32x1x192x320
  slices_S32x10x192x320_S32x1x192x320_0_8_0_0 : S32x10x192x320.Slices ![0, 8, 0, 0] S32x1x192x320
  slices_S32x10x192x320_S32x1x192x320_0_9_0_0 : S32x10x192x320.Slices ![0, 9, 0, 0] S32x1x192x320

variable [Facts₀]

class Facts : Prop extends Facts₀ where

variable [Facts]
-- ==== Proof.K.Shared.lean ====
/-
  What the frame of `Kernel` rests on: @main as the region followed by its later host lines, which touch only unscoped
  buffers, allocate nothing and write none of the three arrays the region stages; each window's block at a grid
  point; the frame claim's post read off the library's frame post; the body's one branch condition (the grid
  coordinate is zero), decided over the eight points; and the staging memrefs as the pipeline passes them.
-/
import proofs.«112396_j67877663146547_1_alg».proof.Proof.Gen.Kernel.Launch
import proofs.«112396_j67877663146547_1_alg».proof.Proof.Gen.Kernel.Skeleton
import proofs.«112396_j67877663146547_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region

@main is the region followed by three stretches of host operations (thirty-five, one, fifty); nothing runs before the
region, so the region finds every buffer as launched. -/

/-- Core `c`'s buffer contents when the region is entered, as a valuation: the launch contents. -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

/-- The three stretches of host operations after the region, in order. -/
abbrev tailOps : List (List (HloOp τ sig (Elt F))) := [hostOps1, hostOps1_1, hostOps1_2]

theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor

set_option maxHeartbeats 8000000 in
/-- @main is the region CONTINUED BY the later host lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2]) :=
  Pipeline.hmain_around cfgs 0 defs₀ 𝒱₀ m main [] [hostOps1, hostOps1_1, hostOps1_2] (by simp only [List.Forall])
    (by simp only [List.Forall]) main_chain

/-- The later lines touch the pipeline's arrays and the bypassing buffers only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [tailOps, List.mem_cons, List.mem_nil_iff, or_false] at hops
  rcases hops with rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)

/-- They allocate nothing. -/
theorem sfx_fresh : ∀ ops ∈ (tailOps : List (List (HloOp τ sig (Elt F)))), ∀ op ∈ ops, op.fresh = ∅ := by
  intro ops hops op hop
  simp only [tailOps, List.mem_cons, List.mem_nil_iff, or_false] at hops
  rcases hops with rfl | rfl | rfl
  · exact (List.forall_iff_forall_mem.mp hostOps1_fresh) op hop
  · exact (List.forall_iff_forall_mem.mp hostOps1_1_fresh) op hop
  · exact (List.forall_iff_forall_mem.mp hostOps1_2_fresh) op hop

/-- Each later line writes only its own result buffer, which is none of the three arrays the region stages. -/
theorem hostOps1_keeps : (hostOps1 : List (HloOp τ sig (Elt F))).Forall fun op =>
    ∀ w, Proc.devRef .tc (Pipeline.arrRef spec0 w) ∉ op.writes := by
  simp only [List.Forall]
  repeat' apply And.intro
  all_goals intro w; fin_cases w <;> simp only [StableHlo.nullary_writes, StableHlo.unary_writes, StableHlo.binary_writes, StableHlo.reshape_writes, Finset.mem_singleton] <;> exact StableHlo.devRef_ne_of_ne (by decide)
theorem hostOps1_1_keeps : (hostOps1_1 : List (HloOp τ sig (Elt F))).Forall fun op =>
    ∀ w, Proc.devRef .tc (Pipeline.arrRef spec0 w) ∉ op.writes := by
  simp only [List.Forall]
  intro w; fin_cases w <;> simp only [StableHlo.TRef.ternary, StableHlo.ternary_writes, Finset.mem_singleton] <;> exact StableHlo.devRef_ne_of_ne (by decide)
theorem hostOps1_2_keeps : (hostOps1_2 : List (HloOp τ sig (Elt F))).Forall fun op =>
    ∀ w, Proc.devRef .tc (Pipeline.arrRef spec0 w) ∉ op.writes := by
  simp only [List.Forall]
  repeat' apply And.intro
  all_goals intro w; fin_cases w <;> simp only [StableHlo.nullary_writes, StableHlo.unary_writes, StableHlo.binary_writes, StableHlo.reshape_writes, Finset.mem_singleton] <;> exact StableHlo.devRef_ne_of_ne (by decide)

/-- And write no array of the pipeline. -/
theorem sfx_keeps : ∀ ops ∈ (tailOps : List (List (HloOp τ sig (Elt F)))), ∀ op ∈ ops,
    ∀ w, Proc.devRef .tc (Pipeline.arrRef spec0 w) ∉ op.writes := by
  intro ops hops op hop
  simp only [tailOps, List.mem_cons, List.mem_nil_iff, or_false] at hops
  rcases hops with rfl | rfl | rfl
  · exact (List.forall_iff_forall_mem.mp hostOps1_keeps) op hop
  · exact (List.forall_iff_forall_mem.mp hostOps1_1_keeps) op hop
  · exact (List.forall_iff_forall_mem.mp hostOps1_2_keeps) op hop

theorem V_main_arg0 (c : Dev nD) : V m c main_arg0 = m ((c : Thread nD τ).loc main_arg0) := rfl
theorem V_main_arg1 (c : Dev nD) : V m c main_arg1 = m ((c : Thread nD τ).loc main_arg1) := rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, for any proof data whose array is the
    entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- A run to the library's frame post, read at the two argument arrays (each a staged input), is the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).1 0).trans (((dats 0 c).arrAt_in 0 rfl _).trans ((hA c 0).trans (V_main_arg0 m c))),
     ((h c).1 1).trans (((dats 0 c).arrAt_in 1 rfl _).trans ((hA c 1).trans (V_main_arg1 m c)))⟩) h

/-! ## The body's branch condition -/

/-- The condition of the body's one conditional: the grid coordinate is zero. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val % 8 = 0 :=
  (by decide +kernel : ∀ t : Fin grid0.N, cond0_0 (grid0.coords t) ↔ t.val % 8 = 0)

/-! ## The staging memrefs -/

/-- One staging buffer of the output window, through which its contents are stated. -/
abbrev VO0_2 : View sig .tc .vmem S1x128 .f32 := (Memref.whole cc0_stg2_0 : Memref sig .tc .vmem S1x128 .f32).view
abbrev ms0_0 (t : Fin cfg0.N) : Memref sig .tc .vmem S4x10x192x320 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4x10x192x320 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128 .f32 := win0_2.stage (cfg0.slots t 2)
abbrev hs0_2 (t : Fin cfg0.N) : (ms0_2 t).IsWhole := hstage0_2 ((cfg0.slots t 2).cast nbuf0_2)

end Cert.Kernel.Frame

end
-- ==== Proof.K.RunA.lean ====
/-
  The kernel body of `Kernel` run whole at the first grid point: which pieces its stores leave in the output's staging buffer.
-/
import proofs.«112396_j67877663146547_1_alg».proof.Proof.K.Shared

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at the first grid point (the branch taken: the output buffer is first stored whole with zeros), on whole staging memrefs:
    the two input buffers at their contents `x0`, `x1`, the output buffer at anything. It runs to the continuation with the
    inputs as they were and the output buffer with the listed pieces written; the pieces are found by the run. -/
noncomputable def kernelRun0_A (c : Dev nD) (i : grid0.Coords) (arg1 : Memref sig .tc .vmem S4x10x192x320 .f32) (harg1 : arg1.IsWhole) (arg2 : Memref sig .tc .vmem S4x10x192x320 .f32) (harg2 : arg2.IsWhole) (arg3 : Memref sig .tc .vmem S1x128 .f32) (harg3 : arg3.IsWhole) (hc0 : cond0_0 i)
    (x0 : Vec F S4x10x192x320 .f32) (x1 : Vec F S4x10x192x320 .f32) :
    { L2 : List (View.Piece (Elt F) S1x128 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2)) -∗ K ⟨⟩))
          ⊢ wp frame (wpE (defs₀ (F := F)) Variants.none c none) E (cc0__stats_kernel i arg1 harg1 arg2 harg2 arg3 harg3) K } := by
  refine ⟨?_, fun E K => ?run⟩
  case run =>
    simp only [cc0__stats_kernel_eq_skeleton]; unfold cc0__stats_kernel_skel
    simp only [k0_part1_eq_skeleton, k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%d2, %f2, -, H2⟩, Hk⟩
    obtain rfl := harg1.eq_unread hf0; obtain rfl := harg2.eq_unread hf1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    iexists _; iexact H2

end Cert.Kernel.Frame

end
-- ==== Proof.K.RunB.lean ====
/-
  The kernel body of `Kernel` run whole at a grid point after the first: which pieces its stores leave in the output's staging buffer.
-/
import proofs.«112396_j67877663146547_1_alg».proof.Proof.K.RunA

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at a later grid point (the branch not taken: the output buffer holds the running contents `xo2`), on whole staging memrefs:
    the two input buffers at their contents `x0`, `x1`, the output buffer at `xo2`. It runs to the continuation with the
    inputs as they were and the output buffer with the listed pieces written; the pieces are found by the run. -/
noncomputable def kernelRun0_B (c : Dev nD) (i : grid0.Coords) (arg1 : Memref sig .tc .vmem S4x10x192x320 .f32) (harg1 : arg1.IsWhole) (arg2 : Memref sig .tc .vmem S4x10x192x320 .f32) (harg2 : arg2.IsWhole) (arg3 : Memref sig .tc .vmem S1x128 .f32) (harg3 : arg3.IsWhole) (hc0 : ¬cond0_0 i)
    (x0 : Vec F S4x10x192x320 .f32) (x1 : Vec F S4x10x192x320 .f32) (xo2 : Vec F S1x128 .f32) :
    { L2 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare xo2
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2)) -∗ K ⟨⟩))
          ⊢ wp frame (wpE (defs₀ (F := F)) Variants.none c none) E (cc0__stats_kernel i arg1 harg1 arg2 harg2 arg3 harg3) K } := by
  refine ⟨?_, fun E K => ?run⟩
  case run =>
    simp only [cc0__stats_kernel_eq_skeleton]; unfold cc0__stats_kernel_skel
    simp only [k0_part1_eq_skeleton, k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    iexists _; iexact H2

end Cert.Kernel.Frame

end
-- ==== Proof.K.Frame.lean ====
/-
  The frame of `Kernel`: the kernel adds each grid point's fourteen sums into one resident output block, zeroed at the
  first point and written back after the last. What the block holds after each point is stated by recursion on the
  point; with it the proof data, the body obligation at every point, the run of @main around the region, and the frame
  claim: @main terminates, nothing faults, and the two argument arrays end unchanged.
-/
import proofs.«112396_j67877663146547_1_alg».proof.Proof.K.RunB

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the output's staging buffer holds after the body, case by case -/

/-- At the first point the body's stores (the zero fill, then the sums added to it) tile the output block. -/
theorem cover0_A_2 (c : Dev nD) (i : grid0.Coords) (arg1 : Memref sig .tc .vmem S4x10x192x320 .f32) (harg1 : arg1.IsWhole) (arg2 : Memref sig .tc .vmem S4x10x192x320 .f32) (harg2 : arg2.IsWhole) (arg3 : Memref sig .tc .vmem S1x128 .f32) (harg3 : arg3.IsWhole) (hc0 : cond0_0 i)
    (x0 : Vec F S4x10x192x320 .f32) (x1 : Vec F S4x10x192x320 .f32) (y : S1x128.Idx) :
    ∃ pc ∈ (kernelRun0_A c i arg1 harg1 arg2 harg2 arg3 harg3 hc0 x0 x1).1, y ∈ pc.1.set :=
  View.cover_of_tiledL (kernelRun0_A c i arg1 harg1 arg2 harg2 arg3 harg3 hc0 x0 x1).1 S1x128.size (by sl_kernel_rfl) y

/-- What the first point leaves in the output's staging buffer: its pieces read back. -/
def out0_A_2 (c : Dev nD) (i : grid0.Coords) (arg1 : Memref sig .tc .vmem S4x10x192x320 .f32) (harg1 : arg1.IsWhole) (arg2 : Memref sig .tc .vmem S4x10x192x320 .f32) (harg2 : arg2.IsWhole) (arg3 : Memref sig .tc .vmem S1x128 .f32) (harg3 : arg3.IsWhole) (hc0 : cond0_0 i)
    (x0 : Vec F S4x10x192x320 .f32) (x1 : Vec F S4x10x192x320 .f32) : Vec F S1x128 .f32 :=
  VO0_2.read (Elt F) (VO0_2.writes (Elt F) VO0_2.junk (kernelRun0_A c i arg1 harg1 arg2 harg2 arg3 harg3 hc0 x0 x1).1)

/-- At a later point the body's one store (the running contents plus this point's sums) tiles the output block. -/
theorem cover0_B_2 (c : Dev nD) (i : grid0.Coords) (arg1 : Memref sig .tc .vmem S4x10x192x320 .f32) (harg1 : arg1.IsWhole) (arg2 : Memref sig .tc .vmem S4x10x192x320 .f32) (harg2 : arg2.IsWhole) (arg3 : Memref sig .tc .vmem S1x128 .f32) (harg3 : arg3.IsWhole) (hc0 : ¬cond0_0 i)
    (x0 : Vec F S4x10x192x320 .f32) (x1 : Vec F S4x10x192x320 .f32) (xo2 : Vec F S1x128 .f32) (y : S1x128.Idx) :
    ∃ pc ∈ (kernelRun0_B c i arg1 harg1 arg2 harg2 arg3 harg3 hc0 x0 x1 xo2).1, y ∈ pc.1.set :=
  View.cover_of_tiledL (kernelRun0_B c i arg1 harg1 arg2 harg2 arg3 harg3 hc0 x0 x1 xo2).1 S1x128.size (by sl_kernel_rfl) y

/-- What a later point leaves in the output's staging buffer, over the running contents `xo2`. -/
def out0_B_2 (c : Dev nD) (i : grid0.Coords) (arg1 : Memref sig .tc .vmem S4x10x192x320 .f32) (harg1 : arg1.IsWhole) (arg2 : Memref sig .tc .vmem S4x10x192x320 .f32) (harg2 : arg2.IsWhole) (arg3 : Memref sig .tc .vmem S1x128 .f32) (harg3 : arg3.IsWhole) (hc0 : ¬cond0_0 i)
    (x0 : Vec F S4x10x192x320 .f32) (x1 : Vec F S4x10x192x320 .f32) (xo2 : Vec F S1x128 .f32) : Vec F S1x128 .f32 :=
  VO0_2.read (Elt F) (VO0_2.writes (Elt F) VO0_2.junk (kernelRun0_B c i arg1 harg1 arg2 harg2 arg3 harg3 hc0 x0 x1 xo2).1)

/-! ## The accumulation over the grid -/

/-- What the output's staging buffer holds after the body at position `n`: the first point's contents at `0`, and at a
    later point that point's contents over what the point before left (the buffer is not written back in between). -/
def outsAt0 (c : Dev nD) : (n : ℕ) → n < cfg0.N → Vec F S1x128 .f32
  | 0, hn => out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) ((hcond0_0 ⟨0, hn⟩).mpr (Nat.zero_mod _)) (iblk m c 0 ⟨0, hn⟩) (iblk m c 1 ⟨0, hn⟩)
  | n + 1, hn =>
    if h0 : (n + 1) % 8 = 0 then
      out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) ((hcond0_0 ⟨n + 1, hn⟩).mpr h0) (iblk m c 0 ⟨n + 1, hn⟩) (iblk m c 1 ⟨n + 1, hn⟩)
    else
      out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (fun h => h0 ((hcond0_0 ⟨n + 1, hn⟩).mp h)) (iblk m c 0 ⟨n + 1, hn⟩) (iblk m c 1 ⟨n + 1, hn⟩) (outsAt0 c n (Nat.lt_of_succ_lt hn))

/-- `outsAt0` at the first point. -/
theorem outsAt0_A (c : Dev nD) (t : Fin cfg0.N) (h0 : t.val % 8 = 0) :
    outsAt0 m c t.val t.isLt = out0_A_2 c (grid0.coords t) (ms0_0 t) (hs0_0 t) (ms0_1 t) (hs0_1 t) (ms0_2 t) (hs0_2 t) ((hcond0_0 t).mpr h0) (iblk m c 0 t) (iblk m c 1 t) := by
  obtain ⟨n, hn⟩ := t
  cases n with
  | zero => exact rfl
  | succ n => exact (dif_pos h0).trans rfl

/-- `outsAt0` at a later point: that point's contents over what the point before left. -/
theorem outsAt0_B (c : Dev nD) (t : Fin cfg0.N) (h0 : ¬t.val % 8 = 0) :
    outsAt0 m c t.val t.isLt = out0_B_2 c (grid0.coords t) (ms0_0 t) (hs0_0 t) (ms0_1 t) (hs0_1 t) (ms0_2 t) (hs0_2 t) (fun h => h0 ((hcond0_0 t).mp h)) (iblk m c 0 t) (iblk m c 1 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of the pipeline on core `c`: the arrays as the region finds them; after the body at point `t` each
    input's buffer at its block and the output's at `outsAt0`; the class invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt) := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
/-- At a later point the output's staging buffer holds what the body left at the point before: the block is written
    back at the last point only. -/
theorem before0_2_B (c : Dev nD) (t : Fin cfg0.N) (h0 : ¬t.val % 8 = 0) (d) :
    (dats m 0 c).before 2 t d = (outsAt0 m c (t.val - 1) (Nat.lt_of_le_of_lt (Nat.sub_le _ _) t.isLt)) := by
  have hN : t.val < 8 := lt_of_lt_of_eq t.isLt (show cfg0.N = 8 from N_0)
  rw [Dat.before_out_kept _ 2 rfl t (by omega) (Bool.eq_false_iff.mpr fun h => by have := (flush0_2 _).mp h; dsimp only at this; omega)
    (fun _ => rfl) (fun _ _ => rfl)]
  dsimp only [dats]

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t))

set_option maxHeartbeats 1600000 in
/-- The body at any point: the inputs' memrefs hold their blocks; at the first point the branch is taken and the output's
    buffer may hold anything; at a later point it holds what the point before left; the invariant passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  have hN : t.val < 8 := lt_of_lt_of_eq t.isLt (show cfg0.N = 8 from N_0)
  by_cases h0 : t.val % 8 = 0
  · rw [outsAt0_A m c t h0]
    unfold out0_A_2
    iintro ⟨HΦ, Ho, ⟨%d0, H0⟩, ⟨%d1, H1⟩, ⟨%d2, H2⟩⟩
    iapply ((kernelRun0_A c (grid0.coords t) _ _ _ _ _ _ ((hcond0_0 t).mpr h0) (iblk m c 0 t) (iblk m c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover0_A_2 c _ _ _ _ _ _ _ _ _ _)
  · rw [outsAt0_B m c t h0]
    simp only [before0_2_B m c t h0]
    unfold out0_B_2
    iintro ⟨HΦ, Ho, ⟨%d0, H0⟩, ⟨%d1, H1⟩, ⟨%d2, H2⟩⟩
    iapply ((kernelRun0_B c (grid0.coords t) _ _ _ _ _ _ (fun h => h0 ((hcond0_0 t).mp h)) (iblk m c 0 t) (iblk m c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover0_B_2 c _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option maxHeartbeats 8000000 in
set_option backward.isDefEq.respectTransparency.types false in
/-- Every weakly fair execution of @main terminates, and every final state has each array of the pipeline at what the
    library computes from the proof data and every other unscoped buffer as the later host lines leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- The frame: @main runs to the end, nothing faults, and the two argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Frame

end
-- ==== Proof.KI.Shared.lean ====
/-
  What the frame of `KernelIdeal` rests on: @main as the region followed by its later host lines, which touch only unscoped
  buffers, allocate nothing and write none of the three arrays the region stages; each window's block at a grid
  point; the frame claim's post read off the library's frame post; the body's one branch condition (the grid
  coordinate is zero), decided over the eight points; and the staging memrefs as the pipeline passes them.
-/
import proofs.«112396_j67877663146547_1_alg».proof.Proof.Gen.KernelIdeal.Launch
import proofs.«112396_j67877663146547_1_alg».proof.Proof.Gen.KernelIdeal.Skeleton
import proofs.«112396_j67877663146547_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region

@main is the region followed by three stretches of host operations (thirty-five, one, fifty); nothing runs before the
region, so the region finds every buffer as launched. -/

/-- Core `c`'s buffer contents when the region is entered, as a valuation: the launch contents. -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

/-- The three stretches of host operations after the region, in order. -/
abbrev tailOps : List (List (HloOp τ sig (Elt F))) := [hostOps1, hostOps1_1, hostOps1_2]

theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor

set_option maxHeartbeats 8000000 in
/-- @main is the region CONTINUED BY the later host lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2]) :=
  Pipeline.hmain_around cfgs 0 defs₀ 𝒱₀ m main [] [hostOps1, hostOps1_1, hostOps1_2] (by simp only [List.Forall])
    (by simp only [List.Forall]) main_chain

/-- The later lines touch the pipeline's arrays and the bypassing buffers only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [tailOps, List.mem_cons, List.mem_nil_iff, or_false] at hops
  rcases hops with rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)

/-- They allocate nothing. -/
theorem sfx_fresh : ∀ ops ∈ (tailOps : List (List (HloOp τ sig (Elt F)))), ∀ op ∈ ops, op.fresh = ∅ := by
  intro ops hops op hop
  simp only [tailOps, List.mem_cons, List.mem_nil_iff, or_false] at hops
  rcases hops with rfl | rfl | rfl
  · exact (List.forall_iff_forall_mem.mp hostOps1_fresh) op hop
  · exact (List.forall_iff_forall_mem.mp hostOps1_1_fresh) op hop
  · exact (List.forall_iff_forall_mem.mp hostOps1_2_fresh) op hop

/-- Each later line writes only its own result buffer, which is none of the three arrays the region stages. -/
theorem hostOps1_keeps : (hostOps1 : List (HloOp τ sig (Elt F))).Forall fun op =>
    ∀ w, Proc.devRef .tc (Pipeline.arrRef spec0 w) ∉ op.writes := by
  simp only [List.Forall]
  repeat' apply And.intro
  all_goals intro w; fin_cases w <;> simp only [StableHlo.nullary_writes, StableHlo.unary_writes, StableHlo.binary_writes, StableHlo.reshape_writes, Finset.mem_singleton] <;> exact StableHlo.devRef_ne_of_ne (by decide)
theorem hostOps1_1_keeps : (hostOps1_1 : List (HloOp τ sig (Elt F))).Forall fun op =>
    ∀ w, Proc.devRef .tc (Pipeline.arrRef spec0 w) ∉ op.writes := by
  simp only [List.Forall]
  intro w; fin_cases w <;> simp only [StableHlo.TRef.ternary, StableHlo.ternary_writes, Finset.mem_singleton] <;> exact StableHlo.devRef_ne_of_ne (by decide)
theorem hostOps1_2_keeps : (hostOps1_2 : List (HloOp τ sig (Elt F))).Forall fun op =>
    ∀ w, Proc.devRef .tc (Pipeline.arrRef spec0 w) ∉ op.writes := by
  simp only [List.Forall]
  repeat' apply And.intro
  all_goals intro w; fin_cases w <;> simp only [StableHlo.nullary_writes, StableHlo.unary_writes, StableHlo.binary_writes, StableHlo.reshape_writes, Finset.mem_singleton] <;> exact StableHlo.devRef_ne_of_ne (by decide)

/-- And write no array of the pipeline. -/
theorem sfx_keeps : ∀ ops ∈ (tailOps : List (List (HloOp τ sig (Elt F)))), ∀ op ∈ ops,
    ∀ w, Proc.devRef .tc (Pipeline.arrRef spec0 w) ∉ op.writes := by
  intro ops hops op hop
  simp only [tailOps, List.mem_cons, List.mem_nil_iff, or_false] at hops
  rcases hops with rfl | rfl | rfl
  · exact (List.forall_iff_forall_mem.mp hostOps1_keeps) op hop
  · exact (List.forall_iff_forall_mem.mp hostOps1_1_keeps) op hop
  · exact (List.forall_iff_forall_mem.mp hostOps1_2_keeps) op hop

theorem V_main_arg0 (c : Dev nD) : V m c main_arg0 = m ((c : Thread nD τ).loc main_arg0) := rfl
theorem V_main_arg1 (c : Dev nD) : V m c main_arg1 = m ((c : Thread nD τ).loc main_arg1) := rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, for any proof data whose array is the
    entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- A run to the library's frame post, read at the two argument arrays (each a staged input), is the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).1 0).trans (((dats 0 c).arrAt_in 0 rfl _).trans ((hA c 0).trans (V_main_arg0 m c))),
     ((h c).1 1).trans (((dats 0 c).arrAt_in 1 rfl _).trans ((hA c 1).trans (V_main_arg1 m c)))⟩) h

/-! ## The body's branch condition -/

/-- The condition of the body's one conditional: the grid coordinate is zero. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val % 8 = 0 :=
  (by decide +kernel : ∀ t : Fin grid0.N, cond0_0 (grid0.coords t) ↔ t.val % 8 = 0)

/-! ## The staging memrefs -/

/-- One staging buffer of the output window, through which its contents are stated. -/
abbrev VO0_2 : View sig .tc .vmem S1x128 .f32 := (Memref.whole cc0_stg2_0 : Memref sig .tc .vmem S1x128 .f32).view
abbrev ms0_0 (t : Fin cfg0.N) : Memref sig .tc .vmem S4x10x192x320 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4x10x192x320 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128 .f32 := win0_2.stage (cfg0.slots t 2)
abbrev hs0_2 (t : Fin cfg0.N) : (ms0_2 t).IsWhole := hstage0_2 ((cfg0.slots t 2).cast nbuf0_2)

end Cert.KernelIdeal.Frame

end
-- ==== Proof.KI.RunA.lean ====
/-
  The kernel body of `KernelIdeal` run whole at the first grid point: which pieces its stores leave in the output's staging buffer.
-/
import proofs.«112396_j67877663146547_1_alg».proof.Proof.KI.Shared

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at the first grid point (the branch taken: the output buffer is first stored whole with zeros), on whole staging memrefs:
    the two input buffers at their contents `x0`, `x1`, the output buffer at anything. It runs to the continuation with the
    inputs as they were and the output buffer with the listed pieces written; the pieces are found by the run. -/
noncomputable def kernelRun0_A (c : Dev nD) (i : grid0.Coords) (arg1 : Memref sig .tc .vmem S4x10x192x320 .f32) (harg1 : arg1.IsWhole) (arg2 : Memref sig .tc .vmem S4x10x192x320 .f32) (harg2 : arg2.IsWhole) (arg3 : Memref sig .tc .vmem S1x128 .f32) (harg3 : arg3.IsWhole) (hc0 : cond0_0 i)
    (x0 : Vec F S4x10x192x320 .f32) (x1 : Vec F S4x10x192x320 .f32) :
    { L2 : List (View.Piece (Elt F) S1x128 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2)) -∗ K ⟨⟩))
          ⊢ wp frame (wpE (defs₀ (F := F)) Variants.none c none) E (cc0__stats_kernel i arg1 harg1 arg2 harg2 arg3 harg3) K } := by
  refine ⟨?_, fun E K => ?run⟩
  case run =>
    simp only [cc0__stats_kernel_eq_skeleton]; unfold cc0__stats_kernel_skel
    simp only [k0_part1_eq_skeleton, k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%d2, %f2, -, H2⟩, Hk⟩
    obtain rfl := harg1.eq_unread hf0; obtain rfl := harg2.eq_unread hf1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    iexists _; iexact H2

end Cert.KernelIdeal.Frame

end
-- ==== Proof.KI.RunB.lean ====
/-
  The kernel body of `KernelIdeal` run whole at a grid point after the first: which pieces its stores leave in the output's staging buffer.
-/
import proofs.«112396_j67877663146547_1_alg».proof.Proof.KI.RunA

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at a later grid point (the branch not taken: the output buffer holds the running contents `xo2`), on whole staging memrefs:
    the two input buffers at their contents `x0`, `x1`, the output buffer at `xo2`. It runs to the continuation with the
    inputs as they were and the output buffer with the listed pieces written; the pieces are found by the run. -/
noncomputable def kernelRun0_B (c : Dev nD) (i : grid0.Coords) (arg1 : Memref sig .tc .vmem S4x10x192x320 .f32) (harg1 : arg1.IsWhole) (arg2 : Memref sig .tc .vmem S4x10x192x320 .f32) (harg2 : arg2.IsWhole) (arg3 : Memref sig .tc .vmem S1x128 .f32) (harg3 : arg3.IsWhole) (hc0 : ¬cond0_0 i)
    (x0 : Vec F S4x10x192x320 .f32) (x1 : Vec F S4x10x192x320 .f32) (xo2 : Vec F S1x128 .f32) :
    { L2 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare xo2
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2)) -∗ K ⟨⟩))
          ⊢ wp frame (wpE (defs₀ (F := F)) Variants.none c none) E (cc0__stats_kernel i arg1 harg1 arg2 harg2 arg3 harg3) K } := by
  refine ⟨?_, fun E K => ?run⟩
  case run =>
    simp only [cc0__stats_kernel_eq_skeleton]; unfold cc0__stats_kernel_skel
    simp only [k0_part1_eq_skeleton, k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    iexists _; iexact H2

end Cert.KernelIdeal.Frame

end
-- ==== Proof.KI.Frame.lean ====
/-
  The frame of `KernelIdeal`: the kernel adds each grid point's fourteen sums into one resident output block, zeroed at the
  first point and written back after the last. What the block holds after each point is stated by recursion on the
  point; with it the proof data, the body obligation at every point, the run of @main around the region, and the frame
  claim: @main terminates, nothing faults, and the two argument arrays end unchanged.
-/
import proofs.«112396_j67877663146547_1_alg».proof.Proof.KI.RunB

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the output's staging buffer holds after the body, case by case -/

/-- At the first point the body's stores (the zero fill, then the sums added to it) tile the output block. -/
theorem cover0_A_2 (c : Dev nD) (i : grid0.Coords) (arg1 : Memref sig .tc .vmem S4x10x192x320 .f32) (harg1 : arg1.IsWhole) (arg2 : Memref sig .tc .vmem S4x10x192x320 .f32) (harg2 : arg2.IsWhole) (arg3 : Memref sig .tc .vmem S1x128 .f32) (harg3 : arg3.IsWhole) (hc0 : cond0_0 i)
    (x0 : Vec F S4x10x192x320 .f32) (x1 : Vec F S4x10x192x320 .f32) (y : S1x128.Idx) :
    ∃ pc ∈ (kernelRun0_A c i arg1 harg1 arg2 harg2 arg3 harg3 hc0 x0 x1).1, y ∈ pc.1.set :=
  View.cover_of_tiledL (kernelRun0_A c i arg1 harg1 arg2 harg2 arg3 harg3 hc0 x0 x1).1 S1x128.size (by sl_kernel_rfl) y

/-- What the first point leaves in the output's staging buffer: its pieces read back. -/
def out0_A_2 (c : Dev nD) (i : grid0.Coords) (arg1 : Memref sig .tc .vmem S4x10x192x320 .f32) (harg1 : arg1.IsWhole) (arg2 : Memref sig .tc .vmem S4x10x192x320 .f32) (harg2 : arg2.IsWhole) (arg3 : Memref sig .tc .vmem S1x128 .f32) (harg3 : arg3.IsWhole) (hc0 : cond0_0 i)
    (x0 : Vec F S4x10x192x320 .f32) (x1 : Vec F S4x10x192x320 .f32) : Vec F S1x128 .f32 :=
  VO0_2.read (Elt F) (VO0_2.writes (Elt F) VO0_2.junk (kernelRun0_A c i arg1 harg1 arg2 harg2 arg3 harg3 hc0 x0 x1).1)

/-- At a later point the body's one store (the running contents plus this point's sums) tiles the output block. -/
theorem cover0_B_2 (c : Dev nD) (i : grid0.Coords) (arg1 : Memref sig .tc .vmem S4x10x192x320 .f32) (harg1 : arg1.IsWhole) (arg2 : Memref sig .tc .vmem S4x10x192x320 .f32) (harg2 : arg2.IsWhole) (arg3 : Memref sig .tc .vmem S1x128 .f32) (harg3 : arg3.IsWhole) (hc0 : ¬cond0_0 i)
    (x0 : Vec F S4x10x192x320 .f32) (x1 : Vec F S4x10x192x320 .f32) (xo2 : Vec F S1x128 .f32) (y : S1x128.Idx) :
    ∃ pc ∈ (kernelRun0_B c i arg1 harg1 arg2 harg2 arg3 harg3 hc0 x0 x1 xo2).1, y ∈ pc.1.set :=
  View.cover_of_tiledL (kernelRun0_B c i arg1 harg1 arg2 harg2 arg3 harg3 hc0 x0 x1 xo2).1 S1x128.size (by sl_kernel_rfl) y

/-- What a later point leaves in the output's staging buffer, over the running contents `xo2`. -/
def out0_B_2 (c : Dev nD) (i : grid0.Coords) (arg1 : Memref sig .tc .vmem S4x10x192x320 .f32) (harg1 : arg1.IsWhole) (arg2 : Memref sig .tc .vmem S4x10x192x320 .f32) (harg2 : arg2.IsWhole) (arg3 : Memref sig .tc .vmem S1x128 .f32) (harg3 : arg3.IsWhole) (hc0 : ¬cond0_0 i)
    (x0 : Vec F S4x10x192x320 .f32) (x1 : Vec F S4x10x192x320 .f32) (xo2 : Vec F S1x128 .f32) : Vec F S1x128 .f32 :=
  VO0_2.read (Elt F) (VO0_2.writes (Elt F) VO0_2.junk (kernelRun0_B c i arg1 harg1 arg2 harg2 arg3 harg3 hc0 x0 x1 xo2).1)

/-! ## The accumulation over the grid -/

/-- What the output's staging buffer holds after the body at position `n`: the first point's contents at `0`, and at a
    later point that point's contents over what the point before left (the buffer is not written back in between). -/
def outsAt0 (c : Dev nD) : (n : ℕ) → n < cfg0.N → Vec F S1x128 .f32
  | 0, hn => out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) ((hcond0_0 ⟨0, hn⟩).mpr (Nat.zero_mod _)) (iblk m c 0 ⟨0, hn⟩) (iblk m c 1 ⟨0, hn⟩)
  | n + 1, hn =>
    if h0 : (n + 1) % 8 = 0 then
      out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) ((hcond0_0 ⟨n + 1, hn⟩).mpr h0) (iblk m c 0 ⟨n + 1, hn⟩) (iblk m c 1 ⟨n + 1, hn⟩)
    else
      out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (fun h => h0 ((hcond0_0 ⟨n + 1, hn⟩).mp h)) (iblk m c 0 ⟨n + 1, hn⟩) (iblk m c 1 ⟨n + 1, hn⟩) (outsAt0 c n (Nat.lt_of_succ_lt hn))

/-- `outsAt0` at the first point. -/
theorem outsAt0_A (c : Dev nD) (t : Fin cfg0.N) (h0 : t.val % 8 = 0) :
    outsAt0 m c t.val t.isLt = out0_A_2 c (grid0.coords t) (ms0_0 t) (hs0_0 t) (ms0_1 t) (hs0_1 t) (ms0_2 t) (hs0_2 t) ((hcond0_0 t).mpr h0) (iblk m c 0 t) (iblk m c 1 t) := by
  obtain ⟨n, hn⟩ := t
  cases n with
  | zero => exact rfl
  | succ n => exact (dif_pos h0).trans rfl

/-- `outsAt0` at a later point: that point's contents over what the point before left. -/
theorem outsAt0_B (c : Dev nD) (t : Fin cfg0.N) (h0 : ¬t.val % 8 = 0) :
    outsAt0 m c t.val t.isLt = out0_B_2 c (grid0.coords t) (ms0_0 t) (hs0_0 t) (ms0_1 t) (hs0_1 t) (ms0_2 t) (hs0_2 t) (fun h => h0 ((hcond0_0 t).mp h)) (iblk m c 0 t) (iblk m c 1 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of the pipeline on core `c`: the arrays as the region finds them; after the body at point `t` each
    input's buffer at its block and the output's at `outsAt0`; the class invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt) := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
/-- At a later point the output's staging buffer holds what the body left at the point before: the block is written
    back at the last point only. -/
theorem before0_2_B (c : Dev nD) (t : Fin cfg0.N) (h0 : ¬t.val % 8 = 0) (d) :
    (dats m 0 c).before 2 t d = (outsAt0 m c (t.val - 1) (Nat.lt_of_le_of_lt (Nat.sub_le _ _) t.isLt)) := by
  have hN : t.val < 8 := lt_of_lt_of_eq t.isLt (show cfg0.N = 8 from N_0)
  rw [Dat.before_out_kept _ 2 rfl t (by omega) (Bool.eq_false_iff.mpr fun h => by have := (flush0_2 _).mp h; dsimp only at this; omega)
    (fun _ => rfl) (fun _ _ => rfl)]
  dsimp only [dats]

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t))

set_option maxHeartbeats 1600000 in
/-- The body at any point: the inputs' memrefs hold their blocks; at the first point the branch is taken and the output's
    buffer may hold anything; at a later point it holds what the point before left; the invariant passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  have hN : t.val < 8 := lt_of_lt_of_eq t.isLt (show cfg0.N = 8 from N_0)
  by_cases h0 : t.val % 8 = 0
  · rw [outsAt0_A m c t h0]
    unfold out0_A_2
    iintro ⟨HΦ, Ho, ⟨%d0, H0⟩, ⟨%d1, H1⟩, ⟨%d2, H2⟩⟩
    iapply ((kernelRun0_A c (grid0.coords t) _ _ _ _ _ _ ((hcond0_0 t).mpr h0) (iblk m c 0 t) (iblk m c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover0_A_2 c _ _ _ _ _ _ _ _ _ _)
  · rw [outsAt0_B m c t h0]
    simp only [before0_2_B m c t h0]
    unfold out0_B_2
    iintro ⟨HΦ, Ho, ⟨%d0, H0⟩, ⟨%d1, H1⟩, ⟨%d2, H2⟩⟩
    iapply ((kernelRun0_B c (grid0.coords t) _ _ _ _ _ _ (fun h => h0 ((hcond0_0 t).mp h)) (iblk m c 0 t) (iblk m c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover0_B_2 c _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option maxHeartbeats 8000000 in
set_option backward.isDefEq.respectTransparency.types false in
/-- Every weakly fair execution of @main terminates, and every final state has each array of the pipeline at what the
    library computes from the proof data and every other unscoped buffer as the later host lines leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- The frame: @main runs to the end, nothing faults, and the two argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Frame

end
-- ==== Proof.KI.TileTerms.lean ====
/-
  One grid point's arithmetic, named: the body's intermediate values as the terms it computes them by, from the two
  input blocks `re` (the prediction's four batch entries at the point) and `gt` (the ground truth's), ending in the row
  the point adds to the output block (`tileVec`): the block's contents plus the point's fourteen sums followed by zeros.
-/
import proofs.«112396_j67877663146547_1_alg».proof.Proof.Gen.KernelIdeal.Skeleton

noncomputable section

namespace Cert.KernelIdeal.Frame

open Cert.KernelIdeal Cert.KernelIdeal.Gen
open Idealize.ShloMosaic Idealize.SL.Sem

variable {F : FTy → Type} [FloatOps F]

/-! ## One grid point's sums, as values of the two input blocks

`re` is the first input's block at the point (four batch entries of the prediction), `gt` the second's (the same four
of the ground truth). The body's intermediate values are named here as the payload terms the body computes them by. -/

section Tile
variable (re gt : Vec F S4x10x192x320 .f32)

/-- Channel 0 of the ground-truth block, and of the prediction block. -/
abbrev gt0 : FVec F S4x192x320 .f32 := k0_pay4 gt
abbrev re0 : FVec F S4x192x320 .f32 := k0_pay5 re
/-- The vehicle mask, as 0 / 1. -/
abbrev mvf : FVec F S4x192x320 .f32 := k0_pay7 gt
abbrev posv : FVec F S4x192x320 .f32 := k0_pay9 gt
abbrev negv : FVec F S4x192x320 .f32 := k0_pay10 gt
/-- The prediction's channel 0 raised to the clamp's lower end, and the clamp's upper end splatted. -/
abbrev clampLo : FVec F S4x192x320 .f32 := k0_pay12 re
abbrev hiv : FVec F S4x192x320 .f32 := k0_pay13

/-- The point's fourteen sums but the last, each a one-by-one vector, in the order the body concatenates them. -/
abbrev t0 : FVec F S1x1 .f32 := k0_pay8 gt
abbrev t1 : FVec F S1x1 .f32 := k0_pay11 gt
abbrev t2 : FVec F S1x1 .f32 := k0_pay15 (gt0 gt) (re0 re) (posv gt) (clampLo re) hiv
abbrev t3 : FVec F S1x1 .f32 := k0_pay16 (gt0 gt) (re0 re) (negv gt) (clampLo re) hiv
abbrev t4 : FVec F S1x1 .f32 := k0_pay19 re gt (mvf gt) k0_pay17 (k0_pay18 re gt (mvf gt))
abbrev t5 : FVec F S1x1 .f32 := k0_pay23 (mvf gt) (k0_pay20 re gt (mvf gt)) (k0_pay21 re gt) (k0_pay22 re gt) (Scalar.ofBits .f32 0x3F800000#32)
abbrev t6 : FVec F S1x1 .f32 := k0_pay30 (mvf gt) (k0_pay24 re gt (mvf gt)) (k0_pay26 re gt) (k0_pay27 re gt) (k0_pay28 re gt) k0_pay29
abbrev t7 : FVec F S1x1 .f32 := k0_pay31 re gt (mvf gt)
abbrev t8 : FVec F S1x1 .f32 := k0_pay35 (mvf gt) (k0_pay32 re gt (mvf gt)) (k0_pay33 re) (k0_pay34 gt)
abbrev t9 : FVec F S1x1 .f32 := k0_pay36 re gt (mvf gt)
abbrev t10 : FVec F S1x1 .f32 := k0_pay40 (mvf gt) (k0_pay37 re gt (mvf gt)) (k0_pay38 re) (k0_pay39 gt)
abbrev t11 : FVec F S1x1 .f32 := k0_pay41 re (mvf gt)
abbrev t12 : FVec F S1x1 .f32 := k0_pay42 re (mvf gt)
/-- The masked smooth-L1 of channel 9, whose sum is the fourteenth. -/
abbrev h13 : FVec F S4x192x320 .f32 := k0_pay1 (mvf gt) (k0_pay44 re gt) (k0_pay45 re gt) (k0_pay46 re gt) (Scalar.ofBits .f32 0x3F000000#32)

/-- What one point stores into the output block holding `acc`: `acc` plus the row of the point's fourteen sums
    followed by zeros. -/
def tileVec (acc : Vec F S1x128 .f32) : FVec F S1x128 .f32 :=
  k0_pay2 (t0 gt) (t1 gt) (t2 re gt) (t3 re gt) (t4 re gt) (t5 re gt) (t6 re gt) (t7 re gt) (t8 re gt) (t9 re gt) (t10 re gt)
    (t11 re gt) (t12 re gt) (h13 re gt) acc

end Tile

/-- The zero row the first point stores before it adds. -/
abbrev zeroRow : FVec F S1x128 .f32 := k0_pay3

end Cert.KernelIdeal.Frame

end
-- ==== Proof.KI.Tile.lean ====
/-
  What one grid point does to the output block, as a value: the first point stores the zero row and leaves it plus the
  point's sums; every later point leaves what the point before left plus its own sums. So the running contents of the
  block obey a two-line recursion over the grid.
-/
import proofs.«112396_j67877663146547_1_alg».proof.Proof.KI.Frame
import proofs.«112396_j67877663146547_1_alg».proof.Proof.KI.TileTerms
import Idealize.ShloMosaic.Lib.Pipeline.Value

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz : (![0, 0] : Fin 2 → Nat) = fun _ => 0 := funext fun a => by fin_cases a <;> rfl
theorem hz4 : (![0, 0, 0, 0] : Fin 4 → Nat) = fun _ => 0 := funext fun a => by fin_cases a <;> rfl

/-- At a later point the body leaves, in the output's staging buffer holding `xo2`, `xo2` plus the point's sums: its one
    covering store's payload, whose loads read the whole buffers. -/
theorem out0_B_2_eq (c : Dev nD) (i : grid0.Coords) (arg1 : Memref sig .tc .vmem S4x10x192x320 .f32) (harg1 : arg1.IsWhole) (arg2 : Memref sig .tc .vmem S4x10x192x320 .f32) (harg2 : arg2.IsWhole) (arg3 : Memref sig .tc .vmem S1x128 .f32) (harg3 : arg3.IsWhole) (hc0 : ¬cond0_0 i)
    (x0 x1 : Vec F S4x10x192x320 .f32) (xo2 : Vec F S1x128 .f32) :
    out0_B_2 c i arg1 harg1 arg2 harg2 arg3 harg3 hc0 x0 x1 xo2 = tileVec x0 x1 xo2 := by
  unfold out0_B_2
  rw [View.read_writes_eq_canon _ _ _ (cover0_B_2 c i arg1 harg1 arg2 harg2 arg3 harg3 hc0 x0 x1 xo2)]
  unfold kernelRun0_B
  dsimp only
  sl_unfold_words
  rw [View.canon_unit_zero hz]
  unfold tileVec
  simp only [View.readAt_eq_ld, harg1.read_unread, harg2.read_unread, harg3.read_unread,
    View.ld_unit_zero (S := S4x10x192x320) hz4, View.ld_unit_zero (S := S1x128) hz]

/-- At the first point the body stores the zero row, reads it back, and leaves the zero row plus the point's sums. -/
theorem out0_A_2_eq (c : Dev nD) (i : grid0.Coords) (arg1 : Memref sig .tc .vmem S4x10x192x320 .f32) (harg1 : arg1.IsWhole) (arg2 : Memref sig .tc .vmem S4x10x192x320 .f32) (harg2 : arg2.IsWhole) (arg3 : Memref sig .tc .vmem S1x128 .f32) (harg3 : arg3.IsWhole) (hc0 : cond0_0 i)
    (x0 x1 : Vec F S4x10x192x320 .f32) :
    out0_A_2 c i arg1 harg1 arg2 harg2 arg3 harg3 hc0 x0 x1 = tileVec x0 x1 zeroRow := by
  unfold out0_A_2
  rw [View.read_writes_eq_canon _ _ _ (cover0_A_2 c i arg1 harg1 arg2 harg2 arg3 harg3 hc0 x0 x1)]
  unfold kernelRun0_A
  dsimp only
  sl_unfold_words
  rw [View.canon_cons_unit_zero (S := S1x128) hz, View.readCov_unit_zero (S := S1x128) _ hz]
  unfold tileVec
  simp only [View.readAt_eq_ld, harg1.read_unread, harg2.read_unread,
    View.ld_unit_zero (S := S4x10x192x320) hz4, View.ld_unit_zero (S := S1x128) hz]

/-! ## The running contents of the output block -/

/-- After the first point the block holds the zero row plus that point's sums. -/
theorem outsAt0_zero (c : Dev nD) (h : 0 < cfg0.N) :
    outsAt0 m c 0 h = tileVec (iblk m c 0 ⟨0, h⟩) (iblk m c 1 ⟨0, h⟩) zeroRow :=
  (outsAt0_A m c ⟨0, h⟩ rfl).trans (out0_A_2_eq ..)

/-- After a later point it holds what the point before left plus that point's sums. -/
theorem outsAt0_succ (c : Dev nD) (n : ℕ) (h : n + 1 < cfg0.N) :
    outsAt0 m c (n + 1) h = tileVec (iblk m c 0 ⟨n + 1, h⟩) (iblk m c 1 ⟨n + 1, h⟩) (outsAt0 m c n (Nat.lt_of_succ_lt h)) := by
  have hN : cfg0.N = 8 := N_0
  have hB : ¬(⟨n + 1, h⟩ : Fin cfg0.N).val % 8 = 0 := by dsimp only; omega
  rw [outsAt0_B m c ⟨n + 1, h⟩ hB, out0_B_2_eq]
  rfl

end Cert.KernelIdeal.Frame

end
-- ==== Proof.Spec.lean ====
/-
  The loss as mathematics, free of either program. Inputs are two arrays `re`, `gt` of shape [32, 10, 192, 320]: at a
  pixel (b, h, w) each gives ten channel values. Channel 0 of `gt` marks the pixel: `mv` is 1 where it equals 1 (a
  vehicle pixel), `pos` / `neg` are 1 where it is non-negative and at least / below 0.1. Twenty-one sums over all pixels
  (`pixSum`, stated for any number of batch entries: 32 for the whole arrays, 4 for one grid point's blocks) of per-pixel terms are combined into fourteen statistics (`stats`) and those into one number (`loss`):
  a focal term, smooth-L1 and squared differences of paired channels on vehicle pixels, each divided by the vehicle count.
  Everything is read on the extended reals, where `/` is `Ideal.div` (division by zero gives an infinity of the
  numerator's sign, `0 / 0` gives `⊥`); the laws the comparison of the two programs needs are proved beside this file.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-! ## The literals, as the extended reals their f32 patterns denote -/

abbrev zero : EReal := Ideal.ofBits .f32 0x00000000#32
abbrev one : EReal := Ideal.ofBits .f32 0x3F800000#32
abbrev two : EReal := Ideal.ofBits .f32 0x40000000#32
abbrev half : EReal := Ideal.ofBits .f32 0x3F000000#32
abbrev tenth : EReal := Ideal.ofBits .f32 0x3DCCCCCD#32
/-- The clamp's lower and upper ends, `1e-6` and `1 - 1e-6` as f32. -/
abbrev lo : EReal := Ideal.ofBits .f32 0x358637BD#32
abbrev hi : EReal := Ideal.ofBits .f32 0x3F7FFFEF#32
/-- `6e-8` and `1 + 6e-8` as f32. -/
abbrev eps : EReal := Ideal.ofBits .f32 0x3380D959#32
abbrev onePlus : EReal := Ideal.ofBits .f32 0x3F800001#32

/-! ## The per-pixel terms -/

/-- A truth bit as the number 0 or 1. -/
def ind (b : BitVec 1) : EReal := ((b.toNat : ℝ) : EReal)

/-- 1 on a vehicle pixel (`gt`'s channel 0 equals 1), else 0. -/
def mv (g0 : EReal) : EReal := ind (Ideal.cmp .oeq g0 one)
/-- 1 where `gt`'s channel 0 is non-negative. -/
def m0 (g0 : EReal) : EReal := ind (Ideal.cmp .oge g0 zero)
def pos (g0 : EReal) : EReal := m0 g0 * ind (Ideal.cmp .oge g0 tenth)
def neg (g0 : EReal) : EReal := m0 g0 * ind (Ideal.cmp .olt g0 tenth)
/-- `re`'s channel 0 clamped into [lo, hi]. -/
def safe (r0 : EReal) : EReal := min hi (max lo r0)
/-- The focal term's positive part at a pixel. -/
def apos (r0 g0 : EReal) : EReal := pos g0 * ((g0 - r0) * (g0 - r0)) * Ideal.log (safe r0 + eps)
/-- The focal term's negative part at a pixel. -/
def aneg (r0 g0 : EReal) : EReal :=
  neg g0 * (r0 * r0) * Ideal.log (onePlus - safe r0) * (((one - g0) * (one - g0)) * ((one - g0) * (one - g0)))
/-- Smooth L1 of a difference. -/
def sl1 (d : EReal) : EReal := Scalar.select (Ideal.cmp .olt (max d (-d)) one) (half * d * d) (max d (-d) - half)
/-- Smooth L1 of `r - g` on a vehicle pixel. -/
def slT (r g v : EReal) : EReal := sl1 (r - g) * v
/-- The squared difference on a vehicle pixel. -/
def sqT (r g v : EReal) : EReal := (r - g) * (r - g) * v
/-- The squared defect of `a² + b² = 1` on a vehicle pixel. -/
def coT (a b v : EReal) : EReal := (one - a * a - b * b) * (one - a * a - b * b) * v

/-! ## Sums over all pixels -/

/-- An array of `n` batch entries, ten channels, 192 × 320 pixels: the whole arrays at `n = 32`, one grid point's
    blocks at `n = 4`. -/
abbrev SArr (n : ℕ) : Shape := ⟨4, ![n, 10, 192, 320]⟩

variable {n : ℕ}

/-- The sum over every pixel (b, h, w) of a term of the two arrays' channel vectors there. -/
def pixSum (f : (Fin 10 → EReal) → (Fin 10 → EReal) → EReal) (re gt : (SArr n).Idx → EReal) : EReal :=
  ∑ b : Fin n, ∑ h : Fin 192, ∑ w : Fin 320, f (fun ch => re (ix4 b ch h w)) (fun ch => gt (ix4 b ch h w))

def slSum (a b : Fin 10) (re gt : (SArr n).Idx → EReal) : EReal := pixSum (fun r g => slT (r a) (g b) (mv (g 0))) re gt
def sqSum (a b : Fin 10) (re gt : (SArr n).Idx → EReal) : EReal := pixSum (fun r g => sqT (r a) (g b) (mv (g 0))) re gt
def coSum (a b : Fin 10) (re gt : (SArr n).Idx → EReal) : EReal := pixSum (fun r g => coT (r a) (r b) (mv (g 0))) re gt

/-- The fourteen statistics: the vehicle count, the count of positive pixels, the two focal sums, then the paired
    smooth-L1 and squared-difference sums, the two unit-circle defects and the height term. -/
def stats (re gt : (SArr n).Idx → EReal) : Fin 14 → EReal := ![
  pixSum (fun _ g => mv (g 0)) re gt,
  pixSum (fun _ g => pos (g 0)) re gt,
  pixSum (fun r g => apos (r 0) (g 0)) re gt,
  pixSum (fun r g => aneg (r 0) (g 0)) re gt,
  slSum 1 1 re gt + slSum 2 2 re gt,
  slSum 3 3 re gt + slSum 6 6 re gt,
  slSum 3 6 re gt + slSum 6 3 re gt,
  sqSum 4 4 re gt + sqSum 7 7 re gt,
  sqSum 5 5 re gt + sqSum 8 8 re gt,
  sqSum 4 7 re gt + sqSum 7 4 re gt,
  sqSum 5 8 re gt + sqSum 8 5 re gt,
  coSum 5 4 re gt,
  coSum 8 7 re gt,
  slSum 9 9 re gt]

/-! ## The loss of the fourteen statistics -/

/-- The loss: the focal term (the negative part alone when there is no positive pixel), plus the position term, plus
    the smaller of the two pairings of the length and angle terms, plus the height term, plus the unit-circle term. -/
def loss (s : Fin 14 → EReal) : EReal :=
  let focal := Scalar.select (Ideal.cmp .oeq (s 1) zero) (-(s 3)) (Ideal.div (-(s 2) + -(s 3)) (s 1))
  let conf := one * focal
  let posL := one * Ideal.div (s 4) (two * s 0)
  let len1 := tenth * Ideal.div (s 5) (two * s 0)
  let len2 := tenth * Ideal.div (s 6) (two * s 0)
  let trig1 := one * (Ideal.div (s 7) (two * s 0) + Ideal.div (s 8) (two * s 0))
  let trig2 := one * (Ideal.div (s 9) (two * s 0) + Ideal.div (s 10) (two * s 0))
  let constL := half * (Ideal.div (s 11) (s 0) + Ideal.div (s 12) (s 0))
  let height := tenth * Ideal.div (s 13) (s 0)
  conf + posL + (min (len1 + trig1) (len2 + trig2) + height) + constL

/-! ## The whole arrays' sums from the eight blocks' -/

/-- Block `t` of an array of 32 batch entries: its entries `4 t`, …, `4 t + 3`. -/
def blk (x : (SArr 32).Idx → EReal) (t : Fin 8) : (SArr 4).Idx → EReal := fun i =>
  x (ix4 (⟨4 * t.val + (i 0).val, by have h : (i 0).val < 4 := (i 0).isLt; have := t.isLt; omega⟩ : Fin 32)
    (⟨(i 1).val, (i 1).isLt⟩ : Fin 10) (⟨(i 2).val, (i 2).isLt⟩ : Fin 192) (⟨(i 3).val, (i 3).isLt⟩ : Fin 320))

end Cert.Spec

end
-- ==== Proof.KI.TileDefs.lean ====
/-
  One grid point's fourteen sums as extended reals: the values the body concatenates into the first fourteen lanes of
  the row it adds to the output block. They are what the lane-by-lane reading of that row and the sum-by-sum reading
  of the body's arithmetic meet at.
-/
import proofs.«112396_j67877663146547_1_alg».proof.Proof.KI.TileTerms
import proofs.«112396_j67877663146547_1_alg».proof.Proof.Spec
import Idealize.ShloMosaic.Lib.ValueIdx

set_option maxRecDepth 16384

noncomputable section

namespace Cert.KernelIdeal.Val

open Cert.KernelIdeal Cert.KernelIdeal.Gen Cert.KernelIdeal.Frame Cert.Spec
open Idealize.ShloMosaic Idealize.ShloMosaic.TcCoe Idealize.ShloMosaic.ValueIdx Idealize.SL.Sem

/-- Lane `j` (of the first fourteen) of the one-row output block. -/
abbrev lane (j : Fin 14) : S1x128.Idx := ix2 (0 : Fin 1) (⟨j.val, by have := j.isLt; omega⟩ : Fin 128)

/-- The one index of a one-by-one vector. -/
abbrev i11 : S1x1.Idx := ix2 (0 : Fin 1) (0 : Fin 1)

/-- The fourteenth sum as the body forms it inside the row: the sum of the masked smooth-L1 of channel 9. -/
def t13 (re gt : Vec Ideal S4x10x192x320 .f32) : FVec Ideal S1x1 .f32 :=
  broadcast S1x1 (extractAt ![0, 0, 0, 0] (shapeCast S1x1x1x1 (multiReduction .add [1, 2, 3] S1
    (shapeCast S1x4x192x320 (h13 re gt) shapeCasts_S4x192x320_S1x4x192x320) 0x00000000#32 reduces_S1x4x192x320_S1 (.inl rfl) rfl)
    shapeCasts_S1_S1x1x1x1) inpos_S1x1x1x1_p0_0_0_0)

/-- One grid point's fourteen sums, of the point's two input blocks. -/
def tileStat (re gt : Vec Ideal S4x10x192x320 .f32) : Fin 14 → EReal := ![
  t0 gt i11, t1 gt i11, t2 re gt i11, t3 re gt i11, t4 re gt i11, t5 re gt i11, t6 re gt i11, t7 re gt i11,
  t8 re gt i11, t9 re gt i11, t10 re gt i11, t11 re gt i11, t12 re gt i11, t13 re gt i11]

end Cert.KernelIdeal.Val

end
-- ==== Proof.KI.Blocks.lean ====
/-
  How the pipeline's blocks sit in the arrays: each input window's block at grid point `t` is batch entries 4 t … 4 t + 3
  of its argument array, and the output array — one block, written back once, after the last point — ends holding what
  the last point left in the block.
-/
import proofs.«112396_j67877663146547_1_alg».proof.Proof.KI.Tile
import proofs.«112396_j67877663146547_1_alg».proof.Proof.KI.TileDefs
import Idealize.ShloMosaic.Lib.Pipeline.Value

set_option maxRecDepth 16384

noncomputable section

namespace Cert.KernelIdeal.Val

open Cert.KernelIdeal Cert.KernelIdeal.Gen Cert.KernelIdeal.Frame Cert.Spec
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- Grid point `t` as one of the eight blocks. -/
abbrev pt (t : Fin cfg0.N) : Fin 8 := ⟨t.val, lt_of_lt_of_eq t.isLt N_0⟩

/-- The first input's index map, decided over the grid: the batch axis moves with the point, the other axes stay. -/
theorem idx0 : ∀ t : Fin cfg0.N, win0_0.index t (0 : Fin 4) = t.val ∧ win0_0.index t (1 : Fin 4) = 0
    ∧ win0_0.index t (2 : Fin 4) = 0 ∧ win0_0.index t (3 : Fin 4) = 0 :=
  (by decide +kernel : ∀ t : Fin grid0.N, win0_0.index t (0 : Fin 4) = t.val ∧ win0_0.index t (1 : Fin 4) = 0
    ∧ win0_0.index t (2 : Fin 4) = 0 ∧ win0_0.index t (3 : Fin 4) = 0)

/-- The second input's index map, the same. -/
theorem idx1 : ∀ t : Fin cfg0.N, win0_1.index t (0 : Fin 4) = t.val ∧ win0_1.index t (1 : Fin 4) = 0
    ∧ win0_1.index t (2 : Fin 4) = 0 ∧ win0_1.index t (3 : Fin 4) = 0 :=
  (by decide +kernel : ∀ t : Fin grid0.N, win0_1.index t (0 : Fin 4) = t.val ∧ win0_1.index t (1 : Fin 4) = 0
    ∧ win0_1.index t (2 : Fin 4) = 0 ∧ win0_1.index t (3 : Fin 4) = 0)

/-- The first input's block at point `t` is block `t` of the first argument array. -/
theorem iblk0_eq (c : Dev nD) (t : Fin cfg0.N) :
    (iblk m c 0 t : Vec Ideal S4x10x192x320 .f32) = blk (m ((c : Thread nD τ).loc main_arg0)) (pt t) := by
  obtain ⟨e0, e1, e2, e3⟩ := idx0 t
  funext j
  unfold iblk blk
  rw [View.read_apply]
  show V m c main_arg0 (((cfg0.win 0).blk t).view.emb j) = m ((c : Thread nD τ).loc main_arg0) _
  rw [V_main_arg0]
  congr 1
  funext a
  apply Fin.ext
  match a with
  | ⟨0, _⟩ => show win0_0.index t (0 : Fin 4) * 4 + 1 * (j 0).val = 4 * t.val + (j 0).val; omega
  | ⟨1, _⟩ => show win0_0.index t (1 : Fin 4) * 10 + 1 * (j 1).val = (j 1).val; omega
  | ⟨2, _⟩ => show win0_0.index t (2 : Fin 4) * 192 + 1 * (j 2).val = (j 2).val; omega
  | ⟨3, _⟩ => show win0_0.index t (3 : Fin 4) * 320 + 1 * (j 3).val = (j 3).val; omega

/-- The second input's block at point `t` is block `t` of the second argument array. -/
theorem iblk1_eq (c : Dev nD) (t : Fin cfg0.N) :
    (iblk m c 1 t : Vec Ideal S4x10x192x320 .f32) = blk (m ((c : Thread nD τ).loc main_arg1)) (pt t) := by
  obtain ⟨e0, e1, e2, e3⟩ := idx1 t
  funext j
  unfold iblk blk
  rw [View.read_apply]
  show V m c main_arg1 (((cfg0.win 1).blk t).view.emb j) = m ((c : Thread nD τ).loc main_arg1) _
  rw [V_main_arg1]
  congr 1
  funext a
  apply Fin.ext
  match a with
  | ⟨0, _⟩ => show win0_1.index t (0 : Fin 4) * 4 + 1 * (j 0).val = 4 * t.val + (j 0).val; omega
  | ⟨1, _⟩ => show win0_1.index t (1 : Fin 4) * 10 + 1 * (j 1).val = (j 1).val; omega
  | ⟨2, _⟩ => show win0_1.index t (2 : Fin 4) * 192 + 1 * (j 2).val = (j 2).val; omega
  | ⟨3, _⟩ => show win0_1.index t (3 : Fin 4) * 320 + 1 * (j 3).val = (j 3).val; omega

/-! ## The output array: one block, written back once -/

/-- The output's block at the last point, decided on both axes: it starts at offset zero and has the array's extent. -/
theorem rect2 : ∀ a : Fin 2, win0_2.index t0_7 a * win0_2.size a = 0 ∧ win0_2.xsize (grid0.coords t0_7) a = S1x128.size a := by
  decide +kernel

/-- So that block, read off any contents of the output array, is those contents: -/
theorem read_blk2 (c : Dev nD) (G : Buf (Elt Ideal) ((c : Thread nD τ).loc main_v0)) :
    ((cfg0.win 2).blk t0_7).view.read (Elt Ideal) G = G := by
  have hz : (fun a => win0_2.index t0_7 a * main_v0.ty.shape.size a) = fun _ => 0 := funext fun a => (rect2 a).1
  exact Memref.read_access_unit_zero (Elt Ideal) main_v0 hz (fun a => by rw [congrFun hz a, Nat.zero_add]) G

/-- and every index of the array lies in it. -/
theorem mem_blk2 (i : S1x128.Idx) : i ∈ ((cfg0.win 2).blk t0_7).view.set := by
  show i ∈ ((View.whole main_v0).slice (win0_2.rect t0_7)).set
  rw [View.set_slice_whole, Rect.mem_set_unit]
  intro a
  obtain ⟨h0, h1⟩ := rect2 a
  show win0_2.index t0_7 a * win0_2.size a ≤ (i a : Nat)
    ∧ (i a : Nat) < win0_2.index t0_7 a * win0_2.size a + win0_2.xsize (grid0.coords t0_7) a
  rw [h0, h1, Nat.zero_add]
  exact ⟨Nat.zero_le _, (i a).isLt⟩

/-- The output array after the region is what the last point left in the block. -/
theorem arr_final (c : Dev nD) :
    (dats m 0 c).arrAt 2 cfg0.N = outsAt0 m c 7 (by rw [show cfg0.N = 8 from N_0]; decide) := by
  have hN : cfg0.N = 8 := N_0
  refine (dats m 0 c).arrAt_eq_of_cover 2 _ (fun t hf => ?_) fun i => ⟨t0_7, (flush0_2 t0_7).mpr rfl, mem_blk2 i⟩
  -- the only point that writes back is the last; what it writes is what the body left there
  have h7 : t.val = 7 := by have := (flush0_2 t).mp hf; have := t.isLt; omega
  obtain rfl : t = t0_7 := Fin.ext h7
  rw [read_blk2 c]
  show (cfg0.win 2).cut (grid0.coords t0_7) ((dats m 0 c).after 2 t0_7) = _
  rw [after0_2]
  rfl

end Cert.KernelIdeal.Val

end
-- ==== Proof.KI.Lanes.lean ====
/-
  The row one grid point adds to the output block, read lane by lane: the fourteen one-by-one sums concatenated along
  the lane axis, then 114 zeros, added to the block's contents. At lane `j` of the first fourteen the result is the
  contents there plus the `j`-th sum; and the zero row the first point starts from is zero at every lane.
-/
import proofs.«112396_j67877663146547_1_alg».proof.Proof.KI.TileDefs
import Idealize.ShloMosaic.Lib.Pipeline.Value
import Idealize.ShloMosaic.PureOps.Ideal.Laws
import Idealize.ShloMosaic.Lib.ValueLayout

set_option maxRecDepth 16384

noncomputable section

namespace Cert.KernelIdeal.Val

open Cert.KernelIdeal Cert.KernelIdeal.Gen Cert.KernelIdeal.Frame Cert.Spec
open Idealize.ShloMosaic Idealize.ShloMosaic.TcCoe Idealize.ShloMosaic.ValueIdx Idealize.SL.Sem

/-- Fourteen one-lane pieces laid along the lanes of a one-row vector: lane `j` reads piece `j` at its one index. -/
private theorem cat14_lane {α : Type} (v0 v1 v2 v3 v4 v5 v6 v7 v8 v9 v10 v11 v12 v13 : S1x1.Idx → α)
    (h : Shape.Concatenates [S1x1, S1x1, S1x1, S1x1, S1x1, S1x1, S1x1, S1x1, S1x1, S1x1, S1x1, S1x1, S1x1, S1x1] S1x14 1)
    (j : Fin 14) :
    concatenate S1x14 1 [⟨S1x1, v0⟩, ⟨S1x1, v1⟩, ⟨S1x1, v2⟩, ⟨S1x1, v3⟩, ⟨S1x1, v4⟩, ⟨S1x1, v5⟩, ⟨S1x1, v6⟩, ⟨S1x1, v7⟩, ⟨S1x1, v8⟩, ⟨S1x1, v9⟩, ⟨S1x1, v10⟩, ⟨S1x1, v11⟩, ⟨S1x1, v12⟩, ⟨S1x1, v13⟩] h
      (ix2 (0 : Fin 1) j) = ![v0 i11, v1 i11, v2 i11, v3 i11, v4 i11, v5 i11, v6 i11, v7 i11, v8 i11, v9 i11, v10 i11, v11 i11, v12 i11, v13 i11] j := by
  have hcat := concatenate_ofFn_unit_apply (t := S1x14) (s₁ := S1x1) (1 : Fin 2) ![v0, v1, v2, v3, v4, v5, v6, v7, v8, v9, v10, v11, v12, v13] h rfl rfl
    (ix2 (0 : Fin 1) j) j rfl i11
    (by intro b hb
        match b, hb with
        | ⟨0, _⟩, _ => rfl
        | ⟨1, _⟩, hb => exact absurd rfl hb)
  refine hcat.trans ?_
  fin_cases j <;> rfl

/-- Lane `j` of the first fourteen of what a point stores: the block's contents there plus the point's `j`-th sum. -/
theorem tileVec_lane (re gt : Vec Ideal S4x10x192x320 .f32) (acc : Vec Ideal S1x128 .f32) (j : Fin 14) :
    tileVec re gt acc (lane j) = acc (lane j) + tileStat re gt j := by
  unfold tileVec k0_pay2
  -- the sum of two rows at a lane is the sum of their lanes, and a row cast to its own shape is itself
  rw [addf_apply, shapeCast_self]
  congr 1
  -- lane `j` lies in the first piece (the fourteen sums), not among the zeros behind it
  rw [concatenate_pair_apply_left (s₁ := S1x14) (1 : Fin 2) _ _ concatenates_S1x14_S1x114_S1x128_d1 (lane j) rfl
    (ix2 (0 : Fin 1) j) (by intro b; match b with | ⟨0, _⟩ => rfl | ⟨1, _⟩ => rfl)]
  -- and there it reads the `j`-th sum at its one index
  exact cat14_lane _ _ _ _ _ _ _ _ _ _ _ _ _ _ _ j

/-- The zero row is zero at every one of the first fourteen lanes. -/
theorem zeroRow_lane (j : Fin 14) : (zeroRow : FVec Ideal S1x128 .f32) (lane j) = 0 := by
  show broadcast S1x128 (Scalar.ofBits .f32 0x00000000#32 : Ideal .f32) (lane j) = 0
  rw [broadcast_apply]
  exact Ideal.ofBits_zero_f32

end Cert.KernelIdeal.Val

end
-- ==== Proof.KI.TileTools.lean ====
/-
  Three readings the sums of one grid point all pass through, at the extended reals: the body's way of summing a
  [4, 192, 320] vector into a one-by-one vector is the triple sum over batch entry, row and column; channel `k` of a
  block, as the body slices and reshapes it, read at a pixel is the block at that channel and pixel; and a truth bit
  widened to a word and converted to a float is the number 0 or 1.
-/
import proofs.«112396_j67877663146547_1_alg».proof.Proof.KI.TileDefs
import Idealize.ShloMosaic.Lib.Pipeline.Value
import Idealize.ShloMosaic.PureOps.Ideal.Laws
import Idealize.ShloMosaic.Lib.ValueLayout
import Idealize.ShloMosaic.Lib.KernelVsHost

set_option maxRecDepth 16384

noncomputable section

namespace Cert.KernelIdeal.Val

open Cert.KernelIdeal Cert.KernelIdeal.Gen Cert.KernelIdeal.Frame Cert.Spec
open Idealize.ShloMosaic Idealize.ShloMosaic.TcCoe Idealize.ShloMosaic.ValueIdx Idealize.SL.Sem

/-- The indices of a [1, m, a, b] vector are the triples of the last three coordinates: the leading one is always 0. -/
private def idxEquiv1abc {m a b : ℕ} : (⟨4, ![1, m, a, b]⟩ : Shape).Idx ≃ Fin m × Fin a × Fin b where
  toFun i := (i 1, i 2, i 3)
  invFun p := ix4 (0 : Fin 1) p.1 p.2.1 p.2.2
  left_inv i := by
    funext e
    match e with
    | ⟨0, _⟩ => exact Fin.ext (by have h : (i 0).val < 1 := (i 0).isLt; show (0 : ℕ) = (i 0).val; omega)
    | ⟨1, _⟩ => rfl
    | ⟨2, _⟩ => rfl
    | ⟨3, _⟩ => rfl
  right_inv _ := rfl

/-- So a sum over them is the triple sum over those coordinates. -/
private theorem sum_idx1abc {M : Type*} [AddCommMonoid M] {m a b : ℕ} (f : (⟨4, ![1, m, a, b]⟩ : Shape).Idx → M) :
    ∑ i, f i = ∑ k : Fin m, ∑ i : Fin a, ∑ j : Fin b, f (ix4 (0 : Fin 1) k i j) := by
  rw [← Equiv.sum_comp (idxEquiv1abc (m := m) (a := a) (b := b)).symm f, Fintype.sum_prod_type]
  refine Finset.sum_congr rfl fun k _ => ?_
  rw [Fintype.sum_prod_type]
  rfl

/-- The splat of the (0, 0, 0, 0) entry of a one-element vector viewed as [1, 1, 1, 1] reads that one element. -/
private theorem extract_cast_one (R : S1.Idx → EReal) (j : S1x1.Idx) :
    broadcast S1x1 (extractAt ![0, 0, 0, 0] (shapeCast S1x1x1x1 R shapeCasts_S1_S1x1x1x1) inpos_S1x1x1x1_p0_0_0_0) j
      = R (ix1 (0 : Fin 1)) := by
  refine (broadcast_apply _ j).trans ?_
  unfold extractAt
  refine shapeCast_apply R shapeCasts_S1_S1x1x1x1 _ (ix1 (0 : Fin 1)) ?_
  rw [Shape.rowMajor_val_one, Shape.rowMajor_val_four]
  rfl

/-- The body sums a [4, 192, 320] vector by viewing it as [1, 4, 192, 320], reducing the last three axes, and splatting
    the one result: that is the sum over all (b, h, w). -/
theorem tileSum_apply (v : FVec Ideal S4x192x320 .f32) (j : S1x1.Idx) :
    broadcast S1x1 (extractAt ![0, 0, 0, 0] (shapeCast S1x1x1x1 (multiReduction .add [1, 2, 3] S1
      (shapeCast S1x4x192x320 v shapeCasts_S4x192x320_S1x4x192x320) 0x00000000#32 reduces_S1x4x192x320_S1 (.inl rfl) rfl)
      shapeCasts_S1_S1x1x1x1) inpos_S1x1x1x1_p0_0_0_0) j
    = ∑ b : Fin 4, ∑ h : Fin 192, ∑ w : Fin 320, v (ix3 b h w) := by
  -- the splat reads the one entry of the reduced vector
  refine (extract_cast_one _ j).trans ?_
  -- the reduction into a one-element vector is the sum over every index of its operand
  refine (Ideal.multiReduction_add_total _ _ reduces_S1x4x192x320_S1 (fun b => match b with | ⟨0, _⟩ => rfl) _ _ _).trans ?_
  -- those indices are the triples (b, h, w), and the operand at (0, b, h, w) is the vector at (b, h, w)
  refine (sum_idx1abc _).trans ?_
  refine Finset.sum_congr rfl fun b _ => Finset.sum_congr rfl fun h _ => Finset.sum_congr rfl fun w _ => ?_
  exact shapeCast_abc_1abc_apply v shapeCasts_S4x192x320_S1x4x192x320 (0 : Fin 1) b h w

/-- Channel `k` of a block — the slice [0:4, k:k+1, :, :] reshaped to [4, 192, 320] — at pixel (b, h, w) is the block's
    entry (b, k, h, w). -/
theorem chan_apply (x : Vec Ideal S4x10x192x320 .f32) (k : ℕ) (hk : k < 10)
    (hs : S4x10x192x320.Slices ![0, k, 0, 0] S4x1x192x320) (b : Fin 4) (h : Fin 192) (w : Fin 320) :
    shapeCast S4x192x320 (extractStridedSlice S4x1x192x320 ![0, k, 0, 0] x hs) shapeCasts_S4x1x192x320_S4x192x320 (ix3 b h w)
    = x (ix4 b (⟨k, hk⟩ : Fin 10) h w) := by
  -- the reshape keeps the row-major position, so pixel (b, h, w) is entry (b, 0, h, w) of the one-channel slice
  refine (shapeCast_apply _ shapeCasts_S4x1x192x320_S4x192x320 (ix3 b h w) (ix4 b (0 : Fin 1) h w) ?_).trans ?_
  · rw [Shape.rowMajor_val_four, Shape.rowMajor_val_three]
    show ((b.val * 1 + 0) * 192 + h.val) * 320 + w.val = (b.val * 192 + h.val) * 320 + w.val
    omega
  -- and the slice starts at channel k
  · exact slice4_axis1_apply k x hs b (0 : Fin 1) h w (⟨k, hk⟩ : Fin 10) (by show k = k + 0; omega)

/-- A truth bit widened to 32 bits and converted as a signed integer is the number 0 or 1. -/
theorem sitofp_extui_bit (b : BitVec 1) : FloatOps.sitofp (F := Ideal) .f32 (b.setWidth 32) = ind b := by
  -- both sides are real numbers: the widened bit read as a signed integer, and the bit read as a natural number
  show ((((b.setWidth 32).toInt : ℝ)) : EReal) = (((b.toNat : ℝ)) : EReal)
  rw [toInt_setWidth_bit]
  norm_cast

end Cert.KernelIdeal.Val

end
-- ==== Proof.KI.StatA.lean ====
/-
  The vehicle count, the positive count and the two focal sums of one grid point's fourteen sums, read as the statistics of the point's two blocks: each is the body's
  sum, over the block's (b, h, w), of a per-pixel term of the two blocks' channel values there.
-/
import proofs.«112396_j67877663146547_1_alg».proof.Proof.KI.TileTools

set_option maxRecDepth 16384

noncomputable section

namespace Cert.KernelIdeal.Val

open Cert.KernelIdeal Cert.KernelIdeal.Gen Cert.KernelIdeal.Frame Cert.Spec
open Idealize.ShloMosaic Idealize.ShloMosaic.TcCoe Idealize.ShloMosaic.ValueIdx Idealize.SL.Sem

/-! ## Reading an entry of a vector of fourteen -/

private theorem vec14_0 {α : Type} (a0 a1 a2 a3 a4 a5 a6 a7 a8 a9 a10 a11 a12 a13 : α) :
    (![a0, a1, a2, a3, a4, a5, a6, a7, a8, a9, a10, a11, a12, a13] : Fin 14 → α) 0 = a0 := rfl
private theorem vec14_1 {α : Type} (a0 a1 a2 a3 a4 a5 a6 a7 a8 a9 a10 a11 a12 a13 : α) :
    (![a0, a1, a2, a3, a4, a5, a6, a7, a8, a9, a10, a11, a12, a13] : Fin 14 → α) 1 = a1 := rfl
private theorem vec14_2 {α : Type} (a0 a1 a2 a3 a4 a5 a6 a7 a8 a9 a10 a11 a12 a13 : α) :
    (![a0, a1, a2, a3, a4, a5, a6, a7, a8, a9, a10, a11, a12, a13] : Fin 14 → α) 2 = a2 := rfl
private theorem vec14_3 {α : Type} (a0 a1 a2 a3 a4 a5 a6 a7 a8 a9 a10 a11 a12 a13 : α) :
    (![a0, a1, a2, a3, a4, a5, a6, a7, a8, a9, a10, a11, a12, a13] : Fin 14 → α) 3 = a3 := rfl

/-! ## The named intermediates at a pixel -/

/-- Channel 0 of the ground-truth block at a pixel. -/
private theorem gt0_apply (x : Vec Ideal S4x10x192x320 .f32) (b : Fin 4) (h : Fin 192) (w : Fin 320) :
    gt0 x (ix3 b h w) = x (ix4 b 0 h w) :=
  chan_apply x 0 (by decide) _ b h w

/-- Channel 0 of the prediction block at a pixel. -/
private theorem re0_apply (x : Vec Ideal S4x10x192x320 .f32) (b : Fin 4) (h : Fin 192) (w : Fin 320) :
    re0 x (ix3 b h w) = x (ix4 b 0 h w) :=
  chan_apply x 0 (by decide) _ b h w

/-- The vehicle mask at a pixel is `mv` of the ground truth's channel 0 there. -/
private theorem mvf_apply (x : Vec Ideal S4x10x192x320 .f32) (b : Fin 4) (h : Fin 192) (w : Fin 320) :
    mvf x (ix3 b h w) = mv (x (ix4 b 0 h w)) := by
  unfold mvf k0_pay7
  rw [sitofp_apply, extui_apply, cmpf_apply, broadcast_apply, sitofp_extui_bit,
    show k0_pay4 x (ix3 b h w) = _ from gt0_apply x b h w]
  rfl

/-- The non-negativity mask at a pixel. -/
private theorem m0f_apply (x : Vec Ideal S4x10x192x320 .f32) (b : Fin 4) (h : Fin 192) (w : Fin 320) :
    k0_pay6 x (ix3 b h w) = m0 (x (ix4 b 0 h w)) := by
  unfold k0_pay6
  rw [sitofp_apply, extui_apply, cmpf_apply, broadcast_apply, sitofp_extui_bit,
    show k0_pay4 x (ix3 b h w) = _ from gt0_apply x b h w]
  rfl

/-- The positive mask at a pixel is `pos` of the ground truth's channel 0 there. -/
private theorem posv_apply (x : Vec Ideal S4x10x192x320 .f32) (b : Fin 4) (h : Fin 192) (w : Fin 320) :
    posv x (ix3 b h w) = pos (x (ix4 b 0 h w)) := by
  unfold posv k0_pay9
  rw [mulf_apply, m0f_apply, sitofp_apply, extui_apply, cmpf_apply, broadcast_apply, sitofp_extui_bit,
    show k0_pay4 x (ix3 b h w) = _ from gt0_apply x b h w]
  rfl

/-- The negative mask at a pixel is `neg` of the ground truth's channel 0 there. -/
private theorem negv_apply (x : Vec Ideal S4x10x192x320 .f32) (b : Fin 4) (h : Fin 192) (w : Fin 320) :
    negv x (ix3 b h w) = neg (x (ix4 b 0 h w)) := by
  unfold negv k0_pay10
  rw [mulf_apply, m0f_apply, sitofp_apply, extui_apply, cmpf_apply, broadcast_apply, sitofp_extui_bit,
    show k0_pay4 x (ix3 b h w) = _ from gt0_apply x b h w]
  rfl

/-- The clamp at a pixel is `safe` of the prediction's channel 0 there. -/
private theorem clamp_apply (x : Vec Ideal S4x10x192x320 .f32) (b : Fin 4) (h : Fin 192) (w : Fin 320) :
    k0_pay14 (clampLo x) hiv (ix3 b h w) = safe (x (ix4 b 0 h w)) := by
  unfold k0_pay14 clampLo k0_pay12 hiv k0_pay13
  rw [minimumf_apply, maximumf_apply, broadcast_apply, broadcast_apply,
    show k0_pay5 x (ix3 b h w) = _ from re0_apply x b h w]
  rfl

/-- The logarithm of a vector at an index. -/
private theorem vlog_apply (a : FVec Ideal S4x192x320 .f32) (i : S4x192x320.Idx) : log a i = Ideal.log (a i) := rfl

/-! ## The four sums -/

theorem tileStat_0 (re gt : Vec Ideal S4x10x192x320 .f32) : tileStat re gt 0 = stats (n := 4) re gt 0 := by
  unfold tileStat stats
  rw [vec14_0, vec14_0]
  unfold t0 k0_pay8
  refine (tileSum_apply _ _).trans ?_
  unfold pixSum
  refine Finset.sum_congr rfl fun b _ => Finset.sum_congr rfl fun h _ => Finset.sum_congr rfl fun w _ => ?_
  exact mvf_apply gt b h w

theorem tileStat_1 (re gt : Vec Ideal S4x10x192x320 .f32) : tileStat re gt 1 = stats (n := 4) re gt 1 := by
  unfold tileStat stats
  rw [vec14_1, vec14_1]
  unfold t1 k0_pay11
  refine (tileSum_apply _ _).trans ?_
  unfold pixSum
  refine Finset.sum_congr rfl fun b _ => Finset.sum_congr rfl fun h _ => Finset.sum_congr rfl fun w _ => ?_
  exact posv_apply gt b h w

theorem tileStat_2 (re gt : Vec Ideal S4x10x192x320 .f32) : tileStat re gt 2 = stats (n := 4) re gt 2 := by
  unfold tileStat stats
  rw [vec14_2, vec14_2]
  unfold t2 k0_pay15
  refine (tileSum_apply _ _).trans ?_
  unfold pixSum
  refine Finset.sum_congr rfl fun b _ => Finset.sum_congr rfl fun h _ => Finset.sum_congr rfl fun w _ => ?_
  rw [mulf_apply, mulf_apply, mulf_apply, subf_apply, vlog_apply, addf_apply, broadcast_apply, clamp_apply,
    gt0_apply, re0_apply, posv_apply]
  rfl

theorem tileStat_3 (re gt : Vec Ideal S4x10x192x320 .f32) : tileStat re gt 3 = stats (n := 4) re gt 3 := by
  unfold tileStat stats
  rw [vec14_3, vec14_3]
  unfold t3 k0_pay16
  refine (tileSum_apply _ _).trans ?_
  unfold pixSum
  refine Finset.sum_congr rfl fun b _ => Finset.sum_congr rfl fun h _ => Finset.sum_congr rfl fun w _ => ?_
  rw [mulf_apply, mulf_apply, mulf_apply, mulf_apply, mulf_apply, mulf_apply, vlog_apply, subf_apply, subf_apply,
    broadcast_apply, broadcast_apply, clamp_apply, gt0_apply, re0_apply, negv_apply]
  rfl

end Cert.KernelIdeal.Val

end
-- ==== Proof.KI.StatB.lean ====
/-
  The four smooth-L1 sums (position, the two length pairings, height) of one grid point's fourteen sums, read as the statistics of the point's two blocks: each is the body's
  sum, over the block's (b, h, w), of a per-pixel term of the two blocks' channel values there.
-/
import proofs.«112396_j67877663146547_1_alg».proof.Proof.KI.TileTools

set_option maxRecDepth 16384

noncomputable section

namespace Cert.KernelIdeal.Val

open Cert.KernelIdeal Cert.KernelIdeal.Gen Cert.KernelIdeal.Frame Cert.Spec
open Idealize.ShloMosaic Idealize.ShloMosaic.TcCoe Idealize.ShloMosaic.ValueIdx Idealize.SL.Sem

/-- The body's sum of a [4, 192, 320] vector into a one-by-one vector. -/
private def tsum (v : FVec Ideal S4x192x320 .f32) : FVec Ideal S1x1 .f32 :=
  broadcast S1x1 (extractAt ![0, 0, 0, 0] (shapeCast S1x1x1x1 (multiReduction .add [1, 2, 3] S1
    (shapeCast S1x4x192x320 v shapeCasts_S4x192x320_S1x4x192x320) 0x00000000#32 reduces_S1x4x192x320_S1 (.inl rfl) rfl)
    shapeCasts_S1_S1x1x1x1) inpos_S1x1x1x1_p0_0_0_0)

/-- The body's smooth L1 of a difference vector `d`, times the mask `m`. -/
private def slVec (d m : FVec Ideal S4x192x320 .f32) : FVec Ideal S4x192x320 .f32 :=
  mulf (select (cmpf .olt (absf d) (broadcast S4x192x320 (Scalar.ofBits .f32 0x3F800000#32)))
    (mulf (mulf (broadcast S4x192x320 (Scalar.ofBits .f32 0x3F000000#32)) d) d)
    (subf (absf d) (broadcast S4x192x320 (Scalar.ofBits .f32 0x3F000000#32)))) m

/-- Channel `a` of the first block minus channel `b` of the second, as the body slices them. -/
private def chDiff (x y : Vec Ideal S4x10x192x320 .f32) (a b : ℕ)
    (ha : S4x10x192x320.Slices ![0, a, 0, 0] S4x1x192x320) (hb : S4x10x192x320.Slices ![0, b, 0, 0] S4x1x192x320) :
    FVec Ideal S4x192x320 .f32 :=
  subf (shapeCast S4x192x320 (extractStridedSlice S4x1x192x320 ![0, a, 0, 0] x ha) shapeCasts_S4x1x192x320_S4x192x320)
    (shapeCast S4x192x320 (extractStridedSlice S4x1x192x320 ![0, b, 0, 0] y hb) shapeCasts_S4x1x192x320_S4x192x320)

/-- At an index the masked smooth L1 is `sl1` of the difference there times the mask there. -/
private theorem slVec_apply (d m : FVec Ideal S4x192x320 .f32) (i : S4x192x320.Idx) :
    slVec d m i = sl1 (d i) * m i := rfl

/-- The vehicle mask at a pixel. -/
private theorem mvf_pix (gt : Vec Ideal S4x10x192x320 .f32) (p : Fin 4) (h : Fin 192) (w : Fin 320) :
    mvf gt (ix3 p h w) = mv (gt (ix4 p 0 h w)) := by
  show FloatOps.sitofp (F := Ideal) .f32
    ((FloatOps.cmpf .oeq (k0_pay4 gt (ix3 p h w)) (Scalar.ofBits .f32 0x3F800000#32)).setWidth 32) = _
  rw [sitofp_extui_bit]
  have hc : k0_pay4 gt (ix3 p h w) = gt (ix4 p 0 h w) := chan_apply gt 0 (by decide) _ p h w
  rw [hc]; rfl

/-- The masked smooth L1 of channels `(a, b)` at a pixel is `slT` of the two channel values and the vehicle mark. -/
private theorem slPix (re gt : Vec Ideal S4x10x192x320 .f32) (a b : ℕ) (ha' : a < 10) (hb' : b < 10)
    (ha : S4x10x192x320.Slices ![0, a, 0, 0] S4x1x192x320) (hb : S4x10x192x320.Slices ![0, b, 0, 0] S4x1x192x320)
    (p : Fin 4) (h : Fin 192) (w : Fin 320) :
    slVec (chDiff re gt a b ha hb) (mvf gt) (ix3 p h w)
      = slT (re (ix4 p ⟨a, ha'⟩ h w)) (gt (ix4 p ⟨b, hb'⟩ h w)) (mv (gt (ix4 p 0 h w))) := by
  rw [slVec_apply, mvf_pix]
  show sl1 (_ - _) * _ = _
  rw [chan_apply re a ha' ha p h w, chan_apply gt b hb' hb p h w]; rfl

/-- Summed over the block, the masked smooth L1 of channels `(a, b)` is `slSum a b`. -/
private theorem slTile (re gt : Vec Ideal S4x10x192x320 .f32) (a b : ℕ) (ha' : a < 10) (hb' : b < 10)
    (ha : S4x10x192x320.Slices ![0, a, 0, 0] S4x1x192x320) (hb : S4x10x192x320.Slices ![0, b, 0, 0] S4x1x192x320)
    (j : S1x1.Idx) :
    tsum (slVec (chDiff re gt a b ha hb) (mvf gt)) j = slSum (n := 4) ⟨a, ha'⟩ ⟨b, hb'⟩ re gt := by
  unfold tsum
  rw [tileSum_apply]
  unfold slSum pixSum
  refine Finset.sum_congr rfl fun p _ => Finset.sum_congr rfl fun h _ => Finset.sum_congr rfl fun w _ => ?_
  exact slPix re gt a b ha' hb' ha hb p h w

/-! ## Entries of a vector of fourteen -/

private theorem v14_4 (a0 a1 a2 a3 a4 a5 a6 a7 a8 a9 a10 a11 a12 a13 : EReal) :
    (![a0, a1, a2, a3, a4, a5, a6, a7, a8, a9, a10, a11, a12, a13] : Fin 14 → EReal) 4 = a4 := rfl

private theorem v14_5 (a0 a1 a2 a3 a4 a5 a6 a7 a8 a9 a10 a11 a12 a13 : EReal) :
    (![a0, a1, a2, a3, a4, a5, a6, a7, a8, a9, a10, a11, a12, a13] : Fin 14 → EReal) 5 = a5 := rfl

private theorem v14_6 (a0 a1 a2 a3 a4 a5 a6 a7 a8 a9 a10 a11 a12 a13 : EReal) :
    (![a0, a1, a2, a3, a4, a5, a6, a7, a8, a9, a10, a11, a12, a13] : Fin 14 → EReal) 6 = a6 := rfl

private theorem v14_13 (a0 a1 a2 a3 a4 a5 a6 a7 a8 a9 a10 a11 a12 a13 : EReal) :
    (![a0, a1, a2, a3, a4, a5, a6, a7, a8, a9, a10, a11, a12, a13] : Fin 14 → EReal) 13 = a13 := rfl

/-! ## The sum of two masked smooth-L1 sums on top of a zero -/

/-- A one-by-one vector that is a zero splat plus the block sums of the masked smooth L1 of channel pairs `(a, b)` and
    `(c, d)` holds `slSum a b + slSum c d`. -/
private theorem two_sums (re gt : Vec Ideal S4x10x192x320 .f32) (a b c d : ℕ)
    (ha' : a < 10) (hb' : b < 10) (hc' : c < 10) (hd' : d < 10)
    (ha : S4x10x192x320.Slices ![0, a, 0, 0] S4x1x192x320) (hb : S4x10x192x320.Slices ![0, b, 0, 0] S4x1x192x320)
    (hc : S4x10x192x320.Slices ![0, c, 0, 0] S4x1x192x320) (hd : S4x10x192x320.Slices ![0, d, 0, 0] S4x1x192x320)
    (T : FVec Ideal S1x1 .f32)
    (hT : T = addf (addf (broadcast S1x1 (Scalar.ofBits .f32 0x00000000#32))
      (tsum (slVec (chDiff re gt a b ha hb) (mvf gt)))) (tsum (slVec (chDiff re gt c d hc hd) (mvf gt))))
    (j : S1x1.Idx) :
    T j = slSum (n := 4) ⟨a, ha'⟩ ⟨b, hb'⟩ re gt + slSum (n := 4) ⟨c, hc'⟩ ⟨d, hd'⟩ re gt := by
  rw [hT, addf_apply, addf_apply, broadcast_apply, slTile re gt a b ha' hb', slTile re gt c d hc' hd']
  show Ideal.ofBits .f32 0x00000000#32 + _ + _ = _
  rw [Ideal.ofBits_zero_f32, zero_add]

private theorem tileStat_at4 (re gt : Vec Ideal S4x10x192x320 .f32) : tileStat re gt 4 = t4 re gt i11 := by
  unfold tileStat; exact v14_4 _ _ _ _ _ _ _ _ _ _ _ _ _ _

private theorem stats_at4 (re gt : Vec Ideal S4x10x192x320 .f32) :
    stats (n := 4) re gt 4 = slSum 1 1 re gt + slSum 2 2 re gt := by
  unfold stats; exact v14_4 _ _ _ _ _ _ _ _ _ _ _ _ _ _

/-- The position sum: the body adds the sums of channel pairs (1, 1) and (2, 2) to a zero. -/
theorem tileStat_4 (re gt : Vec Ideal S4x10x192x320 .f32) : tileStat re gt 4 = stats (n := 4) re gt 4 := by
  rw [tileStat_at4, stats_at4]
  exact two_sums re gt 1 1 2 2 (by decide) (by decide) (by decide) (by decide)
    slices_S4x10x192x320_o0_1_0_0_S4x1x192x320 slices_S4x10x192x320_o0_1_0_0_S4x1x192x320
    slices_S4x10x192x320_o0_2_0_0_S4x1x192x320 slices_S4x10x192x320_o0_2_0_0_S4x1x192x320 (t4 re gt) rfl i11

private theorem tileStat_at5 (re gt : Vec Ideal S4x10x192x320 .f32) : tileStat re gt 5 = t5 re gt i11 := by
  unfold tileStat; exact v14_5 _ _ _ _ _ _ _ _ _ _ _ _ _ _

private theorem stats_at5 (re gt : Vec Ideal S4x10x192x320 .f32) :
    stats (n := 4) re gt 5 = slSum 3 3 re gt + slSum 6 6 re gt := by
  unfold stats; exact v14_5 _ _ _ _ _ _ _ _ _ _ _ _ _ _

/-- The first length pairing: channel pairs (3, 3) and (6, 6). -/
theorem tileStat_5 (re gt : Vec Ideal S4x10x192x320 .f32) : tileStat re gt 5 = stats (n := 4) re gt 5 := by
  rw [tileStat_at5, stats_at5]
  exact two_sums re gt 3 3 6 6 (by decide) (by decide) (by decide) (by decide)
    slices_S4x10x192x320_o0_3_0_0_S4x1x192x320 slices_S4x10x192x320_o0_3_0_0_S4x1x192x320
    slices_S4x10x192x320_o0_6_0_0_S4x1x192x320 slices_S4x10x192x320_o0_6_0_0_S4x1x192x320 (t5 re gt) rfl i11

private theorem tileStat_at6 (re gt : Vec Ideal S4x10x192x320 .f32) : tileStat re gt 6 = t6 re gt i11 := by
  unfold tileStat; exact v14_6 _ _ _ _ _ _ _ _ _ _ _ _ _ _

private theorem stats_at6 (re gt : Vec Ideal S4x10x192x320 .f32) :
    stats (n := 4) re gt 6 = slSum 3 6 re gt + slSum 6 3 re gt := by
  unfold stats; exact v14_6 _ _ _ _ _ _ _ _ _ _ _ _ _ _

/-- The crossed length pairing: channel pairs (3, 6) and (6, 3). -/
theorem tileStat_6 (re gt : Vec Ideal S4x10x192x320 .f32) : tileStat re gt 6 = stats (n := 4) re gt 6 := by
  rw [tileStat_at6, stats_at6]
  exact two_sums re gt 3 6 6 3 (by decide) (by decide) (by decide) (by decide)
    slices_S4x10x192x320_o0_3_0_0_S4x1x192x320 slices_S4x10x192x320_o0_6_0_0_S4x1x192x320
    slices_S4x10x192x320_o0_6_0_0_S4x1x192x320 slices_S4x10x192x320_o0_3_0_0_S4x1x192x320 (t6 re gt) rfl i11

private theorem tileStat_at13 (re gt : Vec Ideal S4x10x192x320 .f32) : tileStat re gt 13 = t13 re gt i11 := by
  unfold tileStat; exact v14_13 _ _ _ _ _ _ _ _ _ _ _ _ _ _

private theorem stats_at13 (re gt : Vec Ideal S4x10x192x320 .f32) : stats (n := 4) re gt 13 = slSum 9 9 re gt := by
  unfold stats; exact v14_13 _ _ _ _ _ _ _ _ _ _ _ _ _ _

/-- The fourteenth sum is the block sum of the masked smooth L1 of channel pair (9, 9). -/
private theorem t13_eq (re gt : Vec Ideal S4x10x192x320 .f32) :
    t13 re gt = tsum (slVec (chDiff re gt 9 9 slices_S4x10x192x320_o0_9_0_0_S4x1x192x320 slices_S4x10x192x320_o0_9_0_0_S4x1x192x320) (mvf gt)) := rfl

/-- The height sum: channel pair (9, 9), summed alone. -/
theorem tileStat_13 (re gt : Vec Ideal S4x10x192x320 .f32) : tileStat re gt 13 = stats (n := 4) re gt 13 := by
  rw [tileStat_at13, stats_at13, t13_eq]
  exact slTile re gt 9 9 (by decide) (by decide) _ _ i11

end Cert.KernelIdeal.Val

end
-- ==== Proof.KI.StatC.lean ====
/-
  The four squared-difference sums and the two unit-circle defects of one grid point's fourteen sums, read as the statistics of the point's two blocks: each is the body's
  sum, over the block's (b, h, w), of a per-pixel term of the two blocks' channel values there.
-/
import proofs.«112396_j67877663146547_1_alg».proof.Proof.KI.TileTools

set_option maxRecDepth 16384

noncomputable section

namespace Cert.KernelIdeal.Val

open Cert.KernelIdeal Cert.KernelIdeal.Gen Cert.KernelIdeal.Frame Cert.Spec
open Idealize.ShloMosaic Idealize.ShloMosaic.TcCoe Idealize.ShloMosaic.ValueIdx Idealize.SL.Sem

/-- A literal of the body, at the extended reals, is the extended real its f32 pattern denotes. -/
private theorem lit_eq (w : BitVec 32) : Scalar.ofBits (F := Ideal) .f32 w = Ideal.ofBits .f32 w := rfl

/-- The vehicle mask at a pixel: 1 where the ground truth's channel 0 equals 1, else 0. -/
private theorem mask_at (gt : Vec Ideal S4x10x192x320 .f32) (b : Fin 4) (h : Fin 192) (w : Fin 320) :
    k0_pay7 gt (ix3 b h w) = mv (gt (ix4 b (0 : Fin 10) h w)) := by
  unfold k0_pay7 k0_pay4
  dsimp only
  rw [sitofp_apply, extui_apply, cmpf_apply, broadcast_apply, chan_apply gt 0 (by decide), sitofp_extui_bit, lit_eq,
    Ideal.cmpf_def]
  rfl

/-- The zero the body starts a two-piece sum from adds nothing. -/
private theorem zero_start (a : EReal) : Scalar.ofBits (F := Ideal) .f32 0x00000000#32 + a = a := by
  rw [lit_eq, Ideal.ofBits_zero_f32, zero_add]

/-- Lane 7: the squared differences of channels 4 and 4, and of 7 and 7, on vehicle pixels. -/
theorem tileStat_7 (re gt : Vec Ideal S4x10x192x320 .f32) : tileStat re gt 7 = stats (n := 4) re gt 7 := by
  simp only [tileStat, stats, Matrix.cons_val]
  show k0_pay31 re gt (k0_pay7 gt) i11 = _
  unfold k0_pay31
  dsimp only
  rw [addf_apply, addf_apply, tileSum_apply, tileSum_apply, broadcast_apply, zero_start]
  unfold sqSum pixSum
  congr 1 <;>
    refine Finset.sum_congr rfl fun b _ => Finset.sum_congr rfl fun h _ => Finset.sum_congr rfl fun w _ => ?_
  · simp only [mulf_apply, subf_apply, chan_apply re 4 (by decide), chan_apply gt 4 (by decide), mask_at]
    rfl
  · simp only [mulf_apply, subf_apply, chan_apply re 7 (by decide), chan_apply gt 7 (by decide), mask_at]
    rfl

/-- Lane 8: the squared differences of channels 5 and 5, and of 8 and 8, on vehicle pixels. -/
theorem tileStat_8 (re gt : Vec Ideal S4x10x192x320 .f32) : tileStat re gt 8 = stats (n := 4) re gt 8 := by
  simp only [tileStat, stats, Matrix.cons_val]
  show k0_pay35 (k0_pay7 gt) (k0_pay32 re gt (k0_pay7 gt)) (k0_pay33 re) (k0_pay34 gt) i11 = _
  unfold k0_pay35 k0_pay32 k0_pay33 k0_pay34
  dsimp only
  rw [addf_apply, addf_apply, tileSum_apply, tileSum_apply, broadcast_apply, zero_start]
  unfold sqSum pixSum
  congr 1 <;>
    refine Finset.sum_congr rfl fun b _ => Finset.sum_congr rfl fun h _ => Finset.sum_congr rfl fun w _ => ?_
  · simp only [mulf_apply, subf_apply, chan_apply re 5 (by decide), chan_apply gt 5 (by decide), mask_at]
    rfl
  · simp only [mulf_apply, subf_apply, chan_apply re 8 (by decide), chan_apply gt 8 (by decide), mask_at]
    rfl

/-- Lane 9: the squared differences of channels 4 and 7, and of 7 and 4, on vehicle pixels. -/
theorem tileStat_9 (re gt : Vec Ideal S4x10x192x320 .f32) : tileStat re gt 9 = stats (n := 4) re gt 9 := by
  simp only [tileStat, stats, Matrix.cons_val]
  show k0_pay36 re gt (k0_pay7 gt) i11 = _
  unfold k0_pay36
  dsimp only
  rw [addf_apply, addf_apply, tileSum_apply, tileSum_apply, broadcast_apply, zero_start]
  unfold sqSum pixSum
  congr 1 <;>
    refine Finset.sum_congr rfl fun b _ => Finset.sum_congr rfl fun h _ => Finset.sum_congr rfl fun w _ => ?_
  · simp only [mulf_apply, subf_apply, chan_apply re 4 (by decide), chan_apply gt 7 (by decide), mask_at]
    rfl
  · simp only [mulf_apply, subf_apply, chan_apply re 7 (by decide), chan_apply gt 4 (by decide), mask_at]
    rfl

/-- Lane 10: the squared differences of channels 5 and 8, and of 8 and 5, on vehicle pixels. -/
theorem tileStat_10 (re gt : Vec Ideal S4x10x192x320 .f32) : tileStat re gt 10 = stats (n := 4) re gt 10 := by
  simp only [tileStat, stats, Matrix.cons_val]
  show k0_pay40 (k0_pay7 gt) (k0_pay37 re gt (k0_pay7 gt)) (k0_pay38 re) (k0_pay39 gt) i11 = _
  unfold k0_pay40 k0_pay37 k0_pay38 k0_pay39
  dsimp only
  rw [addf_apply, addf_apply, tileSum_apply, tileSum_apply, broadcast_apply, zero_start]
  unfold sqSum pixSum
  congr 1 <;>
    refine Finset.sum_congr rfl fun b _ => Finset.sum_congr rfl fun h _ => Finset.sum_congr rfl fun w _ => ?_
  · simp only [mulf_apply, subf_apply, chan_apply re 5 (by decide), chan_apply gt 8 (by decide), mask_at]
    rfl
  · simp only [mulf_apply, subf_apply, chan_apply re 8 (by decide), chan_apply gt 5 (by decide), mask_at]
    rfl

/-- Lane 11: the squared defect of channels 5 and 4 from the unit circle, on vehicle pixels. -/
theorem tileStat_11 (re gt : Vec Ideal S4x10x192x320 .f32) : tileStat re gt 11 = stats (n := 4) re gt 11 := by
  simp only [tileStat, stats, Matrix.cons_val]
  show k0_pay41 re (k0_pay7 gt) i11 = _
  unfold k0_pay41
  dsimp only
  rw [tileSum_apply]
  unfold coSum pixSum
  refine Finset.sum_congr rfl fun b _ => Finset.sum_congr rfl fun h _ => Finset.sum_congr rfl fun w _ => ?_
  simp only [mulf_apply, subf_apply, broadcast_apply, chan_apply re 5 (by decide), chan_apply re 4 (by decide), mask_at,
    lit_eq]
  rfl

/-- Lane 12: the squared defect of channels 8 and 7 from the unit circle, on vehicle pixels. -/
theorem tileStat_12 (re gt : Vec Ideal S4x10x192x320 .f32) : tileStat re gt 12 = stats (n := 4) re gt 12 := by
  simp only [tileStat, stats, Matrix.cons_val]
  show k0_pay42 re (k0_pay7 gt) i11 = _
  unfold k0_pay42
  dsimp only
  rw [tileSum_apply]
  unfold coSum pixSum
  refine Finset.sum_congr rfl fun b _ => Finset.sum_congr rfl fun h _ => Finset.sum_congr rfl fun w _ => ?_
  simp only [mulf_apply, subf_apply, broadcast_apply, chan_apply re 8 (by decide), chan_apply re 7 (by decide), mask_at,
    lit_eq]
  rfl

end Cert.KernelIdeal.Val

end
-- ==== Proof.KI.StatAll.lean ====
/-
  One grid point's fourteen sums are the fourteen statistics of the point's two blocks.
-/
import proofs.«112396_j67877663146547_1_alg».proof.Proof.KI.StatA
import proofs.«112396_j67877663146547_1_alg».proof.Proof.KI.StatB
import proofs.«112396_j67877663146547_1_alg».proof.Proof.KI.StatC

set_option maxRecDepth 16384

noncomputable section

namespace Cert.KernelIdeal.Val

open Cert.KernelIdeal Cert.KernelIdeal.Gen Cert.KernelIdeal.Frame Cert.Spec
open Idealize.ShloMosaic Idealize.ShloMosaic.TcCoe Idealize.ShloMosaic.ValueIdx Idealize.SL.Sem

theorem tileStat_eq (re gt : Vec Ideal S4x10x192x320 .f32) : tileStat re gt = stats (n := 4) re gt := by
  funext j
  fin_cases j
  · exact tileStat_0 re gt
  · exact tileStat_1 re gt
  · exact tileStat_2 re gt
  · exact tileStat_3 re gt
  · exact tileStat_4 re gt
  · exact tileStat_5 re gt
  · exact tileStat_6 re gt
  · exact tileStat_7 re gt
  · exact tileStat_8 re gt
  · exact tileStat_9 re gt
  · exact tileStat_10 re gt
  · exact tileStat_11 re gt
  · exact tileStat_12 re gt
  · exact tileStat_13 re gt

end Cert.KernelIdeal.Val

end
-- ==== Proof.SpecLaws.lean ====
/-
  The laws about the loss's pieces that the comparison of the two programs needs: a positive real factor moves across the
  extended quotient; the literal 0.1 denotes a positive real; and a sum over all pixels of the whole arrays is the sum
  of the eight blocks' sums, so each statistic of the whole arrays is the sum of the blocks' statistics.
-/
import proofs.«112396_j67877663146547_1_alg».proof.Proof.Spec
import Mathlib.Data.EReal.Operations
import Mathlib.Data.EReal.Inv
import Mathlib.Algebra.BigOperators.Fin
import Mathlib.Logic.Equiv.Fin.Basic

noncomputable section

namespace Cert.Spec

open Idealize.ShloMosaic Idealize.ShloMosaic.ValueIdx

/-! ## The one law -/

/-- A positive real factor moves across the extended quotient: `c · (x / y) = (c · x) / y` for every extended real
    `x`, `y` — off zero by associativity of the product, and at `y = 0` because `c · x` has `x`'s sign. -/
theorem mul_div_pos {c : ℝ} (hc : 0 < c) (x y : EReal) :
    (c : EReal) * Ideal.div x y = Ideal.div ((c : EReal) * x) y := by
  have hc' : (0 : EReal) < (c : EReal) := EReal.coe_pos.mpr hc
  unfold Ideal.div
  by_cases hy : y = 0
  · -- by zero: both quotients are the infinity of the numerator's sign, and `c · x` has the sign of `x`
    rw [if_pos hy, if_pos hy]
    rcases lt_trichotomy 0 x with hx | hx | hx
    · rw [if_pos hx, if_pos (EReal.mul_pos hc' hx)]
      exact EReal.mul_top_of_pos hc'
    · subst hx
      rw [mul_zero, if_neg (lt_irrefl _)]
      exact EReal.mul_bot_of_pos hc'
    · have h : (c : EReal) * x < 0 := EReal.mul_neg_iff.mpr (Or.inl ⟨hc', hx⟩)
      rw [if_neg (not_lt.mpr hx.le), if_neg (not_lt.mpr h.le)]
      exact EReal.mul_bot_of_pos hc'
  · -- off zero: `c · (x · y⁻¹) = (c · x) · y⁻¹`
    rw [if_neg hy, if_neg hy, mul_assoc]

/-- The literal `0.1` denotes a positive real: its pattern has sign 0, exponent field 123 and fraction field
    5033165, so it denotes `(2²³ + 5033165) · 2⁻²⁷ = 13421773 · 2⁻²⁷`. -/
theorem tenth_pos : ∃ c : ℝ, 0 < c ∧ tenth = (c : EReal) := by
  refine ⟨13421773 * (2 : ℝ) ^ (-27 : Int), by positivity, ?_⟩
  simp [tenth, Ideal.ofBits, Ideal.ieee, -EReal.coe_mul]

theorem zero_eq : zero = 0 := Ideal.ofBits_zero_f32

/-- A sum over 32 entries, regrouped as eight runs of four: entry `b` is entry `i` of run `t` for `b = 4 t + i`. -/
private theorem sum_fin32 (G : Fin 32 → EReal) :
    ∑ b : Fin 32, G b = ∑ t : Fin 8, ∑ i : Fin 4, G ⟨4 * t.val + i.val, by omega⟩ :=
  calc ∑ b : Fin 32, G b
      = ∑ x : Fin 8 × Fin 4, G ((finProdFinEquiv : Fin 8 × Fin 4 ≃ Fin 32) x) :=
        (Equiv.sum_comp (finProdFinEquiv : Fin 8 × Fin 4 ≃ Fin 32) G).symm
    _ = ∑ t : Fin 8, ∑ i : Fin 4, G ((finProdFinEquiv : Fin 8 × Fin 4 ≃ Fin 32) (t, i)) :=
        Fintype.sum_prod_type _
    _ = _ := Fintype.sum_congr _ _ fun t => Fintype.sum_congr _ _ fun i =>
        congrArg G (Fin.ext (by simp [finProdFinEquiv]; omega))

/-- A sum over all pixels of the whole arrays is the sum, over the eight blocks, of the blocks' sums. -/
theorem pixSum_blocks (f : (Fin 10 → EReal) → (Fin 10 → EReal) → EReal) (re gt : (SArr 32).Idx → EReal) :
    pixSum f re gt = ∑ t : Fin 8, pixSum f (blk re t) (blk gt t) := by
  -- regroup the batch axis; then entry `i` of block `t` is entry `4 t + i` of the whole array, pixel by pixel
  refine (sum_fin32 (fun b => ∑ h : Fin 192, ∑ w : Fin 320,
    f (fun ch => re (ix4 b ch h w)) (fun ch => gt (ix4 b ch h w)))).trans ?_
  refine Fintype.sum_congr _ _ fun t => ?_
  show _ = ∑ i : Fin 4, ∑ h : Fin 192, ∑ w : Fin 320,
    f (fun ch => blk re t (ix4 i ch h w)) (fun ch => blk gt t (ix4 i ch h w))
  refine Fintype.sum_congr _ _ fun i => Fintype.sum_congr _ _ fun h => Fintype.sum_congr _ _ fun w => ?_
  rfl

/-- The sum of two quantities that are sums over the blocks is the sum over the blocks of the two terms' sums. -/
private theorem add_blocks {a b : EReal} {A B : Fin 8 → EReal} (ha : a = ∑ t, A t) (hb : b = ∑ t, B t) :
    a + b = ∑ t, (A t + B t) := by rw [ha, hb, Finset.sum_add_distrib]

/-- If the head and every tail entry of a vector are sums over the blocks, so is every entry. -/
private theorem cons_blocks {m : ℕ} {a : EReal} {u : Fin m → EReal} {A : Fin 8 → EReal} {U : Fin 8 → Fin m → EReal}
    (h0 : a = ∑ t, A t) (hs : ∀ j, u j = ∑ t, U t j) (j : Fin (m + 1)) :
    Matrix.vecCons a u j = ∑ t, Matrix.vecCons (A t) (U t) j := by
  refine Fin.cases ?_ (fun j => ?_) j
  · simpa only [Matrix.cons_val_zero] using h0
  · simpa only [Matrix.cons_val_succ] using hs j

/-- So each of the fourteen statistics of the whole arrays is the sum of the blocks'. -/
theorem stats_blocks (re gt : (SArr 32).Idx → EReal) (j : Fin 14) :
    stats re gt j = ∑ t : Fin 8, stats (blk re t) (blk gt t) j := by
  have p := fun f => pixSum_blocks f re gt
  -- entry by entry: each is one sum over all pixels, or the sum of two
  unfold stats
  refine cons_blocks (p _) (cons_blocks (p _) (cons_blocks (p _) (cons_blocks (p _)
    (cons_blocks (add_blocks (p _) (p _)) (cons_blocks (add_blocks (p _) (p _))
    (cons_blocks (add_blocks (p _) (p _)) (cons_blocks (add_blocks (p _) (p _))
    (cons_blocks (add_blocks (p _) (p _)) (cons_blocks (add_blocks (p _) (p _))
    (cons_blocks (add_blocks (p _) (p _)) (cons_blocks (p _) (cons_blocks (p _) (cons_blocks (p _)
    (fun j => j.elim0)))))))))))))) j

end Cert.Spec

end
-- ==== Proof.KI.Accum.lean ====
/-
  The accumulation over the grid: the block starts from the zero row, every point adds its fourteen sums lane by
  lane, so after the last point lane `j` holds the sum over the eight points of the points' `j`-th statistics — which
  is the `j`-th statistic of the whole arrays, the points' blocks being the arrays' eight blocks.
-/
import proofs.«112396_j67877663146547_1_alg».proof.Proof.KI.Blocks
import proofs.«112396_j67877663146547_1_alg».proof.Proof.KI.Lanes
import proofs.«112396_j67877663146547_1_alg».proof.Proof.KI.StatAll
import proofs.«112396_j67877663146547_1_alg».proof.Proof.SpecLaws

set_option maxRecDepth 16384

noncomputable section

namespace Cert.KernelIdeal.Val

open Cert.KernelIdeal Cert.KernelIdeal.Gen Cert.KernelIdeal.Frame Cert.Spec
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-! ## Partial sums of a family over the eight points -/

/-- The sum of a family's members at the points below `n`. -/
private def part (f : Fin 8 → EReal) (n : ℕ) : EReal :=
  ∑ t ∈ Finset.range n, if ht : t < 8 then f ⟨t, ht⟩ else 0

private theorem part_one (f : Fin 8 → EReal) : part f 1 = f ⟨0, by decide⟩ := by
  unfold part
  rw [Finset.sum_range_one, dif_pos (by decide : 0 < 8)]

private theorem part_succ (f : Fin 8 → EReal) (n : ℕ) (hn : n < 8) : part f (n + 1) = part f n + f ⟨n, hn⟩ := by
  unfold part
  rw [Finset.sum_range_succ, dif_pos hn]

/-- Over all eight points the partial sum is the sum of the family. -/
private theorem part_eight (f : Fin 8 → EReal) : part f 8 = ∑ t : Fin 8, f t := by
  unfold part
  rw [← Fin.sum_univ_eq_sum_range (fun t => if ht : t < 8 then f ⟨t, ht⟩ else 0) 8]
  exact Finset.sum_congr rfl fun t _ => by rw [dif_pos t.isLt]

/-! ## One point, then all of them -/

/-- What a point adds at lane `j`: the `j`-th statistic of block `t` of the two argument arrays. -/
private theorem point_lane (c : Dev nD) (t : Fin cfg0.N) (acc : Vec Ideal S1x128 .f32) (j : Fin 14) :
    tileVec (iblk m c 0 t) (iblk m c 1 t) acc (lane j)
      = acc (lane j) + stats (n := 4) (blk (m ((c : Thread nD τ).loc main_arg0)) (pt t))
          (blk (m ((c : Thread nD τ).loc main_arg1)) (pt t)) j := by
  rw [tileVec_lane, tileStat_eq]
  show acc (lane j) + stats (n := 4) (iblk m c 0 t : Vec Ideal S4x10x192x320 .f32)
      (iblk m c 1 t : Vec Ideal S4x10x192x320 .f32) j = _
  rw [iblk0_eq, iblk1_eq]

/-- After point `n`, lane `j` of the block holds the sum of the `j`-th statistics of the blocks up to `n`. -/
private theorem outs_lane (c : Dev nD) (j : Fin 14) : ∀ (n : ℕ) (h : n < cfg0.N),
    outsAt0 m c n h (lane j)
      = part (fun t => stats (n := 4) (blk (m ((c : Thread nD τ).loc main_arg0)) t)
          (blk (m ((c : Thread nD τ).loc main_arg1)) t) j) (n + 1)
  | 0, h => by
    rw [outsAt0_zero, point_lane, zeroRow_lane, zero_add, part_one]
  | n + 1, h => by
    have h8 : n + 1 < 8 := lt_of_lt_of_eq h N_0
    rw [outsAt0_succ, point_lane, outs_lane c j n (Nat.lt_of_succ_lt h), part_succ _ (n + 1) h8]

/-- After the region, lane `j` of the output array holds the `j`-th statistic of the two argument arrays. -/
theorem final_lane (c : Dev nD) (j : Fin 14) :
    (dats m 0 c).arrAt 2 cfg0.N (lane j)
      = stats (n := 32) (m ((c : Thread nD τ).loc main_arg0)) (m ((c : Thread nD τ).loc main_arg1)) j := by
  rw [arr_final, outs_lane, part_eight, ← stats_blocks]

end Cert.KernelIdeal.Val

end
-- ==== Proof.KI.Tail.lean ====
/-
  The host lines after the region: they cut the first fourteen lanes out of the output array and combine them into the
  loss. Their result is the loss of those fourteen lanes.
-/
import proofs.«112396_j67877663146547_1_alg».proof.Proof.KI.Frame
import proofs.«112396_j67877663146547_1_alg».proof.Proof.KI.TileDefs
import Idealize.ShloMosaic.Lib.Pipeline.Value
import Idealize.ShloMosaic.Lib.StableHlo.Run
import Idealize.ShloMosaic.Lib.ValueLayout

set_option maxRecDepth 16384

noncomputable section

namespace Cert.KernelIdeal.Val

open Cert.KernelIdeal Cert.KernelIdeal.Gen Cert.KernelIdeal.Frame Cert.Spec
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-! ## One lane cut out as a scalar

The host lines flatten the one-row array to 128 entries, take the one-entry slice at `k` and read that entry as a
scalar. The scalar is the row's entry at column `k`: a one-entry array cast to rank zero keeps its entry, the slice
at offset `k` reads position `k`, and the flattened row at `k` is the row at `(0, k)`. -/

private theorem cutAt {α : Type} (A : S1x128.Idx → α) (k : ℕ) (hk : k < 128) (h1 : S1x128.ShapeCasts S128)
    (h2 : S128.Slices ![k] S1) (h3 : S1.ShapeCasts S_) (i : S_.Idx) :
    shapeCast S_ (extractStridedSlice S1 ![k] (fun i => shapeCast S128 A h1 i) h2) h3 i
      = A (ix2 (0 : Fin 1) (⟨k, hk⟩ : Fin 128)) := by
  refine (shapeCast_apply _ h3 i (ix1 (0 : Fin 1)) ?_).trans ?_
  · rw [Shape.rowMajor_val_one]
    exact (Shape.rowMajorPi_zero _ _).symm
  refine (extractStridedSlice_apply _ _ h2 (ix1 (0 : Fin 1)) (ix1 (⟨k, hk⟩ : Fin 128)) (fun a => ?_)).trans ?_
  · match a with
    | ⟨0, _⟩ => rfl
  exact shapeCast_1a_a_apply A h1 ⟨k, hk⟩

/-- Each of the first fourteen entries lies inside the flattened row. -/
private theorem cut_slices (j : Fin 14) : S128.Slices ![j.val] S1 :=
  ⟨rfl, fun a => match a with
    | ⟨0, _⟩ => by have := j.isLt; show j.val + 1 ≤ 128; omega⟩

/-! ## The eighty-six lines

Run from any contents `W` of the buffers, the lines leave in each result buffer its operation's value at the operands'
contents. Composed, the last buffer holds one expression over the fourteen cuts of the output array: the negations, the
comparison with zero, the quotients, the selection, the products with the literals 1, 2, 0.1 and 0.5, the minimum and
the sums, in the order the loss writes them. With each cut read as its lane, that expression is the loss's own formula
term for term. -/

set_option maxHeartbeats 4000000 in
private theorem tail_val (W : Valuation τ sig (Elt Ideal)) :
    StableHlo.after (tailOps : List (List (HloOp τ sig (Elt Ideal)))).flatten W (Proc.devRef .tc main_v70)
      = fun _ => loss (fun j => W (Proc.devRef .tc main_v0) (lane j)) := by
  simp only [tailOps, hostOps1, hostOps1_1, hostOps1_2, List.flatten_cons, List.flatten_nil, List.append_nil,
    List.cons_append, List.nil_append]
  after_results_simp
  funext i
  obtain rfl := eq_ix0 i
  refine Eq.trans ?_ (congrArg loss (funext fun j => cutAt (α := EReal) (W (Proc.devRef .tc main_v0)) j.val
    (by have := j.isLt; omega) (by decide) (cut_slices j) (by decide) ix0))
  rfl

/-! ## After the region

The lines run from the contents the region leaves: the pipeline's arrays at what the proof data give, every other
buffer as launched. The output array is the third of the pipeline's arrays, so the lanes the lines cut are its. -/

/-- What the later host lines leave in the result buffer: the loss of the output array's first fourteen lanes. -/
theorem tail_eq (c : Dev nD) :
    Pipeline.afterTail₀ cfgs (dats m) 0 (V0 m) tailOps c main_v70
      = fun _ => loss (fun j => (dats m 0 c).arrAt 2 cfg0.N (lane j)) := by
  unfold Pipeline.afterTail₀
  exact (tail_val _).trans (congrArg (fun (A : Vec Ideal S1x128 .f32) => fun _ => loss (fun j => A (lane j)))
    (Pipeline.withArrays_arr spec0 launch0.win.arr_inj c (V0 m c) (fun w => (dats m 0 c).arrAt w cfg0.N) 2))

end Cert.KernelIdeal.Val

end
-- ==== Proof.KI.Value.lean ====
/-
  The idealized kernel's run, read as a value: every weakly fair execution ends with the result buffer at the loss of
  the fourteen statistics of the two argument arrays, and the arguments unchanged. The frame run names the output array
  after the region and every other buffer after the later host lines; the host lines compute the loss of the array's
  first fourteen lanes; and those lanes hold the statistics.
-/
import proofs.«112396_j67877663146547_1_alg».proof.Proof.KI.Accum
import proofs.«112396_j67877663146547_1_alg».proof.Proof.KI.Tail

set_option maxRecDepth 16384

noncomputable section

namespace Cert.KernelIdeal.Val

open Cert.KernelIdeal Cert.KernelIdeal.Gen Cert.KernelIdeal.Frame Cert.Spec
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The result buffer is none of the three arrays the region stages and is unscoped: the later lines' valuation names it. -/
theorem main_v70_rest : main_v70 ∈ Pipeline.restRefs sig (cfgs 0).spec :=
  Pipeline.mem_restRefs_of main_v70 rfl (by intro w; fin_cases w <;> decide)

/-- What the result buffer holds at the end. -/
def result (c : Dev nD) : Buf (Elt Ideal) ((c.tc : Thread nD τ).loc main_v70) :=
  fun _ => loss (stats (n := 32) (m ((c : Thread nD τ).loc main_arg0)) (m ((c : Thread nD τ).loc main_arg1)))

theorem run : θ_run (defs (F := Ideal)) (onTc (τ := τ) (main (F := Ideal))) ⟨m, fun _ => 0, ρ⟩ (fun r => ∀ c : Dev nD,
      r.2.mem ((c.tc : Thread nD τ).loc main_v70) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v70 main_v70_rest).trans ((tail_eq m c).trans (by
        unfold result
        exact congrArg (fun s : Fin 14 → EReal => (fun _ => loss s)) (funext (final_lane m c)))),
     ((h c).1 0).trans (((dats m 0 c).arrAt_in 0 rfl _).trans ((A_eq m c 0).trans (V_main_arg0 m c))),
     ((h c).1 1).trans (((dats m 0 c).arrAt_in 1 rfl _).trans ((A_eq m c 1).trans (V_main_arg1 m c)))⟩)
    (run_main m ρ)

end Cert.KernelIdeal.Val

end
-- ==== Proof.Ref.Tools.lean ====
/-
  Three readings every sum of the reference passes through, at the extended reals: the host's sum of a [32, 192, 320]
  array into a scalar is the initial value plus the triple sum over batch entry, row and column; channel `k` of an
  argument array, sliced and reshaped as the reference does, read at a pixel is the array at that channel and pixel;
  and a truth bit converted to a float is the number 0 or 1.
-/
import proofs.«112396_j67877663146547_1_alg».proof.Proof.RefReadP
import proofs.«112396_j67877663146547_1_alg».proof.Proof.Spec
import Idealize.ShloMosaic.Lib.ValueLayout
import Idealize.ShloMosaic.Lib.IdealHost

set_option maxRecDepth 16384

noncomputable section

namespace Cert.ReferenceIdeal.Val

open Cert.ReferenceIdeal Cert.ReferenceIdeal.Gen Cert.ReferenceIdeal.ReadP Cert.Spec
open Idealize.ShloMosaic Idealize.ShloMosaic.TcCoe Idealize.ShloMosaic.ValueIdx Idealize.SL.Sem

/-- A rank-3 index set is the product of its three coordinate ranges … -/
private def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
private theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- The host's sum over all three axes, from an initial value. -/
theorem refSum_apply (x : FVec Ideal S32x192x320 .f32) (init : FVec Ideal S_ .f32) (i : S_.Idx) :
    Host.reduceAdd x init reducesTo_S32x192x320_S_d0_1_2 h_S_ i
      = init ix0 + ∑ b : Fin 32, ∑ h : Fin 192, ∑ w : Fin 320, x (ix3 b h w) := by
  rw [hostReduceAdd_apply, Ideal.hostReduceAdd_total reducesTo_S32x192x320_S_d0_1_2 (fun b => b.elim0), sum_idx3,
    eq_ix0 (Shape.Idx.first h_S_)]

/-- Channel `k` of an argument array — the slice [:, k:k+1, :, :] reshaped to [32, 192, 320] — at pixel (b, h, w). -/
theorem chan32_apply (x : FVec Ideal S32x10x192x320 .f32) (k : ℕ) (hk : k < 10)
    (hs : S32x10x192x320.Slices ![0, k, 0, 0] S32x1x192x320) (b : Fin 32) (h : Fin 192) (w : Fin 320) :
    shapeCast S32x192x320 (extractStridedSlice S32x1x192x320 ![0, k, 0, 0] x hs) shapeCasts_S32x1x192x320_S32x192x320 (ix3 b h w)
      = x (ix4 b (⟨k, hk⟩ : Fin 10) h w) := by
  -- the reshape drops the unit axis: pixel (b, h, w) of the result is element (b, 0, h, w) of the slice
  rw [shapeCast_apply _ shapeCasts_S32x1x192x320_S32x192x320 (ix3 b h w) (ix4 b (⟨0, Nat.one_pos⟩ : Fin 1) h w)
    (by rewrite [Shape.rowMajor_val_four, Shape.rowMajor_val_three]
        show ((b.val * 1 + 0) * 192 + h.val) * 320 + w.val = (b.val * 192 + h.val) * 320 + w.val
        omega)]
  -- the slice starts at channel k: its element (b, 0, h, w) is the array's element (b, k, h, w)
  exact extractStridedSlice_apply ![0, k, 0, 0] x hs _ (ix4 b (⟨k, hk⟩ : Fin 10) h w) (fun a => match a with
    | ⟨0, _⟩ => by show b.val = 0 + b.val; omega
    | ⟨1, _⟩ => by show k = k + 0; omega
    | ⟨2, _⟩ => by show h.val = 0 + h.val; omega
    | ⟨3, _⟩ => by show w.val = 0 + w.val; omega)

/-- A truth bit converted as an unsigned integer is the number 0 or 1. -/
theorem uitofp_bit (b : BitVec 1) : FloatOps.uitofp (F := Ideal) .f32 b = ind b := rfl

/-- A scalar constant broadcast over the pixels is that constant at every pixel. -/
theorem bcast_const_apply (w : BitVec 32) (i : S32x192x320.Idx) :
    broadcastInDim S32x192x320 ![] bcast_S_S32x192x320 (constant (F := Ideal) S_ .f32 w) i = Ideal.ofBits .f32 w := by
  rw [broadcastInDim_scalar_apply]
  rfl

end Cert.ReferenceIdeal.Val

end
-- ==== Proof.Ref.StatA.lean ====
/-
  The vehicle count, the positive count and the two focal sums of the reference's fourteen statistics: each is the host's sum, over all pixels of the whole arrays, of the
  per-pixel term, read off the reference's operations one at a time.
-/
import proofs.«112396_j67877663146547_1_alg».proof.Proof.Ref.Tools

set_option maxRecDepth 16384

noncomputable section

namespace Cert.ReferenceIdeal.Val

open Cert.ReferenceIdeal Cert.ReferenceIdeal.Gen Cert.ReferenceIdeal.ReadP Cert.Spec
open Idealize.ShloMosaic Idealize.ShloMosaic.TcCoe Idealize.ShloMosaic.ValueIdx Idealize.SL.Sem

/-! ## Readings at one index -/

/-- A truth bit converted to a float, read at an index, is the number 0 or 1 of the bit there. -/
private theorem uitofp_at {s : Shape} (x : IVec s 1) (i : s.Idx) :
    (uitofp .f32 x : FVec Ideal s .f32) i = ind (x i) := rfl

/-- The host's logarithm, read at an index, is the logarithm of the element there. -/
private theorem hlog_at {s : Shape} (x : FVec Ideal s .f32) (i : s.Idx) :
    Host.log x i = Ideal.log (x i) := rfl

/-- The zero constant every sum starts from. -/
private theorem zero_init (i : S_.Idx) : constant (F := Ideal) S_ .f32 0x00000000#32 i = 0 := by
  rw [constant_apply]; exact Ideal.ofBits_zero_f32

/-! ## The per-pixel terms the reference forms, at pixel (b, h, w) -/

section Pixel

variable (x0 x1 : FVec Ideal S32x10x192x320 .f32) (b : Fin 32) (h : Fin 192) (w : Fin 320)

/-- Channel 0 of `gt`. -/
private theorem g0_at : val_main_v1 (F := Ideal) x1 (ix3 b h w) = x1 (ix4 b 0 h w) := by
  unfold val_main_v1 val_main_v0
  exact chan32_apply x1 0 (by decide) _ b h w

/-- Channel 0 of `re`. -/
private theorem r0_at : val_main_v3 (F := Ideal) x0 (ix3 b h w) = x0 (ix4 b 0 h w) := by
  unfold val_main_v3 val_main_v2
  exact chan32_apply x0 0 (by decide) _ b h w

/-- The vehicle mask: the bit of `g0 = 1` as a number. -/
private theorem mv_at : val_main_v9 (F := Ideal) x1 (ix3 b h w) = mv (x1 (ix4 b 0 h w)) := by
  simp only [val_main_v9, val_main_v7, val_main_v6, val_main_cst_0, uitofp_at, cmpf_apply, g0_at, bcast_const_apply]
  rfl

/-- The positive mask: `0 ≤ g0` times `0.1 ≤ g0`. -/
private theorem pos_at : val_main_v14 (F := Ideal) x1 (ix3 b h w) = pos (x1 (ix4 b 0 h w)) := by
  simp only [val_main_v14, val_main_v8, val_main_v13, val_main_v5, val_main_v12, val_main_v4, val_main_v11,
    val_main_cst, val_main_cst_2, mulf_apply, uitofp_at, cmpf_apply, g0_at, bcast_const_apply]
  rfl

/-- The negative mask: `0 ≤ g0` times `g0 < 0.1`. -/
private theorem neg_at : val_main_v18 (F := Ideal) x1 (ix3 b h w) = neg (x1 (ix4 b 0 h w)) := by
  simp only [val_main_v18, val_main_v8, val_main_v17, val_main_v5, val_main_v16, val_main_v4, val_main_v15,
    val_main_cst, val_main_cst_3, mulf_apply, uitofp_at, cmpf_apply, g0_at, bcast_const_apply]
  rfl

/-- The clamp of `r0` into [lo, hi]: the maximum with the lower end, then the minimum with the upper end. -/
private theorem safe_at : val_main_v20 (F := Ideal) x0 (ix3 b h w) = safe (x0 (ix4 b 0 h w)) := by
  simp only [val_main_v20, val_main_call0_v4, val_main_call0_v3, val_main_cst_6, val_main_call0_v2,
    val_main_call0_v1, val_main_call0_v0, val_main_cst_5, id_eq, minimumf_apply, maximumf_apply, r0_at,
    bcast_const_apply]
  rfl

/-- The focal term's positive part: `pos · (g0 − r0)² · log (safe + eps)`, multiplied in that order. -/
private theorem apos_at :
    val_main_v27 (F := Ideal) x0 x1 (ix3 b h w) = apos (x0 (ix4 b 0 h w)) (x1 (ix4 b 0 h w)) := by
  simp only [val_main_v27, val_main_v23, val_main_v22, val_main_v21, val_main_v26, val_main_v25, val_main_v24,
    val_main_cst_7, mulf_apply, subf_apply, addf_apply, hlog_at, pos_at, safe_at, g0_at, r0_at, bcast_const_apply]
  rfl

/-- The focal term's negative part: `neg · r0² · log (onePlus − safe) · ((1 − g0)²)²`, multiplied in that order. -/
private theorem aneg_at :
    val_main_v40 (F := Ideal) x0 x1 (ix3 b h w) = aneg (x0 (ix4 b 0 h w)) (x1 (ix4 b 0 h w)) := by
  simp only [val_main_v40, val_main_v35, val_main_v31, val_main_v30, val_main_v34, val_main_v33, val_main_v32,
    val_main_cst_9, val_main_v39, val_main_v38, val_main_v37, val_main_v36, val_main_cst_10, mulf_apply,
    subf_apply, hlog_at, neg_at, safe_at, g0_at, r0_at, bcast_const_apply]
  rfl

end Pixel

/-! ## From the pixels to the sums -/

/-- The host's sum from zero of a [32, 192, 320] array whose element at each pixel is a term of the two arrays' channel
    vectors there is the sum of that term over all pixels. -/
private theorem sum_eq_pixSum (v : FVec Ideal S32x192x320 .f32) (f : (Fin 10 → EReal) → (Fin 10 → EReal) → EReal)
    (x0 x1 : FVec Ideal S32x10x192x320 .f32)
    (hv : ∀ (b : Fin 32) (h : Fin 192) (w : Fin 320),
      v (ix3 b h w) = f (fun ch => x0 (ix4 b ch h w)) (fun ch => x1 (ix4 b ch h w))) :
    Host.reduceAdd v (constant (F := Ideal) S_ .f32 0x00000000#32) reducesTo_S32x192x320_S_d0_1_2 h_S_ ix0
      = pixSum (n := 32) f x0 x1 := by
  rw [refSum_apply, zero_init, zero_add]
  unfold pixSum
  exact Finset.sum_congr rfl fun b _ => Finset.sum_congr rfl fun h _ => Finset.sum_congr rfl fun w _ => hv b h w

/-! The first four entries of the vector of statistics, read off without opening the sums. -/

private theorem stats_0 (x0 x1 : FVec Ideal S32x10x192x320 .f32) :
    stats (n := 32) x0 x1 0 = pixSum (n := 32) (fun _ g => mv (g 0)) x0 x1 := by
  unfold stats
  rw [Matrix.cons_val_zero]

private theorem stats_1 (x0 x1 : FVec Ideal S32x10x192x320 .f32) :
    stats (n := 32) x0 x1 1 = pixSum (n := 32) (fun _ g => pos (g 0)) x0 x1 := by
  unfold stats
  rw [Matrix.cons_val_one, Matrix.cons_val_zero]

private theorem stats_2 (x0 x1 : FVec Ideal S32x10x192x320 .f32) :
    stats (n := 32) x0 x1 2 = pixSum (n := 32) (fun r g => apos (r 0) (g 0)) x0 x1 := by
  unfold stats
  rw [Matrix.cons_val_two, Matrix.tail_cons, Matrix.head_cons]

private theorem stats_3 (x0 x1 : FVec Ideal S32x10x192x320 .f32) :
    stats (n := 32) x0 x1 3 = pixSum (n := 32) (fun r g => aneg (r 0) (g 0)) x0 x1 := by
  unfold stats
  rw [Matrix.cons_val_three, Matrix.tail_cons, Matrix.tail_cons, Matrix.head_cons]

/-! ## The four statistics -/

theorem ref_stat_0 (x0 x1 : FVec Ideal S32x10x192x320 .f32) :
    val_main_v10 (F := Ideal) x1 ix0 = stats (n := 32) x0 x1 0 := by
  rw [stats_0]
  unfold val_main_v10 val_main_cst_1
  exact sum_eq_pixSum (val_main_v9 (F := Ideal) x1) (fun _ g => mv (g 0)) x0 x1 (mv_at x1)

theorem ref_stat_1 (x0 x1 : FVec Ideal S32x10x192x320 .f32) :
    val_main_v19 (F := Ideal) x1 ix0 = stats (n := 32) x0 x1 1 := by
  rw [stats_1]
  unfold val_main_v19 val_main_cst_4
  exact sum_eq_pixSum (val_main_v14 (F := Ideal) x1) (fun _ g => pos (g 0)) x0 x1 (pos_at x1)

theorem ref_stat_2 (x0 x1 : FVec Ideal S32x10x192x320 .f32) :
    val_main_v28 (F := Ideal) x0 x1 ix0 = stats (n := 32) x0 x1 2 := by
  rw [stats_2]
  unfold val_main_v28 val_main_cst_8
  exact sum_eq_pixSum (val_main_v27 (F := Ideal) x0 x1) (fun r g => apos (r 0) (g 0)) x0 x1 (apos_at x0 x1)

theorem ref_stat_3 (x0 x1 : FVec Ideal S32x10x192x320 .f32) :
    val_main_v41 (F := Ideal) x0 x1 ix0 = stats (n := 32) x0 x1 3 := by
  rw [stats_3]
  unfold val_main_v41 val_main_cst_11
  exact sum_eq_pixSum (val_main_v40 (F := Ideal) x0 x1) (fun r g => aneg (r 0) (g 0)) x0 x1 (aneg_at x0 x1)

end Cert.ReferenceIdeal.Val

end
-- ==== Proof.Ref.StatB.lean ====
/-
  The four smooth-L1 sums (position, the two length pairings, height) of the reference's fourteen statistics: each is the host's sum, over all pixels of the whole arrays, of the
  per-pixel term, read off the reference's operations one at a time.
-/
import proofs.«112396_j67877663146547_1_alg».proof.Proof.Ref.Tools

set_option maxRecDepth 16384

noncomputable section

namespace Cert.ReferenceIdeal.Val

open Cert.ReferenceIdeal Cert.ReferenceIdeal.Gen Cert.ReferenceIdeal.ReadP Cert.Spec
open Idealize.ShloMosaic Idealize.ShloMosaic.TcCoe Idealize.ShloMosaic.ValueIdx Idealize.SL.Sem

/-! ## One pixel of a masked smooth-L1 array -/

/-- A scalar literal spread over the pixels. -/
private abbrev litV (w : BitVec 32) : FVec Ideal S32x192x320 .f32 :=
  broadcastInDim S32x192x320 ![] bcast_S_S32x192x320 (constant (F := Ideal) S_ .f32 w)

/-- It reads the literal at every pixel. -/
private theorem litV_apply (w : BitVec 32) (i : S32x192x320.Idx) : litV w i = Ideal.ofBits .f32 w :=
  bcast_const_apply w i

/-- The masked smooth-L1 array of two channel arrays `ra`, `gb` and a mask `mvv`, built by the operations every one of
    the reference's seven smooth-L1 reductions applies to its freshly sliced channels: the difference, its absolute
    value, the test against 1, the quadratic branch `0.5 · d · d`, the linear branch `|d| - 0.5`, the choice between
    them, and the product with the mask. -/
private def slArr (ra gb mvv : FVec Ideal S32x192x320 .f32) : FVec Ideal S32x192x320 .f32 :=
  mulf
    (select (cmpf .olt (Host.absf (subf ra gb)) (litV 0x3F800000#32))
      (mulf (mulf (litV 0x3F000000#32) (subf ra gb)) (subf ra gb))
      (subf (Host.absf (subf ra gb)) (litV 0x3F000000#32)))
    mvv

/-- At a pixel that array is the specification's smooth-L1 term of the two channel values and the mask value there. -/
private theorem slArr_apply (ra gb mvv : FVec Ideal S32x192x320 .f32) (i : S32x192x320.Idx) :
    slArr ra gb mvv i = slT (ra i) (gb i) (mvv i) := by
  show Scalar.select (Ideal.cmp .olt (max (ra i - gb i) (-(ra i - gb i))) (litV 0x3F800000#32 i))
      (litV 0x3F000000#32 i * (ra i - gb i) * (ra i - gb i))
      (max (ra i - gb i) (-(ra i - gb i)) - litV 0x3F000000#32 i) * mvv i = _
  rw [litV_apply, litV_apply]
  rfl

/-- The vehicle mask the reference multiplies every term by (`gt`'s channel 0 compared with 1, as a number) at a pixel. -/
private theorem maskV_apply (x1 : FVec Ideal S32x10x192x320 .f32) (b : Fin 32) (h : Fin 192) (w : Fin 320) :
    val_main_v9 (F := Ideal) x1 (ix3 b h w) = mv (x1 (ix4 b 0 h w)) := by
  show FloatOps.uitofp (F := Ideal) .f32
      (Ideal.cmp .oeq (val_main_v1 (F := Ideal) x1 (ix3 b h w)) (litV 0x3F800000#32 (ix3 b h w))) = _
  rw [uitofp_bit, litV_apply]
  unfold val_main_v1 val_main_v0
  rw [chan32_apply x1 0 (by decide)]
  rfl

/-! ## One reduction -/

/-- The host's sum of the masked smooth-L1 array of channel `a` of `re` and channel `b` of `gt`, from a zero initial
    value, is the specification's smooth-L1 sum of that pair of channels. -/
private theorem slRed (x0 x1 : FVec Ideal S32x10x192x320 .f32) (ra gb : FVec Ideal S32x192x320 .f32) (a b : Fin 10)
    (hra : ∀ (bb : Fin 32) (h : Fin 192) (w : Fin 320), ra (ix3 bb h w) = x0 (ix4 bb a h w))
    (hgb : ∀ (bb : Fin 32) (h : Fin 192) (w : Fin 320), gb (ix3 bb h w) = x1 (ix4 bb b h w))
    (init : FVec Ideal S_ .f32) (hinit : init ix0 = 0) (i : S_.Idx) :
    Host.reduceAdd (slArr ra gb (val_main_v9 (F := Ideal) x1)) init reducesTo_S32x192x320_S_d0_1_2 h_S_ i
      = slSum (n := 32) a b x0 x1 := by
  rw [refSum_apply, hinit, zero_add]
  unfold slSum pixSum
  refine Finset.sum_congr rfl fun bb _ => Finset.sum_congr rfl fun h _ => Finset.sum_congr rfl fun w _ => ?_
  rw [slArr_apply, hra, hgb, maskV_apply]

/-! ## The four statistics -/

/-- A zero literal as an initial value or a first summand. -/
private theorem zeroLit (i : S_.Idx) : constant (F := Ideal) S_ .f32 0x00000000#32 i = 0 := Ideal.ofBits_zero_f32

/-- Two reductions added onto a zero literal, `(0 + s) + s'`. -/
private theorem pairSum (z s s' : FVec Ideal S_ .f32) (hz : z ix0 = 0) :
    addf (addf z s) s' ix0 = s ix0 + s' ix0 := by
  show z ix0 + s ix0 + s' ix0 = _
  rw [hz, zero_add]

theorem ref_stat_4 (x0 x1 : FVec Ideal S32x10x192x320 .f32) :
    val_main_v81 (F := Ideal) x0 x1 ix0 = stats (n := 32) x0 x1 4 := by
  have h1 : val_main_v63 (F := Ideal) x0 x1 ix0 = slSum (n := 32) 1 1 x0 x1 :=
    slRed x0 x1 (val_main_v49 (F := Ideal) x0) (val_main_v51 (F := Ideal) x1) 1 1
      (fun bb h w => chan32_apply x0 1 (by decide) _ bb h w) (fun bb h w => chan32_apply x1 1 (by decide) _ bb h w)
      (val_main_cst_17 (F := Ideal)) (zeroLit ix0) ix0
  have h2 : val_main_v80 (F := Ideal) x0 x1 ix0 = slSum (n := 32) 2 2 x0 x1 :=
    slRed x0 x1 (val_main_v66 (F := Ideal) x0) (val_main_v68 (F := Ideal) x1) 2 2
      (fun bb h w => chan32_apply x0 2 (by decide) _ bb h w) (fun bb h w => chan32_apply x1 2 (by decide) _ bb h w)
      (val_main_cst_22 (F := Ideal)) (zeroLit ix0) ix0
  unfold val_main_v81 val_main_v64
  rw [pairSum (val_main_cst_18 (F := Ideal)) _ _ (zeroLit ix0), h1, h2]
  unfold stats
  simp only [Matrix.cons_val]

theorem ref_stat_5 (x0 x1 : FVec Ideal S32x10x192x320 .f32) :
    val_main_v118 (F := Ideal) x0 x1 ix0 = stats (n := 32) x0 x1 5 := by
  have h1 : val_main_v100 (F := Ideal) x0 x1 ix0 = slSum (n := 32) 3 3 x0 x1 :=
    slRed x0 x1 (val_main_v86 (F := Ideal) x0) (val_main_v88 (F := Ideal) x1) 3 3
      (fun bb h w => chan32_apply x0 3 (by decide) _ bb h w) (fun bb h w => chan32_apply x1 3 (by decide) _ bb h w)
      (val_main_cst_28 (F := Ideal)) (zeroLit ix0) ix0
  have h2 : val_main_v117 (F := Ideal) x0 x1 ix0 = slSum (n := 32) 6 6 x0 x1 :=
    slRed x0 x1 (val_main_v103 (F := Ideal) x0) (val_main_v105 (F := Ideal) x1) 6 6
      (fun bb h w => chan32_apply x0 6 (by decide) _ bb h w) (fun bb h w => chan32_apply x1 6 (by decide) _ bb h w)
      (val_main_cst_33 (F := Ideal)) (zeroLit ix0) ix0
  unfold val_main_v118 val_main_v101
  rw [pairSum (val_main_cst_29 (F := Ideal)) _ _ (zeroLit ix0), h1, h2]
  unfold stats
  simp only [Matrix.cons_val]

theorem ref_stat_6 (x0 x1 : FVec Ideal S32x10x192x320 .f32) :
    val_main_v155 (F := Ideal) x0 x1 ix0 = stats (n := 32) x0 x1 6 := by
  have h1 : val_main_v137 (F := Ideal) x0 x1 ix0 = slSum (n := 32) 3 6 x0 x1 :=
    slRed x0 x1 (val_main_v123 (F := Ideal) x0) (val_main_v125 (F := Ideal) x1) 3 6
      (fun bb h w => chan32_apply x0 3 (by decide) _ bb h w) (fun bb h w => chan32_apply x1 6 (by decide) _ bb h w)
      (val_main_cst_39 (F := Ideal)) (zeroLit ix0) ix0
  have h2 : val_main_v154 (F := Ideal) x0 x1 ix0 = slSum (n := 32) 6 3 x0 x1 :=
    slRed x0 x1 (val_main_v140 (F := Ideal) x0) (val_main_v142 (F := Ideal) x1) 6 3
      (fun bb h w => chan32_apply x0 6 (by decide) _ bb h w) (fun bb h w => chan32_apply x1 3 (by decide) _ bb h w)
      (val_main_cst_44 (F := Ideal)) (zeroLit ix0) ix0
  unfold val_main_v155 val_main_v138
  rw [pairSum (val_main_cst_40 (F := Ideal)) _ _ (zeroLit ix0), h1, h2]
  unfold stats
  simp only [Matrix.cons_val]

theorem ref_stat_13 (x0 x1 : FVec Ideal S32x10x192x320 .f32) :
    val_main_v286 (F := Ideal) x0 x1 ix0 = stats (n := 32) x0 x1 13 := by
  have h1 : val_main_v286 (F := Ideal) x0 x1 ix0 = slSum (n := 32) 9 9 x0 x1 :=
    slRed x0 x1 (val_main_v272 (F := Ideal) x0) (val_main_v274 (F := Ideal) x1) 9 9
      (fun bb h w => chan32_apply x0 9 (by decide) _ bb h w) (fun bb h w => chan32_apply x1 9 (by decide) _ bb h w)
      (val_main_cst_73 (F := Ideal)) (zeroLit ix0) ix0
  rw [h1]
  unfold stats
  simp only [Matrix.cons_val]

end Cert.ReferenceIdeal.Val

end
-- ==== Proof.Ref.StatC.lean ====
/-
  The four squared-difference sums and the two unit-circle defects of the reference's fourteen statistics: each is the host's sum, over all pixels of the whole arrays, of the
  per-pixel term, read off the reference's operations one at a time.
-/
import proofs.«112396_j67877663146547_1_alg».proof.Proof.Ref.Tools

set_option maxRecDepth 16384

noncomputable section

namespace Cert.ReferenceIdeal.Val

open Cert.ReferenceIdeal Cert.ReferenceIdeal.Gen Cert.ReferenceIdeal.ReadP Cert.Spec
open Idealize.ShloMosaic Idealize.ShloMosaic.TcCoe Idealize.ShloMosaic.ValueIdx Idealize.SL.Sem

/-- Channel `k` of an argument array as the reference forms it: the slice [:, k:k+1, :, :] reshaped to [32, 192, 320]. -/
private abbrev chanOf (x : FVec Ideal S32x10x192x320 .f32) (k : ℕ) (hs : S32x10x192x320.Slices ![0, k, 0, 0] S32x1x192x320) :
    FVec Ideal S32x192x320 .f32 :=
  shapeCast S32x192x320 (extractStridedSlice S32x1x192x320 ![0, k, 0, 0] x hs) shapeCasts_S32x1x192x320_S32x192x320

/-- Read at a pixel it is the array at that channel and pixel. -/
private theorem chanOf_apply (x : FVec Ideal S32x10x192x320 .f32) (k : ℕ) (hk : k < 10)
    (hs : S32x10x192x320.Slices ![0, k, 0, 0] S32x1x192x320) (b : Fin 32) (h : Fin 192) (w : Fin 320) :
    chanOf x k hs (ix3 b h w) = x (ix4 b (⟨k, hk⟩ : Fin 10) h w) := chan32_apply x k hk hs b h w

/-- The vehicle mask of the reference at a pixel is `mv` of `gt`'s channel 0 there. -/
private theorem mask_at (x1 : FVec Ideal S32x10x192x320 .f32) (b : Fin 32) (h : Fin 192) (w : Fin 320) :
    val_main_v9 (F := Ideal) x1 (ix3 b h w) = mv (x1 (ix4 b (0 : Fin 10) h w)) := by
  rw [val_main_v9_apply, val_main_v7_apply, uitofp_bit]
  unfold val_main_v1 val_main_v0 val_main_v6 val_main_cst_0
  rw [chan32_apply x1 0 (by decide) _ b h w, bcast_const_apply]
  rfl

/-- The host's sum of the squared difference of two arrays times a mask, from a zero initial value. -/
private theorem sqRed (ra gb mvv : FVec Ideal S32x192x320 .f32) (z : FVec Ideal S_ .f32) (hz : z ix0 = 0) :
    Host.reduceAdd (mulf (mulf (subf ra gb) (subf ra gb)) mvv) z reducesTo_S32x192x320_S_d0_1_2 h_S_ ix0
      = ∑ b : Fin 32, ∑ h : Fin 192, ∑ w : Fin 320, sqT (ra (ix3 b h w)) (gb (ix3 b h w)) (mvv (ix3 b h w)) := by
  rw [refSum_apply, hz, zero_add]
  refine Finset.sum_congr rfl fun b _ => Finset.sum_congr rfl fun h _ => Finset.sum_congr rfl fun w _ => ?_
  rfl

/-- The same for channel `ka` of `re` against channel `kb` of `gt` under the vehicle mask: the specification's sum. -/
private theorem sqStat (x0 x1 : FVec Ideal S32x10x192x320 .f32) (ka kb : ℕ) (hka : ka < 10) (hkb : kb < 10)
    (hsa : S32x10x192x320.Slices ![0, ka, 0, 0] S32x1x192x320) (hsb : S32x10x192x320.Slices ![0, kb, 0, 0] S32x1x192x320)
    (z : FVec Ideal S_ .f32) (hz : z ix0 = 0) :
    Host.reduceAdd (mulf (mulf (subf (chanOf x0 ka hsa) (chanOf x1 kb hsb)) (subf (chanOf x0 ka hsa) (chanOf x1 kb hsb)))
        (val_main_v9 (F := Ideal) x1)) z reducesTo_S32x192x320_S_d0_1_2 h_S_ ix0
      = sqSum (n := 32) (⟨ka, hka⟩ : Fin 10) (⟨kb, hkb⟩ : Fin 10) x0 x1 := by
  rw [sqRed _ _ _ z hz]
  unfold sqSum pixSum
  refine Finset.sum_congr rfl fun b _ => Finset.sum_congr rfl fun h _ => Finset.sum_congr rfl fun w _ => ?_
  rw [chanOf_apply x0 ka hka hsa b h w, chanOf_apply x1 kb hkb hsb b h w, mask_at]

/-- The zero constant every sum starts from is the number 0. -/
private theorem zero_cst (w : S_.Idx) : constant (F := Ideal) S_ .f32 0x00000000#32 w = 0 := Ideal.ofBits_zero_f32

/-- The scalar one broadcast over the pixels, as the reference forms it. -/
private abbrev oneArr : FVec Ideal S32x192x320 .f32 :=
  broadcastInDim S32x192x320 ![] bcast_S_S32x192x320 (constant (F := Ideal) S_ .f32 0x3F800000#32)

/-- At every pixel it is the number one. -/
private theorem oneArr_apply (i : S32x192x320.Idx) : oneArr i = one := bcast_const_apply _ i

/-- The host's sum of the squared defect `1 - a² - b²` of two arrays times a mask, from a zero initial value. -/
private theorem coRed (ra rb mvv : FVec Ideal S32x192x320 .f32) (z : FVec Ideal S_ .f32) (hz : z ix0 = 0) :
    Host.reduceAdd (mulf (mulf (subf (subf oneArr (mulf ra ra)) (mulf rb rb)) (subf (subf oneArr (mulf ra ra)) (mulf rb rb))) mvv)
        z reducesTo_S32x192x320_S_d0_1_2 h_S_ ix0
      = ∑ b : Fin 32, ∑ h : Fin 192, ∑ w : Fin 320, coT (ra (ix3 b h w)) (rb (ix3 b h w)) (mvv (ix3 b h w)) := by
  rw [refSum_apply, hz, zero_add]
  refine Finset.sum_congr rfl fun b _ => Finset.sum_congr rfl fun h _ => Finset.sum_congr rfl fun w _ => ?_
  rw [mulf_apply, mulf_apply, subf_apply, subf_apply, mulf_apply, mulf_apply, oneArr_apply]
  rfl

/-- The same for channels `ka`, `kb` of `re` under the vehicle mask: the specification's sum. -/
private theorem coStat (x0 x1 : FVec Ideal S32x10x192x320 .f32) (ka kb : ℕ) (hka : ka < 10) (hkb : kb < 10)
    (hsa : S32x10x192x320.Slices ![0, ka, 0, 0] S32x1x192x320) (hsb : S32x10x192x320.Slices ![0, kb, 0, 0] S32x1x192x320)
    (z : FVec Ideal S_ .f32) (hz : z ix0 = 0) :
    Host.reduceAdd (mulf (mulf (subf (subf oneArr (mulf (chanOf x0 ka hsa) (chanOf x0 ka hsa))) (mulf (chanOf x0 kb hsb) (chanOf x0 kb hsb)))
          (subf (subf oneArr (mulf (chanOf x0 ka hsa) (chanOf x0 ka hsa))) (mulf (chanOf x0 kb hsb) (chanOf x0 kb hsb))))
        (val_main_v9 (F := Ideal) x1)) z reducesTo_S32x192x320_S_d0_1_2 h_S_ ix0
      = coSum (n := 32) (⟨ka, hka⟩ : Fin 10) (⟨kb, hkb⟩ : Fin 10) x0 x1 := by
  rw [coRed _ _ _ z hz]
  unfold coSum pixSum
  refine Finset.sum_congr rfl fun b _ => Finset.sum_congr rfl fun h _ => Finset.sum_congr rfl fun w _ => ?_
  rw [chanOf_apply x0 ka hka hsa b h w, chanOf_apply x0 kb hkb hsb b h w, mask_at]

theorem ref_stat_7 (x0 x1 : FVec Ideal S32x10x192x320 .f32) :
    val_main_v176 (F := Ideal) x0 x1 ix0 = stats (n := 32) x0 x1 7 := by
  unfold stats
  simp only [Matrix.cons_val]
  have h1 : val_main_v166 (F := Ideal) x0 x1 ix0 = sqSum (n := 32) 4 4 x0 x1 :=
    sqStat x0 x1 4 4 (by decide) (by decide) _ _ _ (zero_cst _)
  have h2 : val_main_v175 (F := Ideal) x0 x1 ix0 = sqSum (n := 32) 7 7 x0 x1 :=
    sqStat x0 x1 7 7 (by decide) (by decide) _ _ _ (zero_cst _)
  rw [val_main_v176_apply, val_main_v167_apply, Ideal.addf_def, Ideal.addf_def, h1, h2]
  unfold val_main_cst_48
  rw [zero_cst, zero_add]

theorem ref_stat_8 (x0 x1 : FVec Ideal S32x10x192x320 .f32) :
    val_main_v196 (F := Ideal) x0 x1 ix0 = stats (n := 32) x0 x1 8 := by
  unfold stats
  simp only [Matrix.cons_val]
  have h1 : val_main_v186 (F := Ideal) x0 x1 ix0 = sqSum (n := 32) 5 5 x0 x1 :=
    sqStat x0 x1 5 5 (by decide) (by decide) _ _ _ (zero_cst _)
  have h2 : val_main_v195 (F := Ideal) x0 x1 ix0 = sqSum (n := 32) 8 8 x0 x1 :=
    sqStat x0 x1 8 8 (by decide) (by decide) _ _ _ (zero_cst _)
  rw [val_main_v196_apply, val_main_v187_apply, Ideal.addf_def, Ideal.addf_def, h1, h2]
  unfold val_main_cst_52
  rw [zero_cst, zero_add]

theorem ref_stat_9 (x0 x1 : FVec Ideal S32x10x192x320 .f32) :
    val_main_v218 (F := Ideal) x0 x1 ix0 = stats (n := 32) x0 x1 9 := by
  unfold stats
  simp only [Matrix.cons_val]
  have h1 : val_main_v208 (F := Ideal) x0 x1 ix0 = sqSum (n := 32) 4 7 x0 x1 :=
    sqStat x0 x1 4 7 (by decide) (by decide) _ _ _ (zero_cst _)
  have h2 : val_main_v217 (F := Ideal) x0 x1 ix0 = sqSum (n := 32) 7 4 x0 x1 :=
    sqStat x0 x1 7 4 (by decide) (by decide) _ _ _ (zero_cst _)
  rw [val_main_v218_apply, val_main_v209_apply, Ideal.addf_def, Ideal.addf_def, h1, h2]
  unfold val_main_cst_57
  rw [zero_cst, zero_add]

theorem ref_stat_10 (x0 x1 : FVec Ideal S32x10x192x320 .f32) :
    val_main_v238 (F := Ideal) x0 x1 ix0 = stats (n := 32) x0 x1 10 := by
  unfold stats
  simp only [Matrix.cons_val]
  have h1 : val_main_v228 (F := Ideal) x0 x1 ix0 = sqSum (n := 32) 5 8 x0 x1 :=
    sqStat x0 x1 5 8 (by decide) (by decide) _ _ _ (zero_cst _)
  have h2 : val_main_v237 (F := Ideal) x0 x1 ix0 = sqSum (n := 32) 8 5 x0 x1 :=
    sqStat x0 x1 8 5 (by decide) (by decide) _ _ _ (zero_cst _)
  rw [val_main_v238_apply, val_main_v229_apply, Ideal.addf_def, Ideal.addf_def, h1, h2]
  unfold val_main_cst_61
  rw [zero_cst, zero_add]

theorem ref_stat_11 (x0 x1 : FVec Ideal S32x10x192x320 .f32) :
    val_main_v254 (F := Ideal) x0 x1 ix0 = stats (n := 32) x0 x1 11 := by
  unfold stats
  simp only [Matrix.cons_val]
  exact coStat x0 x1 5 4 (by decide) (by decide) _ _ _ (zero_cst _)

theorem ref_stat_12 (x0 x1 : FVec Ideal S32x10x192x320 .f32) :
    val_main_v267 (F := Ideal) x0 x1 ix0 = stats (n := 32) x0 x1 12 := by
  unfold stats
  simp only [Matrix.cons_val]
  exact coStat x0 x1 8 7 (by decide) (by decide) _ _ _ (zero_cst _)

end Cert.ReferenceIdeal.Val

end
-- ==== Proof.Ref.Tail.lean ====
/-
  The reference's closing scalar arithmetic: from its fourteen summed statistics to its result. It is the loss of those
  fourteen numbers; the one place where it is spelled differently — the height term multiplies by 0.1 before dividing by
  the vehicle count — is the law that a positive real factor moves across the extended quotient.
-/
import proofs.«112396_j67877663146547_1_alg».proof.Proof.RefReadP
import proofs.«112396_j67877663146547_1_alg».proof.Proof.SpecLaws

set_option maxRecDepth 16384

noncomputable section

namespace Cert.ReferenceIdeal.Val

open Cert.ReferenceIdeal Cert.ReferenceIdeal.Gen Cert.ReferenceIdeal.ReadP Cert.Spec
open Idealize.ShloMosaic Idealize.ShloMosaic.TcCoe Idealize.ShloMosaic.ValueIdx Idealize.SL.Sem

/-- The reference's fourteen statistics, as its operations name them. -/
def refStats (x0 x1 : FVec Ideal S32x10x192x320 .f32) : Fin 14 → EReal := ![
  val_main_v10 (F := Ideal) x1 ix0, val_main_v19 (F := Ideal) x1 ix0, val_main_v28 (F := Ideal) x0 x1 ix0,
  val_main_v41 (F := Ideal) x0 x1 ix0, val_main_v81 (F := Ideal) x0 x1 ix0, val_main_v118 (F := Ideal) x0 x1 ix0,
  val_main_v155 (F := Ideal) x0 x1 ix0, val_main_v176 (F := Ideal) x0 x1 ix0, val_main_v196 (F := Ideal) x0 x1 ix0,
  val_main_v218 (F := Ideal) x0 x1 ix0, val_main_v238 (F := Ideal) x0 x1 ix0, val_main_v254 (F := Ideal) x0 x1 ix0,
  val_main_v267 (F := Ideal) x0 x1 ix0, val_main_v286 (F := Ideal) x0 x1 ix0]

section Vec

variable {α : Type} (a0 a1 a2 a3 a4 a5 a6 a7 a8 a9 a10 a11 a12 a13 : α)

/-! The entries of a vector of fourteen, one by one. -/

private theorem vec_0 : (![a0, a1, a2, a3, a4, a5, a6, a7, a8, a9, a10, a11, a12, a13] : Fin 14 → α) 0 = a0 := rfl
private theorem vec_1 : (![a0, a1, a2, a3, a4, a5, a6, a7, a8, a9, a10, a11, a12, a13] : Fin 14 → α) 1 = a1 := rfl
private theorem vec_2 : (![a0, a1, a2, a3, a4, a5, a6, a7, a8, a9, a10, a11, a12, a13] : Fin 14 → α) 2 = a2 := rfl
private theorem vec_3 : (![a0, a1, a2, a3, a4, a5, a6, a7, a8, a9, a10, a11, a12, a13] : Fin 14 → α) 3 = a3 := rfl
private theorem vec_4 : (![a0, a1, a2, a3, a4, a5, a6, a7, a8, a9, a10, a11, a12, a13] : Fin 14 → α) 4 = a4 := rfl
private theorem vec_5 : (![a0, a1, a2, a3, a4, a5, a6, a7, a8, a9, a10, a11, a12, a13] : Fin 14 → α) 5 = a5 := rfl
private theorem vec_6 : (![a0, a1, a2, a3, a4, a5, a6, a7, a8, a9, a10, a11, a12, a13] : Fin 14 → α) 6 = a6 := rfl
private theorem vec_7 : (![a0, a1, a2, a3, a4, a5, a6, a7, a8, a9, a10, a11, a12, a13] : Fin 14 → α) 7 = a7 := rfl
private theorem vec_8 : (![a0, a1, a2, a3, a4, a5, a6, a7, a8, a9, a10, a11, a12, a13] : Fin 14 → α) 8 = a8 := rfl
private theorem vec_9 : (![a0, a1, a2, a3, a4, a5, a6, a7, a8, a9, a10, a11, a12, a13] : Fin 14 → α) 9 = a9 := rfl
private theorem vec_10 : (![a0, a1, a2, a3, a4, a5, a6, a7, a8, a9, a10, a11, a12, a13] : Fin 14 → α) 10 = a10 := rfl
private theorem vec_11 : (![a0, a1, a2, a3, a4, a5, a6, a7, a8, a9, a10, a11, a12, a13] : Fin 14 → α) 11 = a11 := rfl
private theorem vec_12 : (![a0, a1, a2, a3, a4, a5, a6, a7, a8, a9, a10, a11, a12, a13] : Fin 14 → α) 12 = a12 := rfl
private theorem vec_13 : (![a0, a1, a2, a3, a4, a5, a6, a7, a8, a9, a10, a11, a12, a13] : Fin 14 → α) 13 = a13 := rfl

end Vec

/-- The reference's result is the loss of its fourteen statistics. -/
theorem ref_loss (x0 x1 : FVec Ideal S32x10x192x320 .f32) :
    val_main_v295 (F := Ideal) x0 x1 = fun _ => loss (refStats x0 x1) := by
  funext i
  rw [eq_ix0 i]
  -- the closing additions and the minimum: ((conf + pos) + (min (len₁ + trig₁) (len₂ + trig₂) + height)) + const
  rw [val_main_v295_apply, val_main_v294_apply, val_main_v293_apply, val_main_v292_apply, val_main_v291_apply, val_main_v290_apply, val_main_v289_apply]
  -- the focal term: 1 · (if the positive count is 0 then −s₃ else (−s₂ + −s₃) / s₁)
  rw [val_main_v47_apply, val_main_v46_apply, val_main_v45_apply, val_main_v44_apply, val_main_v43_apply, val_main_v42_apply, val_main_v29_apply, val_main_cst_13_apply, val_main_cst_12_apply]
  -- the position term: 1 · (s₄ / (2 · s₀))
  rw [val_main_v84_apply, val_main_v83_apply, val_main_v82_apply, val_main_cst_24_apply, val_main_cst_23_apply]
  -- the two pairings of the length term: 0.1 · (s₅ / (2 · s₀)) and 0.1 · (s₆ / (2 · s₀))
  rw [val_main_v121_apply, val_main_v120_apply, val_main_v119_apply, val_main_cst_35_apply, val_main_cst_34_apply]
  rw [val_main_v158_apply, val_main_v157_apply, val_main_v156_apply, val_main_cst_46_apply, val_main_cst_45_apply]
  -- the two pairings of the angle term: 1 · (s₇ / (2 · s₀) + s₈ / (2 · s₀)) and 1 · (s₉ / (2 · s₀) + s₁₀ / (2 · s₀))
  rw [val_main_v200_apply, val_main_v199_apply, val_main_v198_apply, val_main_v197_apply, val_main_v178_apply, val_main_v177_apply, val_main_cst_55_apply, val_main_cst_54_apply, val_main_cst_50_apply]
  rw [val_main_v242_apply, val_main_v241_apply, val_main_v240_apply, val_main_v239_apply, val_main_v220_apply, val_main_v219_apply, val_main_cst_64_apply, val_main_cst_63_apply, val_main_cst_59_apply]
  -- the unit-circle term: 0.5 · (s₁₁ / s₀ + s₁₂ / s₀)
  rw [val_main_v270_apply, val_main_v269_apply, val_main_v268_apply, val_main_v255_apply, val_main_cst_69_apply]
  -- the height term, as the reference spells it: (0.1 · s₁₃) / s₀
  rw [val_main_v288_apply, val_main_v287_apply, val_main_cst_74_apply]
  -- from here on the fourteen statistics are arbitrary extended reals
  unfold refStats
  generalize val_main_v10 (F := Ideal) x1 ix0 = s0
  generalize val_main_v19 (F := Ideal) x1 ix0 = s1
  generalize val_main_v28 (F := Ideal) x0 x1 ix0 = s2
  generalize val_main_v41 (F := Ideal) x0 x1 ix0 = s3
  generalize val_main_v81 (F := Ideal) x0 x1 ix0 = s4
  generalize val_main_v118 (F := Ideal) x0 x1 ix0 = s5
  generalize val_main_v155 (F := Ideal) x0 x1 ix0 = s6
  generalize val_main_v176 (F := Ideal) x0 x1 ix0 = s7
  generalize val_main_v196 (F := Ideal) x0 x1 ix0 = s8
  generalize val_main_v218 (F := Ideal) x0 x1 ix0 = s9
  generalize val_main_v238 (F := Ideal) x0 x1 ix0 = s10
  generalize val_main_v254 (F := Ideal) x0 x1 ix0 = s11
  generalize val_main_v267 (F := Ideal) x0 x1 ix0 = s12
  generalize val_main_v286 (F := Ideal) x0 x1 ix0 = s13
  clear x0 x1
  simp only [Ideal.addf_def, Ideal.mulf_def, Ideal.hostDivf_def, Ideal.hostNegf_def, Ideal.negf_def, Ideal.minimumf_def, Ideal.cmpf_def, Ideal.ofBits_def]
  simp only [loss]
  rw [vec_0, vec_1, vec_2, vec_3, vec_4, vec_5, vec_6, vec_7, vec_8, vec_9, vec_10, vec_11, vec_12, vec_13]
  -- the height term: the positive factor 0.1 moves across the quotient
  obtain ⟨c, hc, htc⟩ := tenth_pos
  have hH : ∀ a b : EReal, Ideal.div (tenth * a) b = tenth * Ideal.div a b := by
    intro a b
    rw [htc]
    exact (mul_div_pos hc a b).symm
  rw [hH s13 s0]

end Cert.ReferenceIdeal.Val

end
-- ==== Proof.Ref.Value.lean ====
/-
  The idealized reference's run, read as a value: every weakly fair execution ends with the result buffer at the loss of
  the fourteen statistics of the two argument arrays, and the arguments unchanged. The run names the result as the
  composed term of the program's operations; read one operation at a time that term is the loss of the reference's
  fourteen summed statistics, which are the specification's.
-/
import proofs.«112396_j67877663146547_1_alg».proof.Proof.RefRunP
import proofs.«112396_j67877663146547_1_alg».proof.Proof.Ref.StatA
import proofs.«112396_j67877663146547_1_alg».proof.Proof.Ref.StatB
import proofs.«112396_j67877663146547_1_alg».proof.Proof.Ref.StatC
import proofs.«112396_j67877663146547_1_alg».proof.Proof.Ref.Tail

set_option maxRecDepth 16384

noncomputable section

namespace Cert.ReferenceIdeal.Val

open Cert.ReferenceIdeal Cert.ReferenceIdeal.Gen Cert.ReferenceIdeal.ReadP Cert.Spec
open Idealize.ShloMosaic Idealize.ShloMosaic.TcCoe Idealize.ShloMosaic.ValueIdx Idealize.SL.Sem

open Cert.ReferenceIdeal.ValueP

variable (m : (ℓ : Loc nD τ sig) → Buf (Elt Ideal) ℓ) (ρ : Dev nD → PrngReg)

/-- The run's composed term for the result is the last operation's stage. -/
theorem res_eq (c : Dev nD) :
    res_main_v295 m c = val_main_v295 (F := Ideal) (m ((c.tc : Thread nD τ).loc main_arg0)) (m ((c.tc : Thread nD τ).loc main_arg1)) := by
  unfold res_main_v295; rfl

/-! Entry `k` of a fourteen-entry vector, over any type. -/
private theorem v14_0 {α : Type} (a0 a1 a2 a3 a4 a5 a6 a7 a8 a9 a10 a11 a12 a13 : α) : (![a0, a1, a2, a3, a4, a5, a6, a7, a8, a9, a10, a11, a12, a13] : Fin 14 → α) 0 = a0 := rfl
private theorem v14_1 {α : Type} (a0 a1 a2 a3 a4 a5 a6 a7 a8 a9 a10 a11 a12 a13 : α) : (![a0, a1, a2, a3, a4, a5, a6, a7, a8, a9, a10, a11, a12, a13] : Fin 14 → α) 1 = a1 := rfl
private theorem v14_2 {α : Type} (a0 a1 a2 a3 a4 a5 a6 a7 a8 a9 a10 a11 a12 a13 : α) : (![a0, a1, a2, a3, a4, a5, a6, a7, a8, a9, a10, a11, a12, a13] : Fin 14 → α) 2 = a2 := rfl
private theorem v14_3 {α : Type} (a0 a1 a2 a3 a4 a5 a6 a7 a8 a9 a10 a11 a12 a13 : α) : (![a0, a1, a2, a3, a4, a5, a6, a7, a8, a9, a10, a11, a12, a13] : Fin 14 → α) 3 = a3 := rfl
private theorem v14_4 {α : Type} (a0 a1 a2 a3 a4 a5 a6 a7 a8 a9 a10 a11 a12 a13 : α) : (![a0, a1, a2, a3, a4, a5, a6, a7, a8, a9, a10, a11, a12, a13] : Fin 14 → α) 4 = a4 := rfl
private theorem v14_5 {α : Type} (a0 a1 a2 a3 a4 a5 a6 a7 a8 a9 a10 a11 a12 a13 : α) : (![a0, a1, a2, a3, a4, a5, a6, a7, a8, a9, a10, a11, a12, a13] : Fin 14 → α) 5 = a5 := rfl
private theorem v14_6 {α : Type} (a0 a1 a2 a3 a4 a5 a6 a7 a8 a9 a10 a11 a12 a13 : α) : (![a0, a1, a2, a3, a4, a5, a6, a7, a8, a9, a10, a11, a12, a13] : Fin 14 → α) 6 = a6 := rfl
private theorem v14_7 {α : Type} (a0 a1 a2 a3 a4 a5 a6 a7 a8 a9 a10 a11 a12 a13 : α) : (![a0, a1, a2, a3, a4, a5, a6, a7, a8, a9, a10, a11, a12, a13] : Fin 14 → α) 7 = a7 := rfl
private theorem v14_8 {α : Type} (a0 a1 a2 a3 a4 a5 a6 a7 a8 a9 a10 a11 a12 a13 : α) : (![a0, a1, a2, a3, a4, a5, a6, a7, a8, a9, a10, a11, a12, a13] : Fin 14 → α) 8 = a8 := rfl
private theorem v14_9 {α : Type} (a0 a1 a2 a3 a4 a5 a6 a7 a8 a9 a10 a11 a12 a13 : α) : (![a0, a1, a2, a3, a4, a5, a6, a7, a8, a9, a10, a11, a12, a13] : Fin 14 → α) 9 = a9 := rfl
private theorem v14_10 {α : Type} (a0 a1 a2 a3 a4 a5 a6 a7 a8 a9 a10 a11 a12 a13 : α) : (![a0, a1, a2, a3, a4, a5, a6, a7, a8, a9, a10, a11, a12, a13] : Fin 14 → α) 10 = a10 := rfl
private theorem v14_11 {α : Type} (a0 a1 a2 a3 a4 a5 a6 a7 a8 a9 a10 a11 a12 a13 : α) : (![a0, a1, a2, a3, a4, a5, a6, a7, a8, a9, a10, a11, a12, a13] : Fin 14 → α) 11 = a11 := rfl
private theorem v14_12 {α : Type} (a0 a1 a2 a3 a4 a5 a6 a7 a8 a9 a10 a11 a12 a13 : α) : (![a0, a1, a2, a3, a4, a5, a6, a7, a8, a9, a10, a11, a12, a13] : Fin 14 → α) 12 = a12 := rfl
private theorem v14_13 {α : Type} (a0 a1 a2 a3 a4 a5 a6 a7 a8 a9 a10 a11 a12 a13 : α) : (![a0, a1, a2, a3, a4, a5, a6, a7, a8, a9, a10, a11, a12, a13] : Fin 14 → α) 13 = a13 := rfl

/-- The reference's fourteen statistics are the specification's. -/
theorem refStats_eq (x0 x1 : FVec Ideal S32x10x192x320 .f32) : refStats x0 x1 = stats (n := 32) x0 x1 := by
  funext j
  fin_cases j
  · exact (v14_0 _ _ _ _ _ _ _ _ _ _ _ _ _ _).trans (ref_stat_0 x0 x1)
  · exact (v14_1 _ _ _ _ _ _ _ _ _ _ _ _ _ _).trans (ref_stat_1 x0 x1)
  · exact (v14_2 _ _ _ _ _ _ _ _ _ _ _ _ _ _).trans (ref_stat_2 x0 x1)
  · exact (v14_3 _ _ _ _ _ _ _ _ _ _ _ _ _ _).trans (ref_stat_3 x0 x1)
  · exact (v14_4 _ _ _ _ _ _ _ _ _ _ _ _ _ _).trans (ref_stat_4 x0 x1)
  · exact (v14_5 _ _ _ _ _ _ _ _ _ _ _ _ _ _).trans (ref_stat_5 x0 x1)
  · exact (v14_6 _ _ _ _ _ _ _ _ _ _ _ _ _ _).trans (ref_stat_6 x0 x1)
  · exact (v14_7 _ _ _ _ _ _ _ _ _ _ _ _ _ _).trans (ref_stat_7 x0 x1)
  · exact (v14_8 _ _ _ _ _ _ _ _ _ _ _ _ _ _).trans (ref_stat_8 x0 x1)
  · exact (v14_9 _ _ _ _ _ _ _ _ _ _ _ _ _ _).trans (ref_stat_9 x0 x1)
  · exact (v14_10 _ _ _ _ _ _ _ _ _ _ _ _ _ _).trans (ref_stat_10 x0 x1)
  · exact (v14_11 _ _ _ _ _ _ _ _ _ _ _ _ _ _).trans (ref_stat_11 x0 x1)
  · exact (v14_12 _ _ _ _ _ _ _ _ _ _ _ _ _ _).trans (ref_stat_12 x0 x1)
  · exact (v14_13 _ _ _ _ _ _ _ _ _ _ _ _ _ _).trans (ref_stat_13 x0 x1)

/-- What the result buffer holds at the end. -/
def result (c : Dev nD) : Buf (Elt Ideal) ((c.tc : Thread nD τ).loc main_v295) :=
  fun _ => loss (stats (n := 32) (m ((c.tc : Thread nD τ).loc main_arg0)) (m ((c.tc : Thread nD τ).loc main_arg1)))

theorem run : θ_run (defs (F := Ideal)) (onTc (τ := τ) (main (F := Ideal))) ⟨m, fun _ => 0, ρ⟩ (fun r => ∀ c : Dev nD,
      r.2.mem ((c.tc : Thread nD τ).loc main_v295) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c).1.trans ((res_eq m c).trans ((ref_loss _ _).trans (by unfold result; rw [refStats_eq]; rfl))), (h c).2⟩)
    (ValueP.run (F := Ideal) m ρ)

end Cert.ReferenceIdeal.Val

end
-- ==== Proof.lean ====
/-
  The certificate of the detection loss kernel against its jnp reference, over the extended reals.

  The kernel walks eight grid points; at each it sums fourteen per-pixel terms over a block of four batch entries and
  adds the fourteen sums into a resident one-row output block, which host lines then combine into the loss. The
  reference sums the same terms over all thirty-two batch entries at once and combines them the same way, but for the
  height term, where it multiplies by 0.1 before dividing by the vehicle count.

  Frames: the kernel's two readings (words, extended reals) run to the end with the argument arrays unchanged by the
  pipeline's frame run around the region; the reference's by its run. Values: both end at the loss of the fourteen
  statistics of the argument arrays — the kernel because lane j of the output block accumulates the blocks' j-th
  statistics, whose sum over the eight blocks is the whole arrays' statistic (sums re-associate on the extended reals);
  the reference because each of its reductions is that sum, and a positive real factor moves across the extended
  quotient. The ideal pass rewrote nothing, so the preservation claim is trivial.
-/
import proofs.«112396_j67877663146547_1_alg».proof.Defs
import proofs.«112396_j67877663146547_1_alg».proof.Proof.Gen.Kernel
import proofs.«112396_j67877663146547_1_alg».proof.Proof.Gen.KernelIdeal
import proofs.«112396_j67877663146547_1_alg».proof.Proof.Gen.ReferenceIdeal
import proofs.«112396_j67877663146547_1_alg».proof.Proof.Gen.Pre_finite_inputs
import proofs.«112396_j67877663146547_1_alg».proof.Proof.K.Frame
import proofs.«112396_j67877663146547_1_alg».proof.Proof.KI.Value
import proofs.«112396_j67877663146547_1_alg».proof.Proof.Ref.Value
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Frame.frame m ρ

theorem frame_ki : Cert.frame_KernelIdeal (hKernelIdeal := Cert.KernelIdeal.Gen.facts) (hPre_finite_inputs := Cert.Pre_finite_inputs.Gen.facts) :=
  fun m ρ _ => Cert.KernelIdeal.Frame.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2)
    (Cert.ReferenceIdeal.ValueP.run (F := Ideal) m ρ)

/-- Both idealized programs end at the loss of the statistics of arguments that agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Val.result m c, Cert.KernelIdeal.Val.run m ρ, ?_⟩
  refine (θ_run Cert.ReferenceIdeal.defs _ _).mono (fun _ h c => ⟨(h c).1.trans ?_, (h c).2⟩)
    (Cert.ReferenceIdeal.Val.run m' ρ')
  unfold Cert.ReferenceIdeal.Val.result Cert.KernelIdeal.Val.result
  rw [(hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
